-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x1600000 : Shape := ⟨2, ![2, 1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : FVec F S128x64 .f32) (main_arg2 : FVec F S64 .f32) (main_arg3 : FVec F S64x32 .f32) (main_arg4 : FVec F S32 .f32) (main_arg5 : IVec S2x1600000 32) (main_arg6 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_v13 main_v16
-- ==== Kernel.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S100000x1 : Shape := ⟨2, ![100000, 1]⟩
abbrev S1x64 : Shape := ⟨2, ![1, 64]⟩
abbrev S1x32 : Shape := ⟨2, ![1, 32]⟩
abbrev S64x64 : Shape := ⟨2, ![64, 64]⟩
abbrev S64x1 : Shape := ⟨2, ![64, 1]⟩
abbrev S10000x1 : Shape := ⟨2, ![10000, 1]⟩

abbrev nBuf : Space → Nat
  | .hbm => 76
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S2x1600000, .i32⟩
  | .hbm, ⟨6, _⟩ => ⟨S100000, .i32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S100000x1, .i32⟩
  | .hbm, ⟨68, _⟩ => ⟨S1x64, .i32⟩
  | .hbm, ⟨69, _⟩ => ⟨S100000x64, .i32⟩
  | .hbm, ⟨70, _⟩ => ⟨S100000x64, .i32⟩
  | .hbm, ⟨71, _⟩ => ⟨S100000x64, .i1⟩
  | .hbm, ⟨72, _⟩ => ⟨S100000x64, .bf16⟩
  | .hbm, ⟨73, _⟩ => ⟨S1x64, .f32⟩
  | .hbm, ⟨74, _⟩ => ⟨S1x32, .f32⟩
  | .hbm, ⟨75, _⟩ => ⟨S64x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .bf16⟩
  | .local _ .vmem, ⟨9, _⟩ => ⟨S10000x64, .bf16⟩
  | .local _ .vmem, ⟨10, _⟩ => ⟨S64x32, .f32⟩
  | .local _ .vmem, ⟨11, _⟩ => ⟨S1x32, .f32⟩
  | .local _ .vmem, ⟨12, _⟩ => ⟨S64x32, .f32⟩
  | .local _ .vmem, ⟨13, _⟩ => ⟨S64x64, .f32⟩
  | .local _ .vmem, ⟨14, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_scratch0 : Ref sig .tc := ⟨.vmem, 13, rfl⟩
abbrev cc1_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v30 : BitVec 1 := Scalar.cmpi .eq arg0 c9_i32
  let v31 : BitVec 32 := Scalar.extui v30
  let c0_i32_18 : BitVec 32 := 0#32
  let v32 : BitVec 1 := Scalar.cmpi .ne v31 c0_i32_18
  v32

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  shapeCasts_S64_S1x64 : S64.ShapeCasts S1x64
  shapeCasts_S32_S1x32 : S32.ShapeCasts S1x32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  broadcasts_S64x1_S64x64 : S64x1.Broadcasts S64x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S10000x64_S64x64_0_0_1_1_n_n_wf : DotDims.WF S10000x64 S10000x64 S64x64 [0] [0] [1] [1] [] []
  dot_S10000x64_S10000x1_S64x1_0_0_1_1_n_n_wf : DotDims.WF S10000x64 S10000x1 S64x1 [0] [0] [1] [1] [] []
  dot_S64x64_S64x32_S64x32_1_0_0_1_n_n_wf : DotDims.WF S64x64 S64x32 S64x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .bf16 = 32 ∨ (Rect.block (s := S100000x64) S10000x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S10000x64_S64x64_0_0_1_1_n_n : DotDims S10000x64 S10000x64 S64x64 where
  lhsContracting := [0]
  rhsContracting := [0]
  lhsNonContracting := [1]
  rhsNonContracting := [1]
  lhsBatch := []
  rhsBatch := []
  wf := dot_S10000x64_S10000x64_S64x64_0_0_1_1_n_n_wf
def dot_S10000x64_S10000x1_S64x1_0_0_1_1_n_n : DotDims S10000x64 S10000x1 S64x1 where
  lhsContracting := [0]
  rhsContracting := [0]
  lhsNonContracting := [1]
  rhsNonContracting := [1]
  lhsBatch := []
  rhsBatch := []
  wf := dot_S10000x64_S10000x1_S64x1_0_0_1_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S64x32.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S64x64 : Shape := ⟨2, ![64, 64]⟩
abbrev S100000x1 : Shape := ⟨2, ![100000, 1]⟩
abbrev S64x1 : Shape := ⟨2, ![64, 1]⟩
abbrev S1x32 : Shape := ⟨2, ![1, 32]⟩

abbrev nBuf : Space → Nat
  | .hbm => 98
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S2x1600000, .i32⟩
  | .hbm, ⟨6, _⟩ => ⟨S100000, .i32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S1700000x1, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .i1⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S64x64, .f32⟩
  | .hbm, ⟨79, _⟩ => ⟨S100000x1, .i32⟩
  | .hbm, ⟨80, _⟩ => ⟨S64x64, .f32⟩
  | .hbm, ⟨81, _⟩ => ⟨S_, .f32⟩
  | .hbm, ⟨82, _⟩ => ⟨S100000, .f32⟩
  | .hbm, ⟨83, _⟩ => ⟨S_, .f32⟩
  | .hbm, ⟨84, _⟩ => ⟨S64, .f32⟩
  | .hbm, ⟨85, _⟩ => ⟨S100000x1, .i32⟩
  | .hbm, ⟨86, _⟩ => ⟨S64, .f32⟩
  | .hbm, ⟨87, _⟩ => ⟨S_, .f32⟩
  | .hbm, ⟨88, _⟩ => ⟨S64, .f32⟩
  | .hbm, ⟨89, _⟩ => ⟨S64, .f32⟩
  | .hbm, ⟨90, _⟩ => ⟨S64x1, .f32⟩
  | .hbm, ⟨91, _⟩ => ⟨S64x64, .f32⟩
  | .hbm, ⟨92, _⟩ => ⟨S64x64, .f32⟩
  | .hbm, ⟨93, _⟩ => ⟨S64x32, .f32⟩
  | .hbm, ⟨94, _⟩ => ⟨S1x32, .f32⟩
  | .hbm, ⟨95, _⟩ => ⟨S64x32, .f32⟩
  | .hbm, ⟨96, _⟩ => ⟨S64x32, .f32⟩
  | .hbm, ⟨97, _⟩ => ⟨S64x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_cst_14 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_15 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x32_S64x32_1_0_0_1_n_n_wf : DotDims.WF S64x64 S64x32 S64x32 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf

class Facts : Prop extends Facts₀ where

variable [Facts]
-- ==== Proof.K.MatmulRegion.lean ====
/-
  The first kernel region, at the buffer contents `V` it is entered from: the row-blocked matrix product.
  The grid has ten points. At point `t` the region stages rows `10000·t … 10000·t + 9999` of the left matrix (all 128
  columns), the whole right matrix (128 × 64: its block index never moves, so it is fetched once), and writes back
  rows `10000·t …` of the result (64 columns). The body loads the two staged blocks and stores, over the whole result
  block, their product accumulated into zero (the payload `k0_pay1` of the two loaded values); nothing is carried
  from one point to the next.
  Stated here, for any float instance: what each window's staging buffer holds before and after the body
  (`iblk0`, `outBlock`), the body's triple, the region's proof data `dat0` and the body obligation at every point.
-/
import proofs.«428046_j7275674600336_1_alg».proof.Proof.Gen.Kernel.Launch
import proofs.«428046_j7275674600336_1_alg».proof.Proof.Gen.Kernel.Skeleton
import proofs.«428046_j7275674600336_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Matmul

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left matrix's staging buffer holds its row block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right matrix's staging buffer holds the whole matrix at every point, fetched there or not: its block index
    does not move. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and stores -/

/-- The whole left block, the whole right matrix, the whole result block: the three rectangles the body touches. -/
abbrev rLeft : Rect S10000x128 := Rect.unit (s := S10000x128) ![0, 0] S10000x128.size inb_S10000x128_S10000x128_0_0
abbrev rRight : Rect S128x64 := Rect.unit (s := S128x64) ![0, 0] S128x64.size inb_S128x64_S128x64_0_0
abbrev rOut : Rect S10000x64 := Rect.unit (s := S10000x64) ![0, 0] S10000x64.size inb_S10000x64_S10000x64_0_0

/-- The result block after the body, from the two staged blocks: its one store, of the product of the two loaded
    values, read back over the whole block. -/
def outBlock (x0 : Vec F S10000x128 .f32) (x1 : Vec F S128x64 .f32) : Vec F S10000x64 .f32 :=
  View.canon [⟨rOut, k0_pay1 (View.ld x0 rLeft) (View.ld x1 rRight)⟩]

/-- That one store covers the block. -/
theorem cover_out (p0 : Vec F S10000x64 .f32) (y : S10000x64.Idx) :
    ∃ pc ∈ ([⟨rOut, p0⟩] : List (View.Piece (Elt F) S10000x64 .f32)), y ∈ pc.1.set :=
  View.cover_of_tiled [⟨rOut, p0⟩] S10000x64.size (by rfl) y

/-! ## The body's triple -/

set_option maxHeartbeats 1000000 in
/-- On whole staging memrefs — the two inputs' at `x0`, `x1`, the result's at anything — the body runs to its return
    leaving the inputs as they were and the result's buffer at `outBlock x0 x1`. -/
theorem sound_kernel0 (c : Dev nD) (E : Set ℕ) (i : grid0.Coords)
    (arg1 : Memref sig .tc .vmem S10000x128 .f32) (harg1 : arg1.IsWhole) (arg2 : Memref sig .tc .vmem S128x64 .f32) (harg2 : arg2.IsWhole)
    (arg3 : Memref sig .tc .vmem S10000x64 .f32) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlock x0 x1)) -∗ K ⟨⟩))
      ⊢ wp frame (wpE (defs₀ (F := F)) Variants.none c none) E (cc0__h_matmul_kernel i arg1 harg1 arg2 harg2 arg3 harg3) K := by
  simp only [cc0__h_matmul_kernel_eq_skeleton]; unfold cc0__h_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The region's proof data -/

/-- The proof data of the first region on core `c`: the three arrays as the region finds them; after the body at
    point `t` each input's buffer at its block and the result's at `outBlock` of the two; between points nothing of
    the kernel's own is kept (the invariant is the scoped buffers no window stages and the generator register, both
    untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outBlock (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outBlock (iblk0 V c 0 t) (iblk0 V c 1 t) := by
  dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Cert.Kernel.Matmul

end
-- ==== Proof.K.Run.lean ====
/-
  The whole program's run, segment by segment: three stretches of host operations, the first kernel region (the
  row-blocked matrix product), three more stretches, the second kernel region (the pooling), from the launch to the
  return. Between two segments a core holds every unscoped buffer whole at the contents the segments so far have
  left — the launch contents, then each stretch's operations applied, then a region's result array replaced by what
  the region's write-backs leave — beside the generator register at some state and the core owing nothing.
  What is stated here, for any float instance and for ANY proof data `D1` of the second region that meets six
  facts (its arrays are the contents the region is entered from; full shares; nothing owed; its body obligation; its
  invariant follows from the scoped buffers and the generator register before the first point, and gives them back
  after the last): the two results named by the regions' proof data (`hOut`, `pOut`), each region as a segment,
  the frame claim (every argument array ends as launched), and the run with the program's result named: the final
  memory holds `pOut` at the result buffer.
-/
import proofs.«428046_j7275674600336_1_alg».proof.Proof.Gen.Kernel.Regions
import proofs.«428046_j7275674600336_1_alg».proof.Proof.K.MatmulRegion
import Idealize.ShloMosaic.Lib.Pipeline.RegionsLoop

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents the regions are entered from, and what they leave -/

/-- The contents the first region is entered from: the launch contents after the first three stretches. -/
abbrev VA : (c : Dev nD) → (b : Ref sig .tc) → Buf (Elt F) ((c : Thread nD τ).loc b) := fun c b => V3 m c b

/-- The first region's result array after its ten write-backs. -/
def hOut (c : Dev nD) : Buf (Elt F) ((c : Thread nD τ).loc main_v32) :=
  (Matmul.dat0 (VA m) c).arrAt 2 cfg0.N

/-- The regions' results with only the first one named: enough to state the contents the second region is
    entered from. -/
def outsA : Outs (F := F) := fun _ r c => Function.update (V3 m c) main_v32 (hOut m c) r

/-- The contents the second region is entered from. -/
abbrev VB : (c : Dev nD) → (b : Ref sig .tc) → Buf (Elt F) ((c : Thread nD τ).loc b) := fun c b => V7 m (outsA m) c b

variable (D1 : (c : Dev nD) → Dat τ (Elt F) Unit ℕ (UR sig nD τ) ℕ cfg1 c)

/-- The second region's result array after its one write-back. -/
def pOut (c : Dev nD) : Buf (Elt F) ((c : Thread nD τ).loc main_v49) := (D1 c).arrAt 5 cfg1.N

/-- Both results named. -/
def outs : Outs (F := F) := fun n r c =>
  if n = 8 then Function.update (V7 m (outsA m) c) main_v49 (pOut D1 c) r else outsA m n r c

theorem outs_4 (c : Dev nD) : outs m D1 4 main_v32 c = hOut m c := by
  unfold outs outsA; rw [if_neg (by decide)]; exact Function.update_self _ _ _

theorem outsA_4 (c : Dev nD) : outsA m 4 main_v32 c = hOut m c := by
  unfold outsA; exact Function.update_self _ _ _

/-- The contents after the first region do not depend on how the second result is named. -/
theorem V4_outs (c : Dev nD) : V4 m (outs m D1) c = V4 m (outsA m) c := by
  unfold V4; rw [outs_4, outsA_4]

theorem V7_outs (c : Dev nD) : V7 m (outs m D1) c = V7 m (outsA m) c := by
  unfold V7 V6 V5; rw [V4_outs]

theorem outs_8 (c : Dev nD) : outs m D1 8 main_v49 c = pOut D1 c := by
  unfold outs; rw [if_pos rfl]; exact Function.update_self _ _ _

/-- The final contents hold the second region's result at its buffer. -/
theorem V8_result (c : Dev nD) : V8 m (outs m D1) c main_v49 = pOut D1 c := by
  unfold V8; rw [Function.update_self, outs_8]

/-! ## The proof data family and what rides along -/

/-- Every pipeline's proof data, each at its region's entry contents: a literal match, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => Matmul.dat0 (VA m) c
  | ⟨1, _⟩ => fun c => D1 c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the generator register at some state and the core owing
    nothing. -/
abbrev R (c : Dev nD) : sProp 𝕄 := iprop((∃ r, prngReg c r) ∗ ∃ W, owes (c : Thread nD τ) (0 : CellTallies nD τ sig Unit) W)

/-! ## The first region as a segment -/

/-- After the first region each of its arrays holds what the pipeline leaves: the two inputs as entered, the result
    at `hOut`. -/
theorem hF0 (c : Dev nD) (w : Fin cfg0.W) :
    (pdats m D1 0 c).arrAt w cfg0.N = (fun b : Ref sig .tc => V4 m (outs m D1) c b) (Pipeline.arrRef spec0 w) := by
  fin_cases w
  · exact ((pdats m D1 0 c).arrAt_in 0 rfl _).trans (V4_of m (outs m D1) c main_arg0 (by decide)).symm
  · exact ((pdats m D1 0 c).arrAt_in 1 rfl _).trans (V4_of m (outs m D1) c main_arg1 (by decide)).symm
  · show hOut m c = V4 m (outs m D1) c main_v32
    unfold V4; rw [Function.update_self, outs_4]

/-- and every other buffer what it held at entry. -/
theorem hrest0 (c : Dev nD) : ∀ b : Ref sig .tc, b ∉ Finset.univ.image (Pipeline.arrRef spec0) →
    (fun b : Ref sig .tc => V4 m (outs m D1) c b) b = VA m c b :=
  fun b hb => V4_of m (outs m D1) c b (by
    intro h; rw [List.mem_singleton] at h; subst h
    exact hb (Finset.mem_image.mpr ⟨2, Finset.mem_univ _, rfl⟩))

-- a library lemma stated over the pinned configuration unifies with the printed one only when unification may
-- unfold plain definitions in a metavariable's type
set_option backward.isDefEq.respectTransparency.types false in
/-- The first region over the thread state: entered from every unscoped buffer at the contents after the first
    three stretches, left with the result array replaced. Its three arrays are split out of the unscoped buffers and
    put back at the exit contents; the generator register goes into the region's invariant and comes back; nothing
    is owed; the kernel has no semaphore of its own. -/
def reg0 : Pipeline.RegionSeg (pcfgs (F := F)) adm (pdats m D1) () defs₀ 𝒱₀ L lv 0 where
  win := launch0.win.to₀
  block_pos := launch0.block_pos
  stage_whole := launch0.stage_whole
  K := PEmpty
  osem k := k.elim
  ho := Pipeline.OwnSemFacts.none _
  hbody c := (Matmul.body_obligation0 (VA m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m D1) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m D1) launch0.win launch0.arr_whole c
      ((pdats m D1 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m D1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m D1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m D1) ((pdats m D1 0 c).share_full fun _ => rfl)
      (VA m c) (fun b : Ref sig .tc => V4 m (outs m D1) c b) ((pdats m D1 0 c).arrAt · cfg0.N) (hF0 m D1 c) (hrest0 m D1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region as a segment, for any proof data meeting six facts -/

variable (hA1 : ∀ c w, (D1 c).A w = VB m c (Pipeline.arrRef spec1 w))
  (hq1 : ∀ c w, (D1 c).q w = fullShare)
  (howed1 : ∀ c t, (D1 c).owed t = 0)
  (hrec1 : ∀ c t, (D1 c).recorded t = Set.univ)
  (hbody1 : ∀ c, BodyObligation (D1 c) (defs₀ (F := F)) Variants.none () Set.univ)
  (hin1 : ∀ c, Pipeline.ΦA spec1 c ⊢ (D1 c).Φ 0)
  (hout1 : ∀ c, (D1 c).Φ (Fin.last cfg1.N) ⊢ Pipeline.ΦA spec1 c)

include hA1 in
/-- After the second region each of its arrays holds what the pipeline leaves: the five inputs as entered, the
    result at `pOut`. -/
theorem hF1 (c : Dev nD) (w : Fin cfg1.W) :
    (pdats m D1 1 c).arrAt w cfg1.N = (fun b : Ref sig .tc => V8 m (outs m D1) c b) (Pipeline.arrRef spec1 w) := by
  fin_cases w
  · exact ((pdats m D1 1 c).arrAt_in 0 rfl _).trans ((hA1 c 0).trans (by
      show V7 m (outsA m) c main_v45 = V8 m (outs m D1) c main_v45
      rw [← V7_outs m D1 c]; exact (V8_of m (outs m D1) c main_v45 (by decide)).symm))
  · exact ((pdats m D1 1 c).arrAt_in 1 rfl _).trans ((hA1 c 1).trans (by
      show V7 m (outsA m) c main_v47 = V8 m (outs m D1) c main_v47
      rw [← V7_outs m D1 c]; exact (V8_of m (outs m D1) c main_v47 (by decide)).symm))
  · exact ((pdats m D1 1 c).arrAt_in 2 rfl _).trans ((hA1 c 2).trans (by
      show V7 m (outsA m) c main_v46 = V8 m (outs m D1) c main_v46
      rw [← V7_outs m D1 c]; exact (V8_of m (outs m D1) c main_v46 (by decide)).symm))
  · exact ((pdats m D1 1 c).arrAt_in 3 rfl _).trans ((hA1 c 3).trans (by
      show V7 m (outsA m) c main_arg3 = V8 m (outs m D1) c main_arg3
      rw [← V7_outs m D1 c]; exact (V8_of m (outs m D1) c main_arg3 (by decide)).symm))
  · exact ((pdats m D1 1 c).arrAt_in 4 rfl _).trans ((hA1 c 4).trans (by
      show V7 m (outsA m) c main_v48 = V8 m (outs m D1) c main_v48
      rw [← V7_outs m D1 c]; exact (V8_of m (outs m D1) c main_v48 (by decide)).symm))
  · exact (V8_result m D1 c).symm

/-- and every other buffer what it held at entry. -/
theorem hrest1 (c : Dev nD) : ∀ b : Ref sig .tc, b ∉ Finset.univ.image (Pipeline.arrRef spec1) →
    (fun b : Ref sig .tc => V8 m (outs m D1) c b) b = VB m c b :=
  fun b hb => (V8_of m (outs m D1) c b (by
    intro h; rw [List.mem_singleton] at h; subst h
    exact hb (Finset.mem_image.mpr ⟨5, Finset.mem_univ _, rfl⟩))).trans (by rw [V7_outs])

include howed1 hrec1 in
/-- The core owing nothing, with whatever pairs it has recorded, is what the second region's proof data ask of it at
    every point: they owe nothing and bound the recorded pairs by nothing. -/
theorem owesAt_intro (c : Dev nD) (t : Fin (cfg1.N + 1)) :
    (iprop(∃ W, owes (c : Thread nD τ) (0 : CellTallies nD τ sig Unit) W) : sProp 𝕄) ⊢ (pdats m D1 1 c).owesAt () t := by
  unfold Pipeline.Dat.owesAt Pipeline.owesWithin
  rw [show (pdats m D1 1 c).owed t = 0 from howed1 c t]
  iintro ⟨%W, HO⟩; iexists W; isplitr
  · ipureintro; intro x _; exact Or.inl (by rw [show (pdats m D1 1 c).recorded t = Set.univ from hrec1 c t]; trivial)
  iexact HO

include howed1 in
theorem owesAt_elim (c : Dev nD) (t : Fin (cfg1.N + 1)) :
    (pdats m D1 1 c).owesAt () t ⊢ (iprop(∃ W, owes (c : Thread nD τ) (0 : CellTallies nD τ sig Unit) W) : sProp 𝕄) := by
  unfold Pipeline.Dat.owesAt Pipeline.owesWithin
  rw [show (pdats m D1 1 c).owed t = 0 from howed1 c t]
  iintro ⟨%W, -, HO⟩; iexists W; iexact HO

set_option backward.isDefEq.respectTransparency.types false in
/-- The second region over the thread state: entered from every unscoped buffer at the contents after the last three
    stretches, left with the result array replaced. Its six arrays are split out of the unscoped buffers and put back
    at the exit contents; the generator register and the scoped buffers no window stages go into the region's
    invariant before the first point and come back after the last; nothing is owed. -/
def reg1 : Pipeline.RegionSeg (pcfgs (F := F)) adm (pdats m D1) () defs₀ 𝒱₀ L lv 1 where
  win := launch1.win.to₀
  block_pos := launch1.block_pos
  stage_whole := launch1.stage_whole
  K := PEmpty
  osem k := k.elim
  ho := Pipeline.OwnSemFacts.none _
  hbody c := (hbody1 c).loose
  hwaits := Pipeline.hwaits_of_owed_zero _ _ _ _ L lv 1 fun c t => howed1 c t
  pre c := iprop(StableHlo.held (c : Thread nD τ) (Pipeline.ucRefs τ sig) (V7 m (outs m D1) c) ∗ R c)
  post c := iprop(StableHlo.held (c : Thread nD τ) (Pipeline.ucRefs τ sig) (V8 m (outs m D1) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none, V7_outs]
    have hsplit := Pipeline.arrays_of_unscopedBufs (p := 1) (pcfgs (F := F)) adm (pdats m D1) launch1.win launch1.arr_whole c
      ((pdats m D1 1 c).share_full fun w => hq1 c w) (VB m c) fun w => hA1 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro m D1 howed1 hrec1 c 0); iexact HO
    isplitl [Hp]; · iexact Hp
    iexact Hrest
  hin c :=
    (show _ ⊢ (Pipeline.ΦA spec1 c : sProp 𝕄) from by
      unfold Pipeline.ΦA
      iintro ⟨Hp, -, Hr⟩
      isplitl [Hr]; · iexact Hr
      iexact Hp).trans (hin1 c)
  hout c :=
    (hout1 c).trans (show (Pipeline.ΦA spec1 c : sProp 𝕄) ⊢ _ from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m D1) ((pdats m D1 1 c).share_full fun w => hq1 c w)
      (VB m c) (fun b : Ref sig .tc => V8 m (outs m D1) c b) ((pdats m D1 1 c).arrAt · cfg1.N) (hF1 m D1 hA1 c) (hrest1 m D1 c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim m D1 howed1 c (Fin.last cfg1.N)); iexact HO

/-! ## The launch: its ghost element, and the first and last of what rides along -/

/-- The launch element: the pipeline library's own, at every pipeline's staging cells. -/
abbrev u₀ : UR sig nD τ := initOf (Pipeline.cells cfgs cellOf_inj) (Pipeline.launchToks cfgs cellOf_inj)

theorem hu₀ : (ownU (u₀) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core makes the first of what rides along. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

/-- The last of what rides along has the core owing nothing. -/
theorem hE2 (c : Dev nD) : (R c : sProp 𝕄) ⊢ iprop(∃ W, owes (c : Thread nD τ) (0 : CellTallies nD τ sig Unit) W) := by
  iintro ⟨-, HO⟩; iexact HO

/-! ## The frame, and the run with the result named -/

include hA1 hq1 howed1 hrec1 hbody1 hin1 hout1 in
/-- Every weakly fair execution of the program from memory `m` with zero counters terminates, and every final memory
    holds each argument array as launched: the conditional frame of the program's segments, given the two regions'
    records. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_cond (F := F) m (EP := emb₁) (ι := ()) (𝒱₀ := 𝒱₀) (L := L) (lv := lv) (hL := fun _ _ => rfl) (ρ := ρ) (outs := outs m D1)
    (pdats := pdats m D1) (O₀ := 0) (G := fun _ => (BI.emp : sProp 𝕄)) (u₀ := u₀) (hu₀ := hu₀)
    (E := fun _ c => R c) (hE0 := hE0 ρ) (hE2 := hE2)
    (R0 := reg0 m D1) (hpre0 := fun _ => .rfl) (hpost0 := fun _ => .rfl)
    (R1 := reg1 m D1 hA1 hq1 howed1 hrec1 hbody1 hin1 hout1) (hpre1 := fun _ => .rfl) (hpost1 := fun _ => .rfl)

-- the launch theorem's implicit arguments are found by unifying its conclusion with this one, which takes unfolding
-- plain definitions in a metavariable's type
set_option backward.isDefEq.respectTransparency.types false in
include hA1 hq1 howed1 hrec1 hbody1 hin1 hout1 in
/-- The same launch with the program's result named: every weakly fair execution from memory `m` with zero counters
    terminates, and every final memory holds the second region's result `pOut` at the result buffer and each argument
    array as launched. The last thread state holds every unscoped buffer at the final contents; each buffer is read
    off it against the final state. -/
theorem run_out (ρ : Dev nD → PrngReg) :
    θ_run defs (onTc (τ := τ) (main (F := F))) ⟨m, fun _ => 0, ρ⟩ (fun r => ∀ c : Dev nD,
      r.2.mem ((c.tc : Thread nD τ).loc main_v49) = pOut D1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm (pdats m D1) () cellOf_inj emb₁ defs₀ 𝒱₀ L lv m ρ main
    (segs m (outs m D1) 𝒱₀ L lv (fun _ c => R c) () (pdats m D1) (reg0 m D1) (reg1 m D1 hA1 hq1 howed1 hrec1 hbody1 hin1 hout1))
    (fun c Q => by
      rewrite [main_chain c, Seg.run_eq_chain,
        show (segs m (outs m D1) 𝒱₀ L lv (fun _ c => R c) () (pdats m D1) (reg0 m D1) (reg1 m D1 hA1 hq1 howed1 hrec1 hbody1 hin1 hout1) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [segs, Seg.pipes_host, Seg.pipes_region, Seg.pipes_nil]; decide) 0 (fun _ _ => rfl)
    (fun _ => (BI.emp : sProp 𝕄)) u₀ hu₀
    (T₀ := fun c => iprop(StableHlo.held (c : Thread nD τ) (Pipeline.ucRefs τ sig) (V0 m c) ∗ R c))
    (Tₙ := fun c => StableHlo.held (c : Thread nD τ) (Pipeline.ucRefs τ sig) (V8 m (outs m D1) c))
    (hch := fun c => ⟨.rfl, .rfl, .rfl, .rfl, .rfl, .rfl, .rfl, .rfl, sep_mono .rfl (hE2 c)⟩)
    (hinit := ?_)
    (QY := fun c s => s.mem ((c.tc : Thread nD τ).loc main_v49) = pOut D1 c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => ?_) (hQ := fun _ h => h)
  · -- the launch, core by core: the unscoped buffers are held at the launch contents; the generator register and the
    -- core owing nothing ride along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result buffer and each argument's, read off the last contents
    unfold StableHlo.held
    iintro ⟨Hh, HSI⟩
    ihave Hr := (pointsTo_read_all (Pipeline.ucRefs τ sig) (fun b => ((c : Thread nD τ).1, b)) (V8 m (outs m D1) c) s') $$ [Hh HSI]
    · isplitl [Hh] <;> iassumption
    icases Hr with ⟨%h, HSI⟩
    imodintro
    isplitr
    · ipureintro
      exact ⟨(h (Proc.devRef .tc main_v49) (Finset.mem_filter.mpr ⟨StableHlo.devRef_mem_tcRefs main_v49, by decide⟩)).trans (V8_result m D1 c),
        (h (Proc.devRef .tc main_arg0) (Finset.mem_filter.mpr ⟨StableHlo.devRef_mem_tcRefs main_arg0, by decide⟩)).trans (V8_main_arg0 m (outs m D1) c),
        (h (Proc.devRef .tc main_arg1) (Finset.mem_filter.mpr ⟨StableHlo.devRef_mem_tcRefs main_arg1, by decide⟩)).trans (V8_main_arg1 m (outs m D1) c),
        (h (Proc.devRef .tc main_arg2) (Finset.mem_filter.mpr ⟨StableHlo.devRef_mem_tcRefs main_arg2, by decide⟩)).trans (V8_main_arg2 m (outs m D1) c),
        (h (Proc.devRef .tc main_arg3) (Finset.mem_filter.mpr ⟨StableHlo.devRef_mem_tcRefs main_arg3, by decide⟩)).trans (V8_main_arg3 m (outs m D1) c),
        (h (Proc.devRef .tc main_arg4) (Finset.mem_filter.mpr ⟨StableHlo.devRef_mem_tcRefs main_arg4, by decide⟩)).trans (V8_main_arg4 m (outs m D1) c),
        (h (Proc.devRef .tc main_arg5) (Finset.mem_filter.mpr ⟨StableHlo.devRef_mem_tcRefs main_arg5, by decide⟩)).trans (V8_main_arg5 m (outs m D1) c),
        (h (Proc.devRef .tc main_arg6) (Finset.mem_filter.mpr ⟨StableHlo.devRef_mem_tcRefs main_arg6, by decide⟩)).trans (V8_main_arg6 m (outs m D1) c)⟩
    · iexact HSI

end Cert.Kernel.Run

end
-- ==== Proof.K.PoolRuns.lean ====
/-
  The second kernel region (segment pooling), at the buffer contents `V` it is entered from: what its three control
  cases share.
  The grid has ten points. At point `t` the region stages rows `10000·t … 10000·t + 9999` of the aggregated features
  (64 columns) and of the one-hot segment matrix (64 columns, bf16), and — once, their block index never moving — the
  bias row (1 × 64), the second weight matrix (64 × 32) and the second bias row (1 × 32). The output block (64 × 32)
  has a constant block index too; it is written back after the last point only. Two scratch buffers are carried from
  point to point: the running segment sums (64 × 64) and the running segment counts (64 × 1).
  The body: at the first point it zeroes both scratches; at every point it adds this point's contribution to each;
  at the last point it then divides the sums by the counts (at least one), multiplies by the second weight matrix,
  adds the second bias, applies tanh, and stores the result over the whole output block. At every other point the
  output's staging buffer is not touched.
  Stated here, for any float instance: each window's block at a point, what an input's staging buffer holds when the
  body is called, the two branch conditions in closed form, where the output window is idle, and the region's
  invariant with the two scratches split out.
-/
import proofs.«428046_j7275674600336_1_alg».proof.Proof.Gen.Kernel.Launch
import proofs.«428046_j7275674600336_1_alg».proof.Proof.Gen.Kernel.Skeleton
import proofs.«428046_j7275674600336_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregated features' staging buffer holds this point's row block at every point, for any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the row at every point, fetched there or not: its block index does not move. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one-hot matrix's staging buffer holds this point's row block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The second weight matrix's staging buffer holds the matrix at every point: its block index does not move. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The second bias row's staging buffer holds the row at every point: its block index does not move. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- The condition of the body's first branch (the reset of the scratches), from the grid coordinates. -/
abbrev condFirst (i : grid1.Coords) : Prop :=
  (Scalar.cmpi .ne (Scalar.extui (Scalar.cmpi .eq (BitVec.ofNat 32 (i 0).val) 0#32)) 0#32) = 1#1
/-- It holds at the first point only. -/
theorem condFirst_iff : ∀ t : Fin cfg1.N, condFirst (grid1.coords t) ↔ t.val = 0 :=
  (by decide +kernel : ∀ t : Fin grid1.N, condFirst (grid1.coords t) ↔ t.val = 0)

/-- The condition of the body's second branch (the final projection into the output block). -/
abbrev condLast (i : grid1.Coords) : Prop := k1_cond2 i = 1#1
/-- It holds at the last point only. -/
theorem condLast_iff : ∀ t : Fin cfg1.N, condLast (grid1.coords t) ↔ t.val = 9 :=
  (by decide +kernel : ∀ t : Fin grid1.N, condLast (grid1.coords t) ↔ t.val = 9)

/-! ## Where the windows are idle -/

/-- The five input windows are never idle. -/
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl
/-- Away from the last point the output window is idle: the body stores nothing into it there, -/
theorem idle1_5 : ∀ t : Fin cfg1.N, ¬condLast (grid1.coords t) → cfg1.idle 5 (grid1.coords t) = true := by decide +kernel
/-- and the pipeline does not write its block back there. -/
theorem noFlush1_5 : ∀ t : Fin cfg1.N, ¬condLast (grid1.coords t) → (cfg1.win 5).flush t = false := by decide +kernel
/-- At the last point it is live: the body stores the whole block. -/
theorem live1_5 : ∀ t : Fin cfg1.N, condLast (grid1.coords t) → cfg1.idle 5 (grid1.coords t) = false := by decide +kernel

/-! ## The scratch operands and the region's invariant -/

/-- The running sums and the running counts: whole scoped buffers of the kernel's own, passed beside the windows. -/
abbrev scM0 : Memref sig .tc .vmem S64x64 .f32 := Memref.whole cc1_scratch0
abbrev scM1 : Memref sig .tc .vmem S64x1 .f32 := Memref.whole cc1_scratch1

/-- The zero offsets of a whole-buffer access, however spelt. -/
theorem zeros2 : (![0, 0] : Fin 2 → ℕ) = fun _ => 0 := by funext a; fin_cases a <;> rfl

/-- The core's scoped buffers that are no staging buffer of this region, one by one: the other region's five staging
    buffers at some contents each, then the two scratches as `S0`, `S1` say. -/
def scopedChain (c : Dev nD) (S0 S1 : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ S0 ∗ S1)

/-- The class invariant with the two scratches as memrefs owned at some contents: what the body is handed at the
    first point and what the region returns at the end. -/
theorem PhiA1_eq (c : Dev nD) :
    (Pipeline.ΦA spec1 c : sProp 𝕄)
      = iprop(scopedChain c (iprop(∃ d, owns (c : Thread nD τ) scM0 fullShare d)) (iprop(∃ d, owns (c : Thread nD τ) scM1 fullShare d))
          ∗ (∃ r, prngReg c r)) := by
  unfold Pipeline.ΦA scopedChain; rw [scopedRest1_eq]; simp only [scM0, scM1, owns_whole]; try rfl

end Cert.Kernel.Pool

end
-- ==== Proof.K.PoolRunA.lean ====
/-
  The pooling kernel's body at the first point: the reset, then the update; no projection. From the five staged
  inputs at their contents, the output's staging buffer at whatever it holds and the two scratches at anything, the
  body runs to the same inputs, the output buffer as found, and each scratch at the update of its zeroed contents.
-/
import proofs.«428046_j7275674600336_1_alg».proof.Proof.K.PoolRuns

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at the first point. -/
theorem runA (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .bf16) (harg3 : arg3.IsWhole) (arg4 : Memref sig .tc .vmem S64x32 .f32) (harg4 : arg4.IsWhole) (arg5 : Memref sig .tc .vmem S1x32 .f32) (harg5 : arg5.IsWhole) (arg6 : Memref sig .tc .vmem S64x32 .f32) (harg6 : arg6.IsWhole) (arg7 : Memref sig .tc .vmem S64x64 .f32) (harg7 : arg7.IsWhole) (arg8 : Memref sig .tc .vmem S64x1 .f32) (harg8 : arg8.IsWhole) (hc0 : condFirst i) (hc1 : ¬condLast i)
    (x0 : Vec F S10000x64 .f32) (x1 : Vec F S1x64 .f32) (x2 : Vec F S10000x64 .bf16) (x3 : Vec F S64x32 .f32) (x4 : Vec F S1x32 .f32) (xi5 : Vec F S64x32 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare (k1_pay5 x0 x1 x2 k1_pay2) ∗ owns (c : Thread nD τ) arg8 fullShare (k1_pay6 x2 k1_pay3)) -∗ K ⟨⟩))
      ⊢ wp frame (wpE (defs₀ (F := F)) Variants.none c none) E (cc1__pool_kernel i arg1 harg1 arg2 harg2 arg3 harg3 arg4 harg4 arg5 harg5 arg6 harg6 arg7 harg7 arg8 harg8) K := by
  simp only [cc1__pool_kernel_eq_skeleton]; unfold cc1__pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [HS0]
  · iexists _; isplitr
    swap; · iexact HS0
    ipureintro
    sl_unfold_words
    rw [View.read_writes_eq_canon _ _ _ (fun y => ⟨_, List.mem_cons_self .., View.mem_set_unit_zero zeros2 inb_S64x64_S64x64_0_0 y⟩), View.canon_cons_unit_zero (S := S64x64) zeros2]
    simp only [View.readAt_eq_ld, harg1.read_unread, harg2.read_unread, harg3.read_unread, harg4.read_unread, harg5.read_unread, harg6.read_unread, harg7.read_unread, harg8.read_unread, View.ld_unit_zero (S := S10000x64) zeros2, View.ld_unit_zero (S := S1x64) zeros2, View.ld_unit_zero (S := S64x64) zeros2, View.ld_unit_zero (S := S64x1) zeros2, View.ld_unit_zero (S := S64x32) zeros2, View.ld_unit_zero (S := S1x32) zeros2, View.readCov_unit_zero (S := S64x64) _ zeros2, View.readCov_unit_zero (S := S64x1) _ zeros2]
  iexists _; isplitr
  swap; · iexact HS1
  ipureintro
  sl_unfold_words
  rw [View.read_writes_eq_canon _ _ _ (fun y => ⟨_, List.mem_cons_self .., View.mem_set_unit_zero zeros2 inb_S64x1_S64x1_0_0 y⟩), View.canon_cons_unit_zero (S := S64x1) zeros2]
  simp only [View.readAt_eq_ld, harg1.read_unread, harg2.read_unread, harg3.read_unread, harg4.read_unread, harg5.read_unread, harg6.read_unread, harg7.read_unread, harg8.read_unread, View.ld_unit_zero (S := S10000x64) zeros2, View.ld_unit_zero (S := S1x64) zeros2, View.ld_unit_zero (S := S64x64) zeros2, View.ld_unit_zero (S := S64x1) zeros2, View.ld_unit_zero (S := S64x32) zeros2, View.ld_unit_zero (S := S1x32) zeros2, View.readCov_unit_zero (S := S64x64) _ zeros2, View.readCov_unit_zero (S := S64x1) _ zeros2]

end Cert.Kernel.Pool

end
-- ==== Proof.K.PoolRunB.lean ====
/-
  The pooling kernel's body at a point that is neither the first nor the last: no reset, no projection. From the
  five staged inputs at their contents, the output's staging buffer at whatever it holds and the two scratches at
  what the point before left, the body runs to the same inputs, the output buffer as found, and each scratch at this
  point's update of it.
-/
import proofs.«428046_j7275674600336_1_alg».proof.Proof.K.PoolRuns

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at a middle point. -/
theorem runB (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .bf16) (harg3 : arg3.IsWhole) (arg4 : Memref sig .tc .vmem S64x32 .f32) (harg4 : arg4.IsWhole) (arg5 : Memref sig .tc .vmem S1x32 .f32) (harg5 : arg5.IsWhole) (arg6 : Memref sig .tc .vmem S64x32 .f32) (harg6 : arg6.IsWhole) (arg7 : Memref sig .tc .vmem S64x64 .f32) (harg7 : arg7.IsWhole) (arg8 : Memref sig .tc .vmem S64x1 .f32) (harg8 : arg8.IsWhole) (hc0 : ¬condFirst i) (hc1 : ¬condLast i)
    (x0 : Vec F S10000x64 .f32) (x1 : Vec F S1x64 .f32) (x2 : Vec F S10000x64 .bf16) (x3 : Vec F S64x32 .f32) (x4 : Vec F S1x32 .f32) (xi5 : Vec F S64x32 .f32)
    (xs0 : Vec F S64x64 .f32) (xs1 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare (k1_pay5 x0 x1 x2 xs0) ∗ owns (c : Thread nD τ) arg8 fullShare (k1_pay6 x2 xs1)) -∗ K ⟨⟩))
      ⊢ wp frame (wpE (defs₀ (F := F)) Variants.none c none) E (cc1__pool_kernel i arg1 harg1 arg2 harg2 arg3 harg3 arg4 harg4 arg5 harg5 arg6 harg6 arg7 harg7 arg8 harg8) K := by
  simp only [cc1__pool_kernel_eq_skeleton]; unfold cc1__pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs0; obtain rfl := harg8.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [HS0]
  · iexists _; isplitr
    swap; · iexact HS0
    ipureintro
    sl_unfold_words
    rw [View.read_writes_eq_canon _ _ _ (fun y => ⟨_, List.mem_cons_self .., View.mem_set_unit_zero zeros2 inb_S64x64_S64x64_0_0 y⟩), View.canon_cons_unit_zero (S := S64x64) zeros2]
    simp only [View.readAt_eq_ld, harg1.read_unread, harg2.read_unread, harg3.read_unread, harg4.read_unread, harg5.read_unread, harg6.read_unread, harg7.read_unread, harg8.read_unread, View.ld_unit_zero (S := S10000x64) zeros2, View.ld_unit_zero (S := S1x64) zeros2, View.ld_unit_zero (S := S64x64) zeros2, View.ld_unit_zero (S := S64x1) zeros2, View.ld_unit_zero (S := S64x32) zeros2, View.ld_unit_zero (S := S1x32) zeros2, View.readCov_unit_zero (S := S64x64) _ zeros2, View.readCov_unit_zero (S := S64x1) _ zeros2]
  iexists _; isplitr
  swap; · iexact HS1
  ipureintro
  sl_unfold_words
  rw [View.read_writes_eq_canon _ _ _ (fun y => ⟨_, List.mem_cons_self .., View.mem_set_unit_zero zeros2 inb_S64x1_S64x1_0_0 y⟩), View.canon_cons_unit_zero (S := S64x1) zeros2]
  simp only [View.readAt_eq_ld, harg1.read_unread, harg2.read_unread, harg3.read_unread, harg4.read_unread, harg5.read_unread, harg6.read_unread, harg7.read_unread, harg8.read_unread, View.ld_unit_zero (S := S10000x64) zeros2, View.ld_unit_zero (S := S1x64) zeros2, View.ld_unit_zero (S := S64x64) zeros2, View.ld_unit_zero (S := S64x1) zeros2, View.ld_unit_zero (S := S64x32) zeros2, View.ld_unit_zero (S := S1x32) zeros2, View.readCov_unit_zero (S := S64x64) _ zeros2, View.readCov_unit_zero (S := S64x1) _ zeros2]

end Cert.Kernel.Pool

end
-- ==== Proof.K.PoolRunC.lean ====
/-
  The pooling kernel's body at the last point: no reset; the update, then the projection into the output block.
  From the five staged inputs at their contents, the output's staging buffer at anything and the two scratches at
  what the point before left, the body runs to the same inputs, each scratch at this point's update of it, and the
  output buffer at the projection of the updated scratches.
-/
import proofs.«428046_j7275674600336_1_alg».proof.Proof.K.PoolRuns

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at the last point. -/
theorem runC (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .bf16) (harg3 : arg3.IsWhole) (arg4 : Memref sig .tc .vmem S64x32 .f32) (harg4 : arg4.IsWhole) (arg5 : Memref sig .tc .vmem S1x32 .f32) (harg5 : arg5.IsWhole) (arg6 : Memref sig .tc .vmem S64x32 .f32) (harg6 : arg6.IsWhole) (arg7 : Memref sig .tc .vmem S64x64 .f32) (harg7 : arg7.IsWhole) (arg8 : Memref sig .tc .vmem S64x1 .f32) (harg8 : arg8.IsWhole) (hc0 : ¬condFirst i) (hc1 : condLast i)
    (x0 : Vec F S10000x64 .f32) (x1 : Vec F S1x64 .f32) (x2 : Vec F S10000x64 .bf16) (x3 : Vec F S64x32 .f32) (x4 : Vec F S1x32 .f32)
    (xs0 : Vec F S64x64 .f32) (xs1 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k1_pay1 (k1_pay5 x0 x1 x2 xs0) (k1_pay6 x2 xs1) x3 x4) ∗ owns (c : Thread nD τ) arg7 fullShare (k1_pay5 x0 x1 x2 xs0) ∗ owns (c : Thread nD τ) arg8 fullShare (k1_pay6 x2 xs1)) -∗ K ⟨⟩))
      ⊢ wp frame (wpE (defs₀ (F := F)) Variants.none c none) E (cc1__pool_kernel i arg1 harg1 arg2 harg2 arg3 harg3 arg4 harg4 arg5 harg5 arg6 harg6 arg7 harg7 arg8 harg8) K := by
  simp only [cc1__pool_kernel_eq_skeleton]; unfold cc1__pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4
  obtain rfl := harg7.eq_unread hfs0; obtain rfl := harg8.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_words
    rw [View.read_writes_eq_canon _ _ _ (fun y => ⟨_, List.mem_cons_self .., View.mem_set_unit_zero zeros2 inb_S64x32_S64x32_0_0 y⟩), View.canon_cons_unit_zero (S := S64x32) zeros2]
    simp only [View.readAt_eq_ld, harg1.read_unread, harg2.read_unread, harg3.read_unread, harg4.read_unread, harg5.read_unread, harg6.read_unread, harg7.read_unread, harg8.read_unread, View.ld_unit_zero (S := S10000x64) zeros2, View.ld_unit_zero (S := S1x64) zeros2, View.ld_unit_zero (S := S64x64) zeros2, View.ld_unit_zero (S := S64x1) zeros2, View.ld_unit_zero (S := S64x32) zeros2, View.ld_unit_zero (S := S1x32) zeros2, View.readCov_unit_zero (S := S64x64) _ zeros2, View.readCov_unit_zero (S := S64x1) _ zeros2]
  isplitl [HS0]
  · iexists _; isplitr
    swap; · iexact HS0
    ipureintro
    sl_unfold_words
    rw [View.read_writes_eq_canon _ _ _ (fun y => ⟨_, List.mem_cons_self .., View.mem_set_unit_zero zeros2 inb_S64x64_S64x64_0_0 y⟩), View.canon_cons_unit_zero (S := S64x64) zeros2]
    simp only [View.readAt_eq_ld, harg1.read_unread, harg2.read_unread, harg3.read_unread, harg4.read_unread, harg5.read_unread, harg6.read_unread, harg7.read_unread, harg8.read_unread, View.ld_unit_zero (S := S10000x64) zeros2, View.ld_unit_zero (S := S1x64) zeros2, View.ld_unit_zero (S := S64x64) zeros2, View.ld_unit_zero (S := S64x1) zeros2, View.ld_unit_zero (S := S64x32) zeros2, View.ld_unit_zero (S := S1x32) zeros2, View.readCov_unit_zero (S := S64x64) _ zeros2, View.readCov_unit_zero (S := S64x1) _ zeros2]
  iexists _; isplitr
  swap; · iexact HS1
  ipureintro
  sl_unfold_words
  rw [View.read_writes_eq_canon _ _ _ (fun y => ⟨_, List.mem_cons_self .., View.mem_set_unit_zero zeros2 inb_S64x1_S64x1_0_0 y⟩), View.canon_cons_unit_zero (S := S64x1) zeros2]
  simp only [View.readAt_eq_ld, harg1.read_unread, harg2.read_unread, harg3.read_unread, harg4.read_unread, harg5.read_unread, harg6.read_unread, harg7.read_unread, harg8.read_unread, View.ld_unit_zero (S := S10000x64) zeros2, View.ld_unit_zero (S := S1x64) zeros2, View.ld_unit_zero (S := S64x64) zeros2, View.ld_unit_zero (S := S64x1) zeros2, View.ld_unit_zero (S := S64x32) zeros2, View.ld_unit_zero (S := S1x32) zeros2, View.readCov_unit_zero (S := S64x64) _ zeros2, View.readCov_unit_zero (S := S64x1) _ zeros2]

end Cert.Kernel.Pool

end
-- ==== Proof.K.PoolRegion.lean ====
/-
  The second kernel region (segment pooling), at the buffer contents `V` it is entered from: its proof data and the
  body obligation at every point.
  What the two carried scratches hold after each point is a recursion on the point: at the first point the update of
  the zeroed scratches by that point's blocks, afterwards the update of what the point before left. The output block
  is what the last point's projection makes of the scratches after the last update. The region's invariant tracks
  the scratches: before the first point it is the class invariant (every scoped buffer at some contents); before
  any later point the two scratches are held at what the point before left, beside the other scoped buffers and the
  generator register. The body obligation follows from the three triples of the body (first point, a middle point,
  last point) by a case split on the point.
-/
import proofs.«428046_j7275674600336_1_alg».proof.Proof.K.PoolRunA
import proofs.«428046_j7275674600336_1_alg».proof.Proof.K.PoolRunB
import proofs.«428046_j7275674600336_1_alg».proof.Proof.K.PoolRunC

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the scratches and the output hold -/

/-- One point's update of the two carried scratches, from the point's aggregated-feature, bias and one-hot blocks. -/
def scStep (a : Vec F S10000x64 .f32) (b : Vec F S1x64 .f32) (o : Vec F S10000x64 .bf16) (s : Vec F S64x64 .f32 × Vec F S64x1 .f32) : Vec F S64x64 .f32 × Vec F S64x1 .f32 :=
  (k1_pay5 a b o s.1, k1_pay6 o s.2)

/-- The two scratches after the body at point `n`: from the reset values at the first point, from the previous
    point's afterwards. -/
def scAt1 (c : Dev nD) : (n : ℕ) → n < cfg1.N → Vec F S64x64 .f32 × Vec F S64x1 .f32
  | 0, h => scStep (iblk1 V c 0 ⟨0, h⟩) (iblk1 V c 1 ⟨0, h⟩) (iblk1 V c 2 ⟨0, h⟩) (k1_pay2, k1_pay3)
  | n + 1, h => scStep (iblk1 V c 0 ⟨n + 1, h⟩) (iblk1 V c 1 ⟨n + 1, h⟩) (iblk1 V c 2 ⟨n + 1, h⟩) (scAt1 c n (Nat.lt_of_succ_lt h))

/-- What the last point stores into the output block. -/
def out1 (c : Dev nD) : Vec F S64x32 .f32 :=
  k1_pay1 (scAt1 V c 9 (by have : cfg1.N = 10 := N_1; omega)).1 (scAt1 V c 9 (by have : cfg1.N = 10 := N_1; omega)).2 (iblk1 V c 3 t1_9) (iblk1 V c 4 t1_9)

/-- The recursion's two equations and the output block's, as the definitions give them. -/
theorem scAt1_zero (c : Dev nD) (h : 0 < cfg1.N) :
    scAt1 V c 0 h = scStep (iblk1 V c 0 ⟨0, h⟩) (iblk1 V c 1 ⟨0, h⟩) (iblk1 V c 2 ⟨0, h⟩) (k1_pay2, k1_pay3) := rfl
theorem scAt1_succ (c : Dev nD) (n : ℕ) (h : n + 1 < cfg1.N) :
    scAt1 V c (n + 1) h = scStep (iblk1 V c 0 ⟨n + 1, h⟩) (iblk1 V c 1 ⟨n + 1, h⟩) (iblk1 V c 2 ⟨n + 1, h⟩) (scAt1 V c n (Nat.lt_of_succ_lt h)) := rfl
theorem out1_eq (c : Dev nD) :
    out1 V c = k1_pay1 (scAt1 V c 9 (by have : cfg1.N = 10 := N_1; omega)).1 (scAt1 V c 9 (by have : cfg1.N = 10 := N_1; omega)).2 (iblk1 V c 3 t1_9) (iblk1 V c 4 t1_9) := rfl

/-- The recursion at a point that is not the first, stated at the point. -/
theorem scAt1_pos (c : Dev nD) (t : Fin cfg1.N) (hz : t.val ≠ 0) :
    scAt1 V c t.val t.isLt = scStep (iblk1 V c 0 t) (iblk1 V c 1 t) (iblk1 V c 2 t)
      (scAt1 V c (t.val - 1) (Nat.lt_of_le_of_lt (Nat.sub_le _ _) t.isLt)) := by
  obtain ⟨n, hn⟩ := t
  cases n with
  | zero => exact absurd rfl hz
  | succ n => rfl

/-- At the first point. -/
theorem scAt1_first (c : Dev nD) (t : Fin cfg1.N) (hz : t.val = 0) :
    scAt1 V c t.val t.isLt = scStep (iblk1 V c 0 t) (iblk1 V c 1 t) (iblk1 V c 2 t) (k1_pay2, k1_pay3) := by
  obtain ⟨n, hn⟩ := t
  cases n with
  | zero => rfl
  | succ n => exact absurd hz (Nat.succ_ne_zero n)

/-! ## The tracking invariant -/

/-- The region invariant before position `n`: before the first point the class invariant; afterwards the two
    scratches held whole at what the point before left, beside the other scoped buffers and the generator register. -/
def PhiS1 (c : Dev nD) : (n : ℕ) → n ≤ cfg1.N → sProp 𝕄
  | 0, _ => Pipeline.ΦA spec1 c
  | n + 1, hn => iprop(scopedChain c (owns (c : Thread nD τ) scM0 fullShare (scAt1 V c n hn).1) (owns (c : Thread nD τ) scM1 fullShare (scAt1 V c n hn).2)
      ∗ (∃ r, prngReg c r))

theorem PhiS1_zero (c : Dev nD) (n : ℕ) (h : n ≤ cfg1.N) (hz : n = 0) : PhiS1 V c n h = Pipeline.ΦA spec1 c := by
  subst hz; rfl

/-- After point `n`: the scratches at that point's contents. -/
theorem PhiS1_succ (c : Dev nD) (n : ℕ) (hn : n < cfg1.N) :
    PhiS1 V c (n + 1) hn = iprop(scopedChain c (owns (c : Thread nD τ) scM0 fullShare (scAt1 V c n hn).1) (owns (c : Thread nD τ) scM1 fullShare (scAt1 V c n hn).2)
      ∗ (∃ r, prngReg c r)) := rfl

/-- Before a point that is not the first: the scratches at what the point before left. -/
theorem PhiS1_pos (c : Dev nD) (n : ℕ) (h : n ≤ cfg1.N) (hz : n ≠ 0) :
    PhiS1 V c n h = iprop(scopedChain c (owns (c : Thread nD τ) scM0 fullShare (scAt1 V c (n - 1) (by omega)).1) (owns (c : Thread nD τ) scM1 fullShare (scAt1 V c (n - 1) (by omega)).2)
      ∗ (∃ r, prngReg c r)) := by
  cases n with
  | zero => exact absurd rfl hz
  | succ n => rfl

/-! ## The region's proof data -/

/-- The proof data of the region on core `c`: the arrays as the region finds them; after the body at point `t` each
    input's buffer at its block, the output's at the projected block (consulted at the last point only); the
    tracking invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 V c
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 V c := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' staging buffers hold their blocks; the point is the first, the last or
    neither, and that case's triple applies. The invariant hands the body the two scratches — at anything at the
    first point, at what the point before left afterwards — and takes them back at this point's contents; away from
    the last point the output's staging buffer is handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [show (dat1 V c).leavesExact 2 t = owns (c : Thread nD τ) (st1_2 t) fullShare ((dat1 V c).after 2 t) from by
    unfold Dat.leavesExact; rw [live1_2 t], after1_2]
  rw [show (dat1 V c).leavesExact 3 t = owns (c : Thread nD τ) (st1_3 t) fullShare ((dat1 V c).after 3 t) from by
    unfold Dat.leavesExact; rw [live1_3 t], after1_3]
  rw [show (dat1 V c).leavesExact 4 t = owns (c : Thread nD τ) (st1_4 t) fullShare ((dat1 V c).after 4 t) from by
    unfold Dat.leavesExact; rw [live1_4 t], after1_4]
  have hN : t.val < 10 := lt_of_lt_of_eq t.isLt (show cfg1.N = 10 from N_1)
  by_cases hz : t.val = 0
  · -- the first point: reset, then update
    have hc0 : condFirst (grid1.coords t) := (condFirst_iff t).mpr hz
    have hc1 : ¬condLast (grid1.coords t) := fun h => by have := (condLast_iff t).mp h; omega
    rw [Dat.leavesExact_idle (dat1 V c) 5 t (idle1_5 t hc1) (noFlush1_5 t hc1)]
    rw [scAt1_first V c t hz]
    dsimp only [scStep]
    rw [PhiS1_castSucc V c t, PhiS1_zero V c _ _ hz, PhiA1_eq]
    unfold scopedChain
    iintro ⟨⟨⟨A1, A2, A3, A4, A5, HS0, HS1⟩, Hg⟩, Ho, ⟨%d0, H0⟩, ⟨%d1, H1⟩, ⟨%d2, H2⟩, ⟨%d3, H3⟩, ⟨%d4, H4⟩, ⟨%d5, H5⟩⟩
    iapply (runA c (grid1.coords t) _ _ _ _ _ _ _ _ _ _ _ _ _ _ _ _ hc0 hc1 (iblk1 V c 0 t) (iblk1 V c 1 t) (iblk1 V c 2 t) (iblk1 V c 3 t) (iblk1 V c 4 t) _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [A1 A2 A3 A4 A5 HS0 HS1 Hg]
    · isplitr [Hg]
      · isplitl [A1]; · iexact A1
        isplitl [A2]; · iexact A2
        isplitl [A3]; · iexact A3
        isplitl [A4]; · iexact A4
        isplitl [A5]; · iexact A5
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h9 : t.val = 9
    · -- the last point: update, then the projection into the output block
      have hc0 : ¬condFirst (grid1.coords t) := fun h => hz ((condFirst_iff t).mp h)
      have hc1 : condLast (grid1.coords t) := (condLast_iff t).mpr h9
      rw [show (dat1 V c).leavesExact 5 t = owns (c : Thread nD τ) (st1_5 t) fullShare ((dat1 V c).after 5 t) from by
        unfold Dat.leavesExact; rw [live1_5 t hc1], after1_5]
      have hout : out1 V c = k1_pay1 (scAt1 V c t.val t.isLt).1 (scAt1 V c t.val t.isLt).2 (iblk1 V c 3 t) (iblk1 V c 4 t) := by
        obtain rfl : t = t1_9 := Fin.ext h9
        rfl
      rw [hout, scAt1_pos V c t hz]
      dsimp only [scStep]
      rw [PhiS1_castSucc V c t, PhiS1_pos V c _ _ hz]
      unfold scopedChain
      iintro ⟨⟨⟨A1, A2, A3, A4, A5, HS0, HS1⟩, Hg⟩, Ho, ⟨%d0, H0⟩, ⟨%d1, H1⟩, ⟨%d2, H2⟩, ⟨%d3, H3⟩, ⟨%d4, H4⟩, ⟨%d5, H5⟩⟩
      iapply (runC c (grid1.coords t) _ _ _ _ _ _ _ _ _ _ _ _ _ _ _ _ hc0 hc1 (iblk1 V c 0 t) (iblk1 V c 1 t) (iblk1 V c 2 t) (iblk1 V c 3 t) (iblk1 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [A1 A2 A3 A4 A5 HS0 HS1 Hg]
      · isplitr [Hg]
        · isplitl [A1]; · iexact A1
          isplitl [A2]; · iexact A2
          isplitl [A3]; · iexact A3
          isplitl [A4]; · iexact A4
          isplitl [A5]; · iexact A5
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a middle point: update only
      have hc0 : ¬condFirst (grid1.coords t) := fun h => hz ((condFirst_iff t).mp h)
      have hc1 : ¬condLast (grid1.coords t) := fun h => h9 ((condLast_iff t).mp h)
      rw [Dat.leavesExact_idle (dat1 V c) 5 t (idle1_5 t hc1) (noFlush1_5 t hc1)]
      rw [scAt1_pos V c t hz]
      dsimp only [scStep]
      rw [PhiS1_castSucc V c t, PhiS1_pos V c _ _ hz]
      unfold scopedChain
      iintro ⟨⟨⟨A1, A2, A3, A4, A5, HS0, HS1⟩, Hg⟩, Ho, ⟨%d0, H0⟩, ⟨%d1, H1⟩, ⟨%d2, H2⟩, ⟨%d3, H3⟩, ⟨%d4, H4⟩, ⟨%d5, H5⟩⟩
      iapply (runB c (grid1.coords t) _ _ _ _ _ _ _ _ _ _ _ _ _ _ _ _ hc0 hc1 (iblk1 V c 0 t) (iblk1 V c 1 t) (iblk1 V c 2 t) (iblk1 V c 3 t) (iblk1 V c 4 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [A1 A2 A3 A4 A5 HS0 HS1 Hg]
      · isplitr [Hg]
        · isplitl [A1]; · iexact A1
          isplitl [A2]; · iexact A2
          isplitl [A3]; · iexact A3
          isplitl [A4]; · iexact A4
          isplitl [A5]; · iexact A5
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratches' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scopedChain
  iintro ⟨⟨A1, A2, A3, A4, A5, HS0, HS1⟩, Hg⟩
  isplitr [Hg]
  · isplitl [A1]; · iexact A1
    isplitl [A2]; · iexact A2
    isplitl [A3]; · iexact A3
    isplitl [A4]; · iexact A4
    isplitl [A5]; · iexact A5
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 10 := N_1; omega)

end Cert.Kernel.Pool

end
-- ==== Proof.K.Whole.lean ====
/-
  The program's two runs, with the second region's proof data put in: the proof data of the pooling region at the
  contents that region is entered from — the launch contents after every host stretch and the first region, whose
  result array holds what its ten write-backs leave. They meet the six facts the segment-by-segment run asks of them
  (their arrays are those contents; full shares; nothing owed and no bound on the recorded pairs; the body obligation;
  their invariant follows from the scoped buffers and the generator register before the first point and gives them
  back after the last), so: every weakly fair execution terminates with each argument array as launched (`frame`),
  and with the result buffer at `result`, the pooling region's result array after its one write-back (`run_out`).
-/
import proofs.«428046_j7275674600336_1_alg».proof.Proof.K.Run
import proofs.«428046_j7275674600336_1_alg».proof.Proof.K.PoolRegion

noncomputable section

namespace Cert.Kernel.Whole

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- The pooling region's proof data, at the contents it is entered from. -/
abbrev poolDat : (c : Dev nD) → Dat τ (Elt F) Unit ℕ (UR sig nD τ) ℕ cfg1 c := fun c => Pool.dat1 (Run.VB m) c

/-- The program's result: the pooling region's result array after its one write-back. -/
abbrev result (c : Dev nD) : Buf (Elt F) ((c : Thread nD τ).loc main_v49) := Run.pOut (poolDat m) c

/-- Every weakly fair execution from memory `m` with zero counters terminates, nothing faulting, and every final
    memory holds each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Run.frame m (poolDat m) (fun c w => Pool.A_eq1 (Run.VB m) c w) (fun _ _ => rfl) (fun _ _ => rfl) (fun _ _ => rfl)
    (fun c => Pool.body_obligation1 (Run.VB m) c) (fun c => Pool.hin1 (Run.VB m) c) (fun c => Pool.hout1 (Run.VB m) c) ρ

/-- The same, with the result named: every final memory holds `result` at the result buffer. -/
theorem run_out (ρ : Dev nD → PrngReg) :
    θ_run defs (onTc (τ := τ) (main (F := F))) ⟨m, fun _ => 0, ρ⟩ (fun r => ∀ c : Dev nD,
      r.2.mem ((c.tc : Thread nD τ).loc main_v49) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Run.run_out m (poolDat m) (fun c w => Pool.A_eq1 (Run.VB m) c w) (fun _ _ => rfl) (fun _ _ => rfl) (fun _ _ => rfl)
    (fun c => Pool.body_obligation1 (Run.VB m) c) (fun c => Pool.hin1 (Run.VB m) c) (fun c => Pool.hout1 (Run.VB m) c) ρ

end Cert.Kernel.Whole

end
-- ==== Proof.KI.MatmulRegion.lean ====
/-
  The first kernel region, at the buffer contents `V` it is entered from: the row-blocked matrix product.
  The grid has ten points. At point `t` the region stages rows `10000·t … 10000·t + 9999` of the left matrix (all 128
  columns), the whole right matrix (128 × 64: its block index never moves, so it is fetched once), and writes back
  rows `10000·t …` of the result (64 columns). The body loads the two staged blocks and stores, over the whole result
  block, their product accumulated into zero (the payload `k0_pay1` of the two loaded values); nothing is carried
  from one point to the next.
  Stated here, for any float instance: what each window's staging buffer holds before and after the body
  (`iblk0`, `outBlock`), the body's triple, the region's proof data `dat0` and the body obligation at every point.
-/
import proofs.«428046_j7275674600336_1_alg».proof.Proof.Gen.KernelIdeal.Launch
import proofs.«428046_j7275674600336_1_alg».proof.Proof.Gen.KernelIdeal.Skeleton
import proofs.«428046_j7275674600336_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Matmul

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left matrix's staging buffer holds its row block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right matrix's staging buffer holds the whole matrix at every point, fetched there or not: its block index
    does not move. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and stores -/

/-- The whole left block, the whole right matrix, the whole result block: the three rectangles the body touches. -/
abbrev rLeft : Rect S10000x128 := Rect.unit (s := S10000x128) ![0, 0] S10000x128.size inb_S10000x128_S10000x128_0_0
abbrev rRight : Rect S128x64 := Rect.unit (s := S128x64) ![0, 0] S128x64.size inb_S128x64_S128x64_0_0
abbrev rOut : Rect S10000x64 := Rect.unit (s := S10000x64) ![0, 0] S10000x64.size inb_S10000x64_S10000x64_0_0

/-- The result block after the body, from the two staged blocks: its one store, of the product of the two loaded
    values, read back over the whole block. -/
def outBlock (x0 : Vec F S10000x128 .f32) (x1 : Vec F S128x64 .f32) : Vec F S10000x64 .f32 :=
  View.canon [⟨rOut, k0_pay1 (View.ld x0 rLeft) (View.ld x1 rRight)⟩]

/-- That one store covers the block. -/
theorem cover_out (p0 : Vec F S10000x64 .f32) (y : S10000x64.Idx) :
    ∃ pc ∈ ([⟨rOut, p0⟩] : List (View.Piece (Elt F) S10000x64 .f32)), y ∈ pc.1.set :=
  View.cover_of_tiled [⟨rOut, p0⟩] S10000x64.size (by rfl) y

/-! ## The body's triple -/

set_option maxHeartbeats 1000000 in
/-- On whole staging memrefs — the two inputs' at `x0`, `x1`, the result's at anything — the body runs to its return
    leaving the inputs as they were and the result's buffer at `outBlock x0 x1`. -/
theorem sound_kernel0 (c : Dev nD) (E : Set ℕ) (i : grid0.Coords)
    (arg1 : Memref sig .tc .vmem S10000x128 .f32) (harg1 : arg1.IsWhole) (arg2 : Memref sig .tc .vmem S128x64 .f32) (harg2 : arg2.IsWhole)
    (arg3 : Memref sig .tc .vmem S10000x64 .f32) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlock x0 x1)) -∗ K ⟨⟩))
      ⊢ wp frame (wpE (defs₀ (F := F)) Variants.none c none) E (cc0__h_matmul_kernel i arg1 harg1 arg2 harg2 arg3 harg3) K := by
  simp only [cc0__h_matmul_kernel_eq_skeleton]; unfold cc0__h_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The region's proof data -/

/-- The proof data of the first region on core `c`: the three arrays as the region finds them; after the body at
    point `t` each input's buffer at its block and the result's at `outBlock` of the two; between points nothing of
    the kernel's own is kept (the invariant is the scoped buffers no window stages and the generator register, both
    untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outBlock (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outBlock (iblk0 V c 0 t) (iblk0 V c 1 t) := by
  dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Matmul

end
-- ==== Proof.KI.Run.lean ====
/-
  The whole program's run, segment by segment: three stretches of host operations, the first kernel region (the
  row-blocked matrix product), three more stretches, the second kernel region (the pooling), from the launch to the
  return. Between two segments a core holds every unscoped buffer whole at the contents the segments so far have
  left — the launch contents, then each stretch's operations applied, then a region's result array replaced by what
  the region's write-backs leave — beside the generator register at some state and the core owing nothing.
  What is stated here, for any float instance and for ANY proof data `D1` of the second region that meets six
  facts (its arrays are the contents the region is entered from; full shares; nothing owed; its body obligation; its
  invariant follows from the scoped buffers and the generator register before the first point, and gives them back
  after the last): the two results named by the regions' proof data (`hOut`, `pOut`), each region as a segment,
  the frame claim (every argument array ends as launched), and the run with the program's result named: the final
  memory holds `pOut` at the result buffer.
-/
import proofs.«428046_j7275674600336_1_alg».proof.Proof.Gen.KernelIdeal.Regions
import proofs.«428046_j7275674600336_1_alg».proof.Proof.KI.MatmulRegion
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents the regions are entered from, and what they leave -/

/-- The contents the first region is entered from: the launch contents after the first three stretches. -/
abbrev VA : (c : Dev nD) → (b : Ref sig .tc) → Buf (Elt F) ((c : Thread nD τ).loc b) := fun c b => V3 m c b

/-- The first region's result array after its ten write-backs. -/
def hOut (c : Dev nD) : Buf (Elt F) ((c : Thread nD τ).loc main_v32) :=
  (Matmul.dat0 (VA m) c).arrAt 2 cfg0.N

/-- The regions' results with only the first one named: enough to state the contents the second region is
    entered from. -/
def outsA : Outs (F := F) := fun _ r c => Function.update (V3 m c) main_v32 (hOut m c) r

/-- The contents the second region is entered from. -/
abbrev VB : (c : Dev nD) → (b : Ref sig .tc) → Buf (Elt F) ((c : Thread nD τ).loc b) := fun c b => V7 m (outsA m) c b

variable (D1 : (c : Dev nD) → Dat τ (Elt F) Unit ℕ (UR sig nD τ) ℕ cfg1 c)

/-- The second region's result array after its one write-back. -/
def pOut (c : Dev nD) : Buf (Elt F) ((c : Thread nD τ).loc main_v49) := (D1 c).arrAt 5 cfg1.N

/-- Both results named. -/
def outs : Outs (F := F) := fun n r c =>
  if n = 8 then Function.update (V7 m (outsA m) c) main_v49 (pOut D1 c) r else outsA m n r c

theorem outs_4 (c : Dev nD) : outs m D1 4 main_v32 c = hOut m c := by
  unfold outs outsA; rw [if_neg (by decide)]; exact Function.update_self _ _ _

theorem outsA_4 (c : Dev nD) : outsA m 4 main_v32 c = hOut m c := by
  unfold outsA; exact Function.update_self _ _ _

/-- The contents after the first region do not depend on how the second result is named. -/
theorem V4_outs (c : Dev nD) : V4 m (outs m D1) c = V4 m (outsA m) c := by
  unfold V4; rw [outs_4, outsA_4]

theorem V7_outs (c : Dev nD) : V7 m (outs m D1) c = V7 m (outsA m) c := by
  unfold V7 V6 V5; rw [V4_outs]

theorem outs_8 (c : Dev nD) : outs m D1 8 main_v49 c = pOut D1 c := by
  unfold outs; rw [if_pos rfl]; exact Function.update_self _ _ _

/-- The final contents hold the second region's result at its buffer. -/
theorem V8_result (c : Dev nD) : V8 m (outs m D1) c main_v49 = pOut D1 c := by
  unfold V8; rw [Function.update_self, outs_8]

/-! ## The proof data family and what rides along -/

/-- Every pipeline's proof data, each at its region's entry contents: a literal match, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => Matmul.dat0 (VA m) c
  | ⟨1, _⟩ => fun c => D1 c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the generator register at some state and the core owing
    nothing. -/
abbrev R (c : Dev nD) : sProp 𝕄 := iprop((∃ r, prngReg c r) ∗ ∃ W, owes (c : Thread nD τ) (0 : CellTallies nD τ sig Unit) W)

/-! ## The first region as a segment -/

/-- After the first region each of its arrays holds what the pipeline leaves: the two inputs as entered, the result
    at `hOut`. -/
theorem hF0 (c : Dev nD) (w : Fin cfg0.W) :
    (pdats m D1 0 c).arrAt w cfg0.N = (fun b : Ref sig .tc => V4 m (outs m D1) c b) (Pipeline.arrRef spec0 w) := by
  fin_cases w
  · exact ((pdats m D1 0 c).arrAt_in 0 rfl _).trans (V4_of m (outs m D1) c main_arg0 (by decide)).symm
  · exact ((pdats m D1 0 c).arrAt_in 1 rfl _).trans (V4_of m (outs m D1) c main_arg1 (by decide)).symm
  · show hOut m c = V4 m (outs m D1) c main_v32
    unfold V4; rw [Function.update_self, outs_4]

/-- and every other buffer what it held at entry. -/
theorem hrest0 (c : Dev nD) : ∀ b : Ref sig .tc, b ∉ Finset.univ.image (Pipeline.arrRef spec0) →
    (fun b : Ref sig .tc => V4 m (outs m D1) c b) b = VA m c b :=
  fun b hb => V4_of m (outs m D1) c b (by
    intro h; rw [List.mem_singleton] at h; subst h
    exact hb (Finset.mem_image.mpr ⟨2, Finset.mem_univ _, rfl⟩))

-- a library lemma stated over the pinned configuration unifies with the printed one only when unification may
-- unfold plain definitions in a metavariable's type
set_option backward.isDefEq.respectTransparency.types false in
/-- The first region over the thread state: entered from every unscoped buffer at the contents after the first
    three stretches, left with the result array replaced. Its three arrays are split out of the unscoped buffers and
    put back at the exit contents; the generator register goes into the region's invariant and comes back; nothing
    is owed; the kernel has no semaphore of its own. -/
def reg0 : Pipeline.RegionSeg (pcfgs (F := F)) adm (pdats m D1) () defs₀ 𝒱₀ L lv 0 where
  win := launch0.win.to₀
  block_pos := launch0.block_pos
  stage_whole := launch0.stage_whole
  K := PEmpty
  osem k := k.elim
  ho := Pipeline.OwnSemFacts.none _
  hbody c := (Matmul.body_obligation0 (VA m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m D1) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m D1) launch0.win launch0.arr_whole c
      ((pdats m D1 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m D1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m D1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m D1) ((pdats m D1 0 c).share_full fun _ => rfl)
      (VA m c) (fun b : Ref sig .tc => V4 m (outs m D1) c b) ((pdats m D1 0 c).arrAt · cfg0.N) (hF0 m D1 c) (hrest0 m D1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region as a segment, for any proof data meeting six facts -/

variable (hA1 : ∀ c w, (D1 c).A w = VB m c (Pipeline.arrRef spec1 w))
  (hq1 : ∀ c w, (D1 c).q w = fullShare)
  (howed1 : ∀ c t, (D1 c).owed t = 0)
  (hrec1 : ∀ c t, (D1 c).recorded t = Set.univ)
  (hbody1 : ∀ c, BodyObligation (D1 c) (defs₀ (F := F)) Variants.none () Set.univ)
  (hin1 : ∀ c, Pipeline.ΦA spec1 c ⊢ (D1 c).Φ 0)
  (hout1 : ∀ c, (D1 c).Φ (Fin.last cfg1.N) ⊢ Pipeline.ΦA spec1 c)

include hA1 in
/-- After the second region each of its arrays holds what the pipeline leaves: the five inputs as entered, the
    result at `pOut`. -/
theorem hF1 (c : Dev nD) (w : Fin cfg1.W) :
    (pdats m D1 1 c).arrAt w cfg1.N = (fun b : Ref sig .tc => V8 m (outs m D1) c b) (Pipeline.arrRef spec1 w) := by
  fin_cases w
  · exact ((pdats m D1 1 c).arrAt_in 0 rfl _).trans ((hA1 c 0).trans (by
      show V7 m (outsA m) c main_v45 = V8 m (outs m D1) c main_v45
      rw [← V7_outs m D1 c]; exact (V8_of m (outs m D1) c main_v45 (by decide)).symm))
  · exact ((pdats m D1 1 c).arrAt_in 1 rfl _).trans ((hA1 c 1).trans (by
      show V7 m (outsA m) c main_v47 = V8 m (outs m D1) c main_v47
      rw [← V7_outs m D1 c]; exact (V8_of m (outs m D1) c main_v47 (by decide)).symm))
  · exact ((pdats m D1 1 c).arrAt_in 2 rfl _).trans ((hA1 c 2).trans (by
      show V7 m (outsA m) c main_v46 = V8 m (outs m D1) c main_v46
      rw [← V7_outs m D1 c]; exact (V8_of m (outs m D1) c main_v46 (by decide)).symm))
  · exact ((pdats m D1 1 c).arrAt_in 3 rfl _).trans ((hA1 c 3).trans (by
      show V7 m (outsA m) c main_arg3 = V8 m (outs m D1) c main_arg3
      rw [← V7_outs m D1 c]; exact (V8_of m (outs m D1) c main_arg3 (by decide)).symm))
  · exact ((pdats m D1 1 c).arrAt_in 4 rfl _).trans ((hA1 c 4).trans (by
      show V7 m (outsA m) c main_v48 = V8 m (outs m D1) c main_v48
      rw [← V7_outs m D1 c]; exact (V8_of m (outs m D1) c main_v48 (by decide)).symm))
  · exact (V8_result m D1 c).symm

/-- and every other buffer what it held at entry. -/
theorem hrest1 (c : Dev nD) : ∀ b : Ref sig .tc, b ∉ Finset.univ.image (Pipeline.arrRef spec1) →
    (fun b : Ref sig .tc => V8 m (outs m D1) c b) b = VB m c b :=
  fun b hb => (V8_of m (outs m D1) c b (by
    intro h; rw [List.mem_singleton] at h; subst h
    exact hb (Finset.mem_image.mpr ⟨5, Finset.mem_univ _, rfl⟩))).trans (by rw [V7_outs])

include howed1 hrec1 in
/-- The core owing nothing, with whatever pairs it has recorded, is what the second region's proof data ask of it at
    every point: they owe nothing and bound the recorded pairs by nothing. -/
theorem owesAt_intro (c : Dev nD) (t : Fin (cfg1.N + 1)) :
    (iprop(∃ W, owes (c : Thread nD τ) (0 : CellTallies nD τ sig Unit) W) : sProp 𝕄) ⊢ (pdats m D1 1 c).owesAt () t := by
  unfold Pipeline.Dat.owesAt Pipeline.owesWithin
  rw [show (pdats m D1 1 c).owed t = 0 from howed1 c t]
  iintro ⟨%W, HO⟩; iexists W; isplitr
  · ipureintro; intro x _; exact Or.inl (by rw [show (pdats m D1 1 c).recorded t = Set.univ from hrec1 c t]; trivial)
  iexact HO

include howed1 in
theorem owesAt_elim (c : Dev nD) (t : Fin (cfg1.N + 1)) :
    (pdats m D1 1 c).owesAt () t ⊢ (iprop(∃ W, owes (c : Thread nD τ) (0 : CellTallies nD τ sig Unit) W) : sProp 𝕄) := by
  unfold Pipeline.Dat.owesAt Pipeline.owesWithin
  rw [show (pdats m D1 1 c).owed t = 0 from howed1 c t]
  iintro ⟨%W, -, HO⟩; iexists W; iexact HO

set_option backward.isDefEq.respectTransparency.types false in
/-- The second region over the thread state: entered from every unscoped buffer at the contents after the last three
    stretches, left with the result array replaced. Its six arrays are split out of the unscoped buffers and put back
    at the exit contents; the generator register and the scoped buffers no window stages go into the region's
    invariant before the first point and come back after the last; nothing is owed. -/
def reg1 : Pipeline.RegionSeg (pcfgs (F := F)) adm (pdats m D1) () defs₀ 𝒱₀ L lv 1 where
  win := launch1.win.to₀
  block_pos := launch1.block_pos
  stage_whole := launch1.stage_whole
  K := PEmpty
  osem k := k.elim
  ho := Pipeline.OwnSemFacts.none _
  hbody c := (hbody1 c).loose
  hwaits := Pipeline.hwaits_of_owed_zero _ _ _ _ L lv 1 fun c t => howed1 c t
  pre c := iprop(StableHlo.held (c : Thread nD τ) (Pipeline.ucRefs τ sig) (V7 m (outs m D1) c) ∗ R c)
  post c := iprop(StableHlo.held (c : Thread nD τ) (Pipeline.ucRefs τ sig) (V8 m (outs m D1) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none, V7_outs]
    have hsplit := Pipeline.arrays_of_unscopedBufs (p := 1) (pcfgs (F := F)) adm (pdats m D1) launch1.win launch1.arr_whole c
      ((pdats m D1 1 c).share_full fun w => hq1 c w) (VB m c) fun w => hA1 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro m D1 howed1 hrec1 c 0); iexact HO
    isplitl [Hp]; · iexact Hp
    iexact Hrest
  hin c :=
    (show _ ⊢ (Pipeline.ΦA spec1 c : sProp 𝕄) from by
      unfold Pipeline.ΦA
      iintro ⟨Hp, -, Hr⟩
      isplitl [Hr]; · iexact Hr
      iexact Hp).trans (hin1 c)
  hout c :=
    (hout1 c).trans (show (Pipeline.ΦA spec1 c : sProp 𝕄) ⊢ _ from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m D1) ((pdats m D1 1 c).share_full fun w => hq1 c w)
      (VB m c) (fun b : Ref sig .tc => V8 m (outs m D1) c b) ((pdats m D1 1 c).arrAt · cfg1.N) (hF1 m D1 hA1 c) (hrest1 m D1 c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim m D1 howed1 c (Fin.last cfg1.N)); iexact HO

/-! ## The launch: its ghost element, and the first and last of what rides along -/

/-- The launch element: the pipeline library's own, at every pipeline's staging cells. -/
abbrev u₀ : UR sig nD τ := initOf (Pipeline.cells cfgs cellOf_inj) (Pipeline.launchToks cfgs cellOf_inj)

theorem hu₀ : (ownU (u₀) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core makes the first of what rides along. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

/-- The last of what rides along has the core owing nothing. -/
theorem hE2 (c : Dev nD) : (R c : sProp 𝕄) ⊢ iprop(∃ W, owes (c : Thread nD τ) (0 : CellTallies nD τ sig Unit) W) := by
  iintro ⟨-, HO⟩; iexact HO

/-! ## The frame, and the run with the result named -/

include hA1 hq1 howed1 hrec1 hbody1 hin1 hout1 in
/-- Every weakly fair execution of the program from memory `m` with zero counters terminates, and every final memory
    holds each argument array as launched: the conditional frame of the program's segments, given the two regions'
    records. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_cond (F := F) m (EP := emb₁) (ι := ()) (𝒱₀ := 𝒱₀) (L := L) (lv := lv) (hL := fun _ _ => rfl) (ρ := ρ) (outs := outs m D1)
    (pdats := pdats m D1) (O₀ := 0) (G := fun _ => (BI.emp : sProp 𝕄)) (u₀ := u₀) (hu₀ := hu₀)
    (E := fun _ c => R c) (hE0 := hE0 ρ) (hE2 := hE2)
    (R0 := reg0 m D1) (hpre0 := fun _ => .rfl) (hpost0 := fun _ => .rfl)
    (R1 := reg1 m D1 hA1 hq1 howed1 hrec1 hbody1 hin1 hout1) (hpre1 := fun _ => .rfl) (hpost1 := fun _ => .rfl)

-- the launch theorem's implicit arguments are found by unifying its conclusion with this one, which takes unfolding
-- plain definitions in a metavariable's type
set_option backward.isDefEq.respectTransparency.types false in
include hA1 hq1 howed1 hrec1 hbody1 hin1 hout1 in
/-- The same launch with the program's result named: every weakly fair execution from memory `m` with zero counters
    terminates, and every final memory holds the second region's result `pOut` at the result buffer and each argument
    array as launched. The last thread state holds every unscoped buffer at the final contents; each buffer is read
    off it against the final state. -/
theorem run_out (ρ : Dev nD → PrngReg) :
    θ_run defs (onTc (τ := τ) (main (F := F))) ⟨m, fun _ => 0, ρ⟩ (fun r => ∀ c : Dev nD,
      r.2.mem ((c.tc : Thread nD τ).loc main_v49) = pOut D1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm (pdats m D1) () cellOf_inj emb₁ defs₀ 𝒱₀ L lv m ρ main
    (segs m (outs m D1) 𝒱₀ L lv (fun _ c => R c) () (pdats m D1) (reg0 m D1) (reg1 m D1 hA1 hq1 howed1 hrec1 hbody1 hin1 hout1))
    (fun c Q => by
      rewrite [main_chain c, Seg.run_eq_chain,
        show (segs m (outs m D1) 𝒱₀ L lv (fun _ c => R c) () (pdats m D1) (reg0 m D1) (reg1 m D1 hA1 hq1 howed1 hrec1 hbody1 hin1 hout1) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [segs, Seg.pipes_host, Seg.pipes_region, Seg.pipes_nil]; decide) 0 (fun _ _ => rfl)
    (fun _ => (BI.emp : sProp 𝕄)) u₀ hu₀
    (T₀ := fun c => iprop(StableHlo.held (c : Thread nD τ) (Pipeline.ucRefs τ sig) (V0 m c) ∗ R c))
    (Tₙ := fun c => StableHlo.held (c : Thread nD τ) (Pipeline.ucRefs τ sig) (V8 m (outs m D1) c))
    (hch := fun c => ⟨.rfl, .rfl, .rfl, .rfl, .rfl, .rfl, .rfl, .rfl, sep_mono .rfl (hE2 c)⟩)
    (hinit := ?_)
    (QY := fun c s => s.mem ((c.tc : Thread nD τ).loc main_v49) = pOut D1 c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => ?_) (hQ := fun _ h => h)
  · -- the launch, core by core: the unscoped buffers are held at the launch contents; the generator register and the
    -- core owing nothing ride along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result buffer and each argument's, read off the last contents
    unfold StableHlo.held
    iintro ⟨Hh, HSI⟩
    ihave Hr := (pointsTo_read_all (Pipeline.ucRefs τ sig) (fun b => ((c : Thread nD τ).1, b)) (V8 m (outs m D1) c) s') $$ [Hh HSI]
    · isplitl [Hh] <;> iassumption
    icases Hr with ⟨%h, HSI⟩
    imodintro
    isplitr
    · ipureintro
      exact ⟨(h (Proc.devRef .tc main_v49) (Finset.mem_filter.mpr ⟨StableHlo.devRef_mem_tcRefs main_v49, by decide⟩)).trans (V8_result m D1 c),
        (h (Proc.devRef .tc main_arg0) (Finset.mem_filter.mpr ⟨StableHlo.devRef_mem_tcRefs main_arg0, by decide⟩)).trans (V8_main_arg0 m (outs m D1) c),
        (h (Proc.devRef .tc main_arg1) (Finset.mem_filter.mpr ⟨StableHlo.devRef_mem_tcRefs main_arg1, by decide⟩)).trans (V8_main_arg1 m (outs m D1) c),
        (h (Proc.devRef .tc main_arg2) (Finset.mem_filter.mpr ⟨StableHlo.devRef_mem_tcRefs main_arg2, by decide⟩)).trans (V8_main_arg2 m (outs m D1) c),
        (h (Proc.devRef .tc main_arg3) (Finset.mem_filter.mpr ⟨StableHlo.devRef_mem_tcRefs main_arg3, by decide⟩)).trans (V8_main_arg3 m (outs m D1) c),
        (h (Proc.devRef .tc main_arg4) (Finset.mem_filter.mpr ⟨StableHlo.devRef_mem_tcRefs main_arg4, by decide⟩)).trans (V8_main_arg4 m (outs m D1) c),
        (h (Proc.devRef .tc main_arg5) (Finset.mem_filter.mpr ⟨StableHlo.devRef_mem_tcRefs main_arg5, by decide⟩)).trans (V8_main_arg5 m (outs m D1) c),
        (h (Proc.devRef .tc main_arg6) (Finset.mem_filter.mpr ⟨StableHlo.devRef_mem_tcRefs main_arg6, by decide⟩)).trans (V8_main_arg6 m (outs m D1) c)⟩
    · iexact HSI

end Cert.KernelIdeal.Run

end
-- ==== Proof.KI.PoolRuns.lean ====
/-
  The second kernel region (segment pooling), at the buffer contents `V` it is entered from: what its three control
  cases share.
  The grid has ten points. At point `t` the region stages rows `10000·t … 10000·t + 9999` of the aggregated features
  (64 columns) and of the one-hot segment matrix (64 columns, bf16), and — once, their block index never moving — the
  bias row (1 × 64), the second weight matrix (64 × 32) and the second bias row (1 × 32). The output block (64 × 32)
  has a constant block index too; it is written back after the last point only. Two scratch buffers are carried from
  point to point: the running segment sums (64 × 64) and the running segment counts (64 × 1).
  The body: at the first point it zeroes both scratches; at every point it adds this point's contribution to each;
  at the last point it then divides the sums by the counts (at least one), multiplies by the second weight matrix,
  adds the second bias, applies tanh, and stores the result over the whole output block. At every other point the
  output's staging buffer is not touched.
  Stated here, for any float instance: each window's block at a point, what an input's staging buffer holds when the
  body is called, the two branch conditions in closed form, where the output window is idle, and the region's
  invariant with the two scratches split out.
-/
import proofs.«428046_j7275674600336_1_alg».proof.Proof.Gen.KernelIdeal.Launch
import proofs.«428046_j7275674600336_1_alg».proof.Proof.Gen.KernelIdeal.Skeleton
import proofs.«428046_j7275674600336_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregated features' staging buffer holds this point's row block at every point, for any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the row at every point, fetched there or not: its block index does not move. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one-hot matrix's staging buffer holds this point's row block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The second weight matrix's staging buffer holds the matrix at every point: its block index does not move. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The second bias row's staging buffer holds the row at every point: its block index does not move. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- The condition of the body's first branch (the reset of the scratches), from the grid coordinates. -/
abbrev condFirst (i : grid1.Coords) : Prop :=
  (Scalar.cmpi .ne (Scalar.extui (Scalar.cmpi .eq (BitVec.ofNat 32 (i 0).val) 0#32)) 0#32) = 1#1
/-- It holds at the first point only. -/
theorem condFirst_iff : ∀ t : Fin cfg1.N, condFirst (grid1.coords t) ↔ t.val = 0 :=
  (by decide +kernel : ∀ t : Fin grid1.N, condFirst (grid1.coords t) ↔ t.val = 0)

/-- The condition of the body's second branch (the final projection into the output block). -/
abbrev condLast (i : grid1.Coords) : Prop := k1_cond2 i = 1#1
/-- It holds at the last point only. -/
theorem condLast_iff : ∀ t : Fin cfg1.N, condLast (grid1.coords t) ↔ t.val = 9 :=
  (by decide +kernel : ∀ t : Fin grid1.N, condLast (grid1.coords t) ↔ t.val = 9)

/-! ## Where the windows are idle -/

/-- The five input windows are never idle. -/
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl
/-- Away from the last point the output window is idle: the body stores nothing into it there, -/
theorem idle1_5 : ∀ t : Fin cfg1.N, ¬condLast (grid1.coords t) → cfg1.idle 5 (grid1.coords t) = true := by decide +kernel
/-- and the pipeline does not write its block back there. -/
theorem noFlush1_5 : ∀ t : Fin cfg1.N, ¬condLast (grid1.coords t) → (cfg1.win 5).flush t = false := by decide +kernel
/-- At the last point it is live: the body stores the whole block. -/
theorem live1_5 : ∀ t : Fin cfg1.N, condLast (grid1.coords t) → cfg1.idle 5 (grid1.coords t) = false := by decide +kernel

/-! ## The scratch operands and the region's invariant -/

/-- The running sums and the running counts: whole scoped buffers of the kernel's own, passed beside the windows. -/
abbrev scM0 : Memref sig .tc .vmem S64x64 .f32 := Memref.whole cc1_scratch0
abbrev scM1 : Memref sig .tc .vmem S64x1 .f32 := Memref.whole cc1_scratch1

/-- The zero offsets of a whole-buffer access, however spelt. -/
theorem zeros2 : (![0, 0] : Fin 2 → ℕ) = fun _ => 0 := by funext a; fin_cases a <;> rfl

/-- The core's scoped buffers that are no staging buffer of this region, one by one: the other region's five staging
    buffers at some contents each, then the two scratches as `S0`, `S1` say. -/
def scopedChain (c : Dev nD) (S0 S1 : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ S0 ∗ S1)

/-- The class invariant with the two scratches as memrefs owned at some contents: what the body is handed at the
    first point and what the region returns at the end. -/
theorem PhiA1_eq (c : Dev nD) :
    (Pipeline.ΦA spec1 c : sProp 𝕄)
      = iprop(scopedChain c (iprop(∃ d, owns (c : Thread nD τ) scM0 fullShare d)) (iprop(∃ d, owns (c : Thread nD τ) scM1 fullShare d))
          ∗ (∃ r, prngReg c r)) := by
  unfold Pipeline.ΦA scopedChain; rw [scopedRest1_eq]; simp only [scM0, scM1, owns_whole]; try rfl

end Cert.KernelIdeal.Pool

end
-- ==== Proof.KI.PoolRunA.lean ====
/-
  The pooling kernel's body at the first point: the reset, then the update; no projection. From the five staged
  inputs at their contents, the output's staging buffer at whatever it holds and the two scratches at anything, the
  body runs to the same inputs, the output buffer as found, and each scratch at the update of its zeroed contents.
-/
import proofs.«428046_j7275674600336_1_alg».proof.Proof.KI.PoolRuns

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at the first point. -/
theorem runA (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .bf16) (harg3 : arg3.IsWhole) (arg4 : Memref sig .tc .vmem S64x32 .f32) (harg4 : arg4.IsWhole) (arg5 : Memref sig .tc .vmem S1x32 .f32) (harg5 : arg5.IsWhole) (arg6 : Memref sig .tc .vmem S64x32 .f32) (harg6 : arg6.IsWhole) (arg7 : Memref sig .tc .vmem S64x64 .f32) (harg7 : arg7.IsWhole) (arg8 : Memref sig .tc .vmem S64x1 .f32) (harg8 : arg8.IsWhole) (hc0 : condFirst i) (hc1 : ¬condLast i)
    (x0 : Vec F S10000x64 .f32) (x1 : Vec F S1x64 .f32) (x2 : Vec F S10000x64 .bf16) (x3 : Vec F S64x32 .f32) (x4 : Vec F S1x32 .f32) (xi5 : Vec F S64x32 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare (k1_pay5 x0 x1 x2 k1_pay2) ∗ owns (c : Thread nD τ) arg8 fullShare (k1_pay6 x2 k1_pay3)) -∗ K ⟨⟩))
      ⊢ wp frame (wpE (defs₀ (F := F)) Variants.none c none) E (cc1__pool_kernel i arg1 harg1 arg2 harg2 arg3 harg3 arg4 harg4 arg5 harg5 arg6 harg6 arg7 harg7 arg8 harg8) K := by
  simp only [cc1__pool_kernel_eq_skeleton]; unfold cc1__pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [HS0]
  · iexists _; isplitr
    swap; · iexact HS0
    ipureintro
    sl_unfold_words
    rw [View.read_writes_eq_canon _ _ _ (fun y => ⟨_, List.mem_cons_self .., View.mem_set_unit_zero zeros2 inb_S64x64_S64x64_0_0 y⟩), View.canon_cons_unit_zero (S := S64x64) zeros2]
    simp only [View.readAt_eq_ld, harg1.read_unread, harg2.read_unread, harg3.read_unread, harg4.read_unread, harg5.read_unread, harg6.read_unread, harg7.read_unread, harg8.read_unread, View.ld_unit_zero (S := S10000x64) zeros2, View.ld_unit_zero (S := S1x64) zeros2, View.ld_unit_zero (S := S64x64) zeros2, View.ld_unit_zero (S := S64x1) zeros2, View.ld_unit_zero (S := S64x32) zeros2, View.ld_unit_zero (S := S1x32) zeros2, View.readCov_unit_zero (S := S64x64) _ zeros2, View.readCov_unit_zero (S := S64x1) _ zeros2]
  iexists _; isplitr
  swap; · iexact HS1
  ipureintro
  sl_unfold_words
  rw [View.read_writes_eq_canon _ _ _ (fun y => ⟨_, List.mem_cons_self .., View.mem_set_unit_zero zeros2 inb_S64x1_S64x1_0_0 y⟩), View.canon_cons_unit_zero (S := S64x1) zeros2]
  simp only [View.readAt_eq_ld, harg1.read_unread, harg2.read_unread, harg3.read_unread, harg4.read_unread, harg5.read_unread, harg6.read_unread, harg7.read_unread, harg8.read_unread, View.ld_unit_zero (S := S10000x64) zeros2, View.ld_unit_zero (S := S1x64) zeros2, View.ld_unit_zero (S := S64x64) zeros2, View.ld_unit_zero (S := S64x1) zeros2, View.ld_unit_zero (S := S64x32) zeros2, View.ld_unit_zero (S := S1x32) zeros2, View.readCov_unit_zero (S := S64x64) _ zeros2, View.readCov_unit_zero (S := S64x1) _ zeros2]

end Cert.KernelIdeal.Pool

end
-- ==== Proof.KI.PoolRunB.lean ====
/-
  The pooling kernel's body at a point that is neither the first nor the last: no reset, no projection. From the
  five staged inputs at their contents, the output's staging buffer at whatever it holds and the two scratches at
  what the point before left, the body runs to the same inputs, the output buffer as found, and each scratch at this
  point's update of it.
-/
import proofs.«428046_j7275674600336_1_alg».proof.Proof.KI.PoolRuns

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at a middle point. -/
theorem runB (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .bf16) (harg3 : arg3.IsWhole) (arg4 : Memref sig .tc .vmem S64x32 .f32) (harg4 : arg4.IsWhole) (arg5 : Memref sig .tc .vmem S1x32 .f32) (harg5 : arg5.IsWhole) (arg6 : Memref sig .tc .vmem S64x32 .f32) (harg6 : arg6.IsWhole) (arg7 : Memref sig .tc .vmem S64x64 .f32) (harg7 : arg7.IsWhole) (arg8 : Memref sig .tc .vmem S64x1 .f32) (harg8 : arg8.IsWhole) (hc0 : ¬condFirst i) (hc1 : ¬condLast i)
    (x0 : Vec F S10000x64 .f32) (x1 : Vec F S1x64 .f32) (x2 : Vec F S10000x64 .bf16) (x3 : Vec F S64x32 .f32) (x4 : Vec F S1x32 .f32) (xi5 : Vec F S64x32 .f32)
    (xs0 : Vec F S64x64 .f32) (xs1 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare (k1_pay5 x0 x1 x2 xs0) ∗ owns (c : Thread nD τ) arg8 fullShare (k1_pay6 x2 xs1)) -∗ K ⟨⟩))
      ⊢ wp frame (wpE (defs₀ (F := F)) Variants.none c none) E (cc1__pool_kernel i arg1 harg1 arg2 harg2 arg3 harg3 arg4 harg4 arg5 harg5 arg6 harg6 arg7 harg7 arg8 harg8) K := by
  simp only [cc1__pool_kernel_eq_skeleton]; unfold cc1__pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs0; obtain rfl := harg8.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [HS0]
  · iexists _; isplitr
    swap; · iexact HS0
    ipureintro
    sl_unfold_words
    rw [View.read_writes_eq_canon _ _ _ (fun y => ⟨_, List.mem_cons_self .., View.mem_set_unit_zero zeros2 inb_S64x64_S64x64_0_0 y⟩), View.canon_cons_unit_zero (S := S64x64) zeros2]
    simp only [View.readAt_eq_ld, harg1.read_unread, harg2.read_unread, harg3.read_unread, harg4.read_unread, harg5.read_unread, harg6.read_unread, harg7.read_unread, harg8.read_unread, View.ld_unit_zero (S := S10000x64) zeros2, View.ld_unit_zero (S := S1x64) zeros2, View.ld_unit_zero (S := S64x64) zeros2, View.ld_unit_zero (S := S64x1) zeros2, View.ld_unit_zero (S := S64x32) zeros2, View.ld_unit_zero (S := S1x32) zeros2, View.readCov_unit_zero (S := S64x64) _ zeros2, View.readCov_unit_zero (S := S64x1) _ zeros2]
  iexists _; isplitr
  swap; · iexact HS1
  ipureintro
  sl_unfold_words
  rw [View.read_writes_eq_canon _ _ _ (fun y => ⟨_, List.mem_cons_self .., View.mem_set_unit_zero zeros2 inb_S64x1_S64x1_0_0 y⟩), View.canon_cons_unit_zero (S := S64x1) zeros2]
  simp only [View.readAt_eq_ld, harg1.read_unread, harg2.read_unread, harg3.read_unread, harg4.read_unread, harg5.read_unread, harg6.read_unread, harg7.read_unread, harg8.read_unread, View.ld_unit_zero (S := S10000x64) zeros2, View.ld_unit_zero (S := S1x64) zeros2, View.ld_unit_zero (S := S64x64) zeros2, View.ld_unit_zero (S := S64x1) zeros2, View.ld_unit_zero (S := S64x32) zeros2, View.ld_unit_zero (S := S1x32) zeros2, View.readCov_unit_zero (S := S64x64) _ zeros2, View.readCov_unit_zero (S := S64x1) _ zeros2]

end Cert.KernelIdeal.Pool

end
-- ==== Proof.KI.PoolRunC.lean ====
/-
  The pooling kernel's body at the last point: no reset; the update, then the projection into the output block.
  From the five staged inputs at their contents, the output's staging buffer at anything and the two scratches at
  what the point before left, the body runs to the same inputs, each scratch at this point's update of it, and the
  output buffer at the projection of the updated scratches.
-/
import proofs.«428046_j7275674600336_1_alg».proof.Proof.KI.PoolRuns

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at the last point. -/
theorem runC (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .bf16) (harg3 : arg3.IsWhole) (arg4 : Memref sig .tc .vmem S64x32 .f32) (harg4 : arg4.IsWhole) (arg5 : Memref sig .tc .vmem S1x32 .f32) (harg5 : arg5.IsWhole) (arg6 : Memref sig .tc .vmem S64x32 .f32) (harg6 : arg6.IsWhole) (arg7 : Memref sig .tc .vmem S64x64 .f32) (harg7 : arg7.IsWhole) (arg8 : Memref sig .tc .vmem S64x1 .f32) (harg8 : arg8.IsWhole) (hc0 : ¬condFirst i) (hc1 : condLast i)
    (x0 : Vec F S10000x64 .f32) (x1 : Vec F S1x64 .f32) (x2 : Vec F S10000x64 .bf16) (x3 : Vec F S64x32 .f32) (x4 : Vec F S1x32 .f32)
    (xs0 : Vec F S64x64 .f32) (xs1 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k1_pay1 (k1_pay5 x0 x1 x2 xs0) (k1_pay6 x2 xs1) x3 x4) ∗ owns (c : Thread nD τ) arg7 fullShare (k1_pay5 x0 x1 x2 xs0) ∗ owns (c : Thread nD τ) arg8 fullShare (k1_pay6 x2 xs1)) -∗ K ⟨⟩))
      ⊢ wp frame (wpE (defs₀ (F := F)) Variants.none c none) E (cc1__pool_kernel i arg1 harg1 arg2 harg2 arg3 harg3 arg4 harg4 arg5 harg5 arg6 harg6 arg7 harg7 arg8 harg8) K := by
  simp only [cc1__pool_kernel_eq_skeleton]; unfold cc1__pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4
  obtain rfl := harg7.eq_unread hfs0; obtain rfl := harg8.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_words
    rw [View.read_writes_eq_canon _ _ _ (fun y => ⟨_, List.mem_cons_self .., View.mem_set_unit_zero zeros2 inb_S64x32_S64x32_0_0 y⟩), View.canon_cons_unit_zero (S := S64x32) zeros2]
    simp only [View.readAt_eq_ld, harg1.read_unread, harg2.read_unread, harg3.read_unread, harg4.read_unread, harg5.read_unread, harg6.read_unread, harg7.read_unread, harg8.read_unread, View.ld_unit_zero (S := S10000x64) zeros2, View.ld_unit_zero (S := S1x64) zeros2, View.ld_unit_zero (S := S64x64) zeros2, View.ld_unit_zero (S := S64x1) zeros2, View.ld_unit_zero (S := S64x32) zeros2, View.ld_unit_zero (S := S1x32) zeros2, View.readCov_unit_zero (S := S64x64) _ zeros2, View.readCov_unit_zero (S := S64x1) _ zeros2]
  isplitl [HS0]
  · iexists _; isplitr
    swap; · iexact HS0
    ipureintro
    sl_unfold_words
    rw [View.read_writes_eq_canon _ _ _ (fun y => ⟨_, List.mem_cons_self .., View.mem_set_unit_zero zeros2 inb_S64x64_S64x64_0_0 y⟩), View.canon_cons_unit_zero (S := S64x64) zeros2]
    simp only [View.readAt_eq_ld, harg1.read_unread, harg2.read_unread, harg3.read_unread, harg4.read_unread, harg5.read_unread, harg6.read_unread, harg7.read_unread, harg8.read_unread, View.ld_unit_zero (S := S10000x64) zeros2, View.ld_unit_zero (S := S1x64) zeros2, View.ld_unit_zero (S := S64x64) zeros2, View.ld_unit_zero (S := S64x1) zeros2, View.ld_unit_zero (S := S64x32) zeros2, View.ld_unit_zero (S := S1x32) zeros2, View.readCov_unit_zero (S := S64x64) _ zeros2, View.readCov_unit_zero (S := S64x1) _ zeros2]
  iexists _; isplitr
  swap; · iexact HS1
  ipureintro
  sl_unfold_words
  rw [View.read_writes_eq_canon _ _ _ (fun y => ⟨_, List.mem_cons_self .., View.mem_set_unit_zero zeros2 inb_S64x1_S64x1_0_0 y⟩), View.canon_cons_unit_zero (S := S64x1) zeros2]
  simp only [View.readAt_eq_ld, harg1.read_unread, harg2.read_unread, harg3.read_unread, harg4.read_unread, harg5.read_unread, harg6.read_unread, harg7.read_unread, harg8.read_unread, View.ld_unit_zero (S := S10000x64) zeros2, View.ld_unit_zero (S := S1x64) zeros2, View.ld_unit_zero (S := S64x64) zeros2, View.ld_unit_zero (S := S64x1) zeros2, View.ld_unit_zero (S := S64x32) zeros2, View.ld_unit_zero (S := S1x32) zeros2, View.readCov_unit_zero (S := S64x64) _ zeros2, View.readCov_unit_zero (S := S64x1) _ zeros2]

end Cert.KernelIdeal.Pool

end
-- ==== Proof.KI.PoolRegion.lean ====
/-
  The second kernel region (segment pooling), at the buffer contents `V` it is entered from: its proof data and the
  body obligation at every point.
  What the two carried scratches hold after each point is a recursion on the point: at the first point the update of
  the zeroed scratches by that point's blocks, afterwards the update of what the point before left. The output block
  is what the last point's projection makes of the scratches after the last update. The region's invariant tracks
  the scratches: before the first point it is the class invariant (every scoped buffer at some contents); before
  any later point the two scratches are held at what the point before left, beside the other scoped buffers and the
  generator register. The body obligation follows from the three triples of the body (first point, a middle point,
  last point) by a case split on the point.
-/
import proofs.«428046_j7275674600336_1_alg».proof.Proof.KI.PoolRunA
import proofs.«428046_j7275674600336_1_alg».proof.Proof.KI.PoolRunB
import proofs.«428046_j7275674600336_1_alg».proof.Proof.KI.PoolRunC

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the scratches and the output hold -/

/-- One point's update of the two carried scratches, from the point's aggregated-feature, bias and one-hot blocks. -/
def scStep (a : Vec F S10000x64 .f32) (b : Vec F S1x64 .f32) (o : Vec F S10000x64 .bf16) (s : Vec F S64x64 .f32 × Vec F S64x1 .f32) : Vec F S64x64 .f32 × Vec F S64x1 .f32 :=
  (k1_pay5 a b o s.1, k1_pay6 o s.2)

/-- The two scratches after the body at point `n`: from the reset values at the first point, from the previous
    point's afterwards. -/
def scAt1 (c : Dev nD) : (n : ℕ) → n < cfg1.N → Vec F S64x64 .f32 × Vec F S64x1 .f32
  | 0, h => scStep (iblk1 V c 0 ⟨0, h⟩) (iblk1 V c 1 ⟨0, h⟩) (iblk1 V c 2 ⟨0, h⟩) (k1_pay2, k1_pay3)
  | n + 1, h => scStep (iblk1 V c 0 ⟨n + 1, h⟩) (iblk1 V c 1 ⟨n + 1, h⟩) (iblk1 V c 2 ⟨n + 1, h⟩) (scAt1 c n (Nat.lt_of_succ_lt h))

/-- What the last point stores into the output block. -/
def out1 (c : Dev nD) : Vec F S64x32 .f32 :=
  k1_pay1 (scAt1 V c 9 (by have : cfg1.N = 10 := N_1; omega)).1 (scAt1 V c 9 (by have : cfg1.N = 10 := N_1; omega)).2 (iblk1 V c 3 t1_9) (iblk1 V c 4 t1_9)

/-- The recursion's two equations and the output block's, as the definitions give them. -/
theorem scAt1_zero (c : Dev nD) (h : 0 < cfg1.N) :
    scAt1 V c 0 h = scStep (iblk1 V c 0 ⟨0, h⟩) (iblk1 V c 1 ⟨0, h⟩) (iblk1 V c 2 ⟨0, h⟩) (k1_pay2, k1_pay3) := rfl
theorem scAt1_succ (c : Dev nD) (n : ℕ) (h : n + 1 < cfg1.N) :
    scAt1 V c (n + 1) h = scStep (iblk1 V c 0 ⟨n + 1, h⟩) (iblk1 V c 1 ⟨n + 1, h⟩) (iblk1 V c 2 ⟨n + 1, h⟩) (scAt1 V c n (Nat.lt_of_succ_lt h)) := rfl
theorem out1_eq (c : Dev nD) :
    out1 V c = k1_pay1 (scAt1 V c 9 (by have : cfg1.N = 10 := N_1; omega)).1 (scAt1 V c 9 (by have : cfg1.N = 10 := N_1; omega)).2 (iblk1 V c 3 t1_9) (iblk1 V c 4 t1_9) := rfl

/-- The recursion at a point that is not the first, stated at the point. -/
theorem scAt1_pos (c : Dev nD) (t : Fin cfg1.N) (hz : t.val ≠ 0) :
    scAt1 V c t.val t.isLt = scStep (iblk1 V c 0 t) (iblk1 V c 1 t) (iblk1 V c 2 t)
      (scAt1 V c (t.val - 1) (Nat.lt_of_le_of_lt (Nat.sub_le _ _) t.isLt)) := by
  obtain ⟨n, hn⟩ := t
  cases n with
  | zero => exact absurd rfl hz
  | succ n => rfl

/-- At the first point. -/
theorem scAt1_first (c : Dev nD) (t : Fin cfg1.N) (hz : t.val = 0) :
    scAt1 V c t.val t.isLt = scStep (iblk1 V c 0 t) (iblk1 V c 1 t) (iblk1 V c 2 t) (k1_pay2, k1_pay3) := by
  obtain ⟨n, hn⟩ := t
  cases n with
  | zero => rfl
  | succ n => exact absurd hz (Nat.succ_ne_zero n)

/-! ## The tracking invariant -/

/-- The region invariant before position `n`: before the first point the class invariant; afterwards the two
    scratches held whole at what the point before left, beside the other scoped buffers and the generator register. -/
def PhiS1 (c : Dev nD) : (n : ℕ) → n ≤ cfg1.N → sProp 𝕄
  | 0, _ => Pipeline.ΦA spec1 c
  | n + 1, hn => iprop(scopedChain c (owns (c : Thread nD τ) scM0 fullShare (scAt1 V c n hn).1) (owns (c : Thread nD τ) scM1 fullShare (scAt1 V c n hn).2)
      ∗ (∃ r, prngReg c r))

theorem PhiS1_zero (c : Dev nD) (n : ℕ) (h : n ≤ cfg1.N) (hz : n = 0) : PhiS1 V c n h = Pipeline.ΦA spec1 c := by
  subst hz; rfl

/-- After point `n`: the scratches at that point's contents. -/
theorem PhiS1_succ (c : Dev nD) (n : ℕ) (hn : n < cfg1.N) :
    PhiS1 V c (n + 1) hn = iprop(scopedChain c (owns (c : Thread nD τ) scM0 fullShare (scAt1 V c n hn).1) (owns (c : Thread nD τ) scM1 fullShare (scAt1 V c n hn).2)
      ∗ (∃ r, prngReg c r)) := rfl

/-- Before a point that is not the first: the scratches at what the point before left. -/
theorem PhiS1_pos (c : Dev nD) (n : ℕ) (h : n ≤ cfg1.N) (hz : n ≠ 0) :
    PhiS1 V c n h = iprop(scopedChain c (owns (c : Thread nD τ) scM0 fullShare (scAt1 V c (n - 1) (by omega)).1) (owns (c : Thread nD τ) scM1 fullShare (scAt1 V c (n - 1) (by omega)).2)
      ∗ (∃ r, prngReg c r)) := by
  cases n with
  | zero => exact absurd rfl hz
  | succ n => rfl

/-! ## The region's proof data -/

/-- The proof data of the region on core `c`: the arrays as the region finds them; after the body at point `t` each
    input's buffer at its block, the output's at the projected block (consulted at the last point only); the
    tracking invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 V c
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 V c := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' staging buffers hold their blocks; the point is the first, the last or
    neither, and that case's triple applies. The invariant hands the body the two scratches — at anything at the
    first point, at what the point before left afterwards — and takes them back at this point's contents; away from
    the last point the output's staging buffer is handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [show (dat1 V c).leavesExact 2 t = owns (c : Thread nD τ) (st1_2 t) fullShare ((dat1 V c).after 2 t) from by
    unfold Dat.leavesExact; rw [live1_2 t], after1_2]
  rw [show (dat1 V c).leavesExact 3 t = owns (c : Thread nD τ) (st1_3 t) fullShare ((dat1 V c).after 3 t) from by
    unfold Dat.leavesExact; rw [live1_3 t], after1_3]
  rw [show (dat1 V c).leavesExact 4 t = owns (c : Thread nD τ) (st1_4 t) fullShare ((dat1 V c).after 4 t) from by
    unfold Dat.leavesExact; rw [live1_4 t], after1_4]
  have hN : t.val < 10 := lt_of_lt_of_eq t.isLt (show cfg1.N = 10 from N_1)
  by_cases hz : t.val = 0
  · -- the first point: reset, then update
    have hc0 : condFirst (grid1.coords t) := (condFirst_iff t).mpr hz
    have hc1 : ¬condLast (grid1.coords t) := fun h => by have := (condLast_iff t).mp h; omega
    rw [Dat.leavesExact_idle (dat1 V c) 5 t (idle1_5 t hc1) (noFlush1_5 t hc1)]
    rw [scAt1_first V c t hz]
    dsimp only [scStep]
    rw [PhiS1_castSucc V c t, PhiS1_zero V c _ _ hz, PhiA1_eq]
    unfold scopedChain
    iintro ⟨⟨⟨A1, A2, A3, A4, A5, HS0, HS1⟩, Hg⟩, Ho, ⟨%d0, H0⟩, ⟨%d1, H1⟩, ⟨%d2, H2⟩, ⟨%d3, H3⟩, ⟨%d4, H4⟩, ⟨%d5, H5⟩⟩
    iapply (runA c (grid1.coords t) _ _ _ _ _ _ _ _ _ _ _ _ _ _ _ _ hc0 hc1 (iblk1 V c 0 t) (iblk1 V c 1 t) (iblk1 V c 2 t) (iblk1 V c 3 t) (iblk1 V c 4 t) _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [A1 A2 A3 A4 A5 HS0 HS1 Hg]
    · isplitr [Hg]
      · isplitl [A1]; · iexact A1
        isplitl [A2]; · iexact A2
        isplitl [A3]; · iexact A3
        isplitl [A4]; · iexact A4
        isplitl [A5]; · iexact A5
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h9 : t.val = 9
    · -- the last point: update, then the projection into the output block
      have hc0 : ¬condFirst (grid1.coords t) := fun h => hz ((condFirst_iff t).mp h)
      have hc1 : condLast (grid1.coords t) := (condLast_iff t).mpr h9
      rw [show (dat1 V c).leavesExact 5 t = owns (c : Thread nD τ) (st1_5 t) fullShare ((dat1 V c).after 5 t) from by
        unfold Dat.leavesExact; rw [live1_5 t hc1], after1_5]
      have hout : out1 V c = k1_pay1 (scAt1 V c t.val t.isLt).1 (scAt1 V c t.val t.isLt).2 (iblk1 V c 3 t) (iblk1 V c 4 t) := by
        obtain rfl : t = t1_9 := Fin.ext h9
        rfl
      rw [hout, scAt1_pos V c t hz]
      dsimp only [scStep]
      rw [PhiS1_castSucc V c t, PhiS1_pos V c _ _ hz]
      unfold scopedChain
      iintro ⟨⟨⟨A1, A2, A3, A4, A5, HS0, HS1⟩, Hg⟩, Ho, ⟨%d0, H0⟩, ⟨%d1, H1⟩, ⟨%d2, H2⟩, ⟨%d3, H3⟩, ⟨%d4, H4⟩, ⟨%d5, H5⟩⟩
      iapply (runC c (grid1.coords t) _ _ _ _ _ _ _ _ _ _ _ _ _ _ _ _ hc0 hc1 (iblk1 V c 0 t) (iblk1 V c 1 t) (iblk1 V c 2 t) (iblk1 V c 3 t) (iblk1 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [A1 A2 A3 A4 A5 HS0 HS1 Hg]
      · isplitr [Hg]
        · isplitl [A1]; · iexact A1
          isplitl [A2]; · iexact A2
          isplitl [A3]; · iexact A3
          isplitl [A4]; · iexact A4
          isplitl [A5]; · iexact A5
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a middle point: update only
      have hc0 : ¬condFirst (grid1.coords t) := fun h => hz ((condFirst_iff t).mp h)
      have hc1 : ¬condLast (grid1.coords t) := fun h => h9 ((condLast_iff t).mp h)
      rw [Dat.leavesExact_idle (dat1 V c) 5 t (idle1_5 t hc1) (noFlush1_5 t hc1)]
      rw [scAt1_pos V c t hz]
      dsimp only [scStep]
      rw [PhiS1_castSucc V c t, PhiS1_pos V c _ _ hz]
      unfold scopedChain
      iintro ⟨⟨⟨A1, A2, A3, A4, A5, HS0, HS1⟩, Hg⟩, Ho, ⟨%d0, H0⟩, ⟨%d1, H1⟩, ⟨%d2, H2⟩, ⟨%d3, H3⟩, ⟨%d4, H4⟩, ⟨%d5, H5⟩⟩
      iapply (runB c (grid1.coords t) _ _ _ _ _ _ _ _ _ _ _ _ _ _ _ _ hc0 hc1 (iblk1 V c 0 t) (iblk1 V c 1 t) (iblk1 V c 2 t) (iblk1 V c 3 t) (iblk1 V c 4 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [A1 A2 A3 A4 A5 HS0 HS1 Hg]
      · isplitr [Hg]
        · isplitl [A1]; · iexact A1
          isplitl [A2]; · iexact A2
          isplitl [A3]; · iexact A3
          isplitl [A4]; · iexact A4
          isplitl [A5]; · iexact A5
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratches' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scopedChain
  iintro ⟨⟨A1, A2, A3, A4, A5, HS0, HS1⟩, Hg⟩
  isplitr [Hg]
  · isplitl [A1]; · iexact A1
    isplitl [A2]; · iexact A2
    isplitl [A3]; · iexact A3
    isplitl [A4]; · iexact A4
    isplitl [A5]; · iexact A5
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 10 := N_1; omega)

end Cert.KernelIdeal.Pool

end
-- ==== Proof.KI.Whole.lean ====
/-
  The program's two runs, with the second region's proof data put in: the proof data of the pooling region at the
  contents that region is entered from — the launch contents after every host stretch and the first region, whose
  result array holds what its ten write-backs leave. They meet the six facts the segment-by-segment run asks of them
  (their arrays are those contents; full shares; nothing owed and no bound on the recorded pairs; the body obligation;
  their invariant follows from the scoped buffers and the generator register before the first point and gives them
  back after the last), so: every weakly fair execution terminates with each argument array as launched (`frame`),
  and with the result buffer at `result`, the pooling region's result array after its one write-back (`run_out`).
-/
import proofs.«428046_j7275674600336_1_alg».proof.Proof.KI.Run
import proofs.«428046_j7275674600336_1_alg».proof.Proof.KI.PoolRegion

noncomputable section

namespace Cert.KernelIdeal.Whole

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- The pooling region's proof data, at the contents it is entered from. -/
abbrev poolDat : (c : Dev nD) → Dat τ (Elt F) Unit ℕ (UR sig nD τ) ℕ cfg1 c := fun c => Pool.dat1 (Run.VB m) c

/-- The program's result: the pooling region's result array after its one write-back. -/
abbrev result (c : Dev nD) : Buf (Elt F) ((c : Thread nD τ).loc main_v49) := Run.pOut (poolDat m) c

/-- Every weakly fair execution from memory `m` with zero counters terminates, nothing faulting, and every final
    memory holds each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Run.frame m (poolDat m) (fun c w => Pool.A_eq1 (Run.VB m) c w) (fun _ _ => rfl) (fun _ _ => rfl) (fun _ _ => rfl)
    (fun c => Pool.body_obligation1 (Run.VB m) c) (fun c => Pool.hin1 (Run.VB m) c) (fun c => Pool.hout1 (Run.VB m) c) ρ

/-- The same, with the result named: every final memory holds `result` at the result buffer. -/
theorem run_out (ρ : Dev nD → PrngReg) :
    θ_run defs (onTc (τ := τ) (main (F := F))) ⟨m, fun _ => 0, ρ⟩ (fun r => ∀ c : Dev nD,
      r.2.mem ((c.tc : Thread nD τ).loc main_v49) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Run.run_out m (poolDat m) (fun c w => Pool.A_eq1 (Run.VB m) c w) (fun _ _ => rfl) (fun _ _ => rfl) (fun _ _ => rfl)
    (fun c => Pool.body_obligation1 (Run.VB m) c) (fun c => Pool.hin1 (Run.VB m) c) (fun c => Pool.hout1 (Run.VB m) c) ρ

end Cert.KernelIdeal.Whole

end
-- ==== Proof.Spec.lean ====
/-
  The pooled layer both programs compute, stated once, index by index, over the extended reals.

  Inputs: node features `x` [100000,128], weights `W1` [128,64] and `W2` [64,32], biases `b1` [64] and `b2` [32],
  and a segment id `batch n` (a 32-bit word) for every row `n`. With `h = x · W1` and `agg` any [100000,64] array
  obtained from `h` (the message-passing stage, carried as an opaque function by both programs):

    act[n,f]  = leaky (agg[n,f] + b1[f]),   leaky a = a where a > 0, slope · a elsewhere;
    sums[g,f] = Σ over the rows n whose id is the word of g of act[n,f];
    cnt[g]    = the number of such rows;
    out[g,k]  = tanh (Σ_f (sums[g,f] / max cnt[g] 1) · W2[f,k] + b2[k]).

  A row whose id is the word of no segment 0 ≤ g < 64 contributes to no sum. Division, `max` and `tanh` are the ideal
  instance's (`Ideal.div`, the order's `max`, `Ideal.tanh`); the slope stays the word it is printed as and is never
  evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-! ## The literal shapes -/

abbrev SX : Shape := ⟨2, ![100000, 128]⟩
abbrev SW1 : Shape := ⟨2, ![128, 64]⟩
abbrev SH : Shape := ⟨2, ![100000, 64]⟩
abbrev SB1 : Shape := ⟨1, ![64]⟩
abbrev SW2 : Shape := ⟨2, ![64, 32]⟩
abbrev SB2 : Shape := ⟨1, ![32]⟩
abbrev SBATCH : Shape := ⟨1, ![100000]⟩
abbrev SOUT : Shape := ⟨2, ![64, 32]⟩

/-! ## The layer -/

/-- `h = x · W1`: at (n, f) the sum over k of `x[n,k] · W1[k,f]`. -/
def hOf (x : SX.Idx → EReal) (w : SW1.Idx → EReal) : SH.Idx → EReal :=
  fun i => ∑ k : Fin 128, x (ix2 (i 0) k) * w (ix2 k (i 1))

theorem hOf_ix2 (x : SX.Idx → EReal) (w : SW1.Idx → EReal) (n : Fin 100000) (f : Fin 64) :
    hOf x w (ix2 n f) = ∑ k : Fin 128, x (ix2 n k) * w (ix2 k f) := rfl

/-- The leaky rectifier, in the ideal instance's own comparison, select and product: `a` where `a > 0`, the slope
    (the f32 word `0x3C23D70A`) times `a` elsewhere. -/
def leaky (a : EReal) : EReal :=
  Scalar.select (Ideal.cmp .ogt a (Ideal.ofBits .f32 0x00000000#32)) a (Ideal.ofBits .f32 0x3C23D70A#32 * a)

/-- The printed select / compare / product of one element IS `leaky` of it. -/
theorem leaky_ops (a : Ideal .f32) :
    Scalar.select (FloatOps.cmpf .ogt a (FloatOps.ofBits .f32 0x00000000#32)) a
        (FloatOps.mulf (FloatOps.ofBits .f32 0x3C23D70A#32) a) = leaky a := rfl

/-- `leaky` by the order: the identity above zero, the slope's multiple at and below it. -/
theorem leaky_eq (a : EReal) : leaky a = if 0 < a then a else Ideal.ofBits .f32 0x3C23D70A#32 * a := by
  unfold leaky Scalar.select Ideal.cmp
  rw [Ideal.ofBits_zero_f32]
  by_cases h : 0 < a <;> simp [h]

/-- Row `n` belongs to segment `g`: its id is the 32-bit word of `g`. -/
def inSeg (batch : SBATCH.Idx → BitVec 32) (n : Fin 100000) (g : Fin 64) : Prop :=
  batch (ix1 n) = BitVec.ofNat 32 g.val

instance (batch : SBATCH.Idx → BitVec 32) (n : Fin 100000) (g : Fin 64) : Decidable (inSeg batch n g) :=
  inferInstanceAs (Decidable (batch (ix1 n) = BitVec.ofNat 32 g.val))

/-- `sums[g,f]`: the sum over the rows of segment `g` of `leaky (agg[n,f] + b1[f])`. -/
def sumsOf (agg : SH.Idx → EReal) (b1 : SB1.Idx → EReal) (batch : SBATCH.Idx → BitVec 32) (g f : Fin 64) : EReal :=
  ∑ n : Fin 100000, if inSeg batch n g then leaky (agg (ix2 n f) + b1 (ix1 f)) else 0

/-- `cnt[g]`: the number of rows of segment `g`. -/
def cntOf (batch : SBATCH.Idx → BitVec 32) (g : Fin 64) : EReal :=
  ∑ n : Fin 100000, if inSeg batch n g then 1 else 0

/-- `out[g,k] = tanh (Σ_f (sums[g,f] / max cnt[g] 1) · W2[f,k] + b2[k])`. -/
def poolOf (agg : SH.Idx → EReal) (b1 : SB1.Idx → EReal) (batch : SBATCH.Idx → BitVec 32)
    (W2 : SW2.Idx → EReal) (b2 : SB2.Idx → EReal) : SOUT.Idx → EReal :=
  fun i => Ideal.tanh
    ((∑ f : Fin 64, Ideal.div (sumsOf agg b1 batch (i 0) f) (max (cntOf batch (i 0)) 1) * W2 (ix2 f (i 1))) + b2 (ix1 (i 1)))

theorem poolOf_ix2 (agg : SH.Idx → EReal) (b1 : SB1.Idx → EReal) (batch : SBATCH.Idx → BitVec 32)
    (W2 : SW2.Idx → EReal) (b2 : SB2.Idx → EReal) (g : Fin 64) (k : Fin 32) :
    poolOf agg b1 batch W2 b2 (ix2 g k)
      = Ideal.tanh ((∑ f : Fin 64, Ideal.div (sumsOf agg b1 batch g f) (max (cntOf batch g) 1) * W2 (ix2 f k)) + b2 (ix1 k)) := rfl

/-! ## Two words -/

/-- The f32 word of `1.0` is the extended real `1`. -/
theorem ofBits_one_f32 : Ideal.ofBits .f32 0x3F800000#32 = 1 := by
  simp [Ideal.ofBits, Ideal.ieee, -EReal.coe_mul]; norm_num

end Cert.Spec

end
-- ==== Proof.KI.MatmulValue.lean ====
/-
  What the first region leaves in its result array, as one function of the whole argument arrays.

  The region's grid has ten points; point `t` holds rows `10000·t … 10000·t + 9999` of the left matrix, the whole
  right matrix, and writes back rows `10000·t …` of the result. Its payload at block index (p, q) is the sum over the
  128 contraction indices k of left[p,k] · right[k,q] (the narrowing to bf16 is the identity on the extended reals and
  the accumulator is the zero splat). A block's element (p, q) at point `t` sits in its array at row
  `t · 10000 + p`, column `q`; so what point `t` writes back is block `t` of ONE function of the two arrays,
  `hOf x w (n, f) = Σ_k x[n,k] · w[k,f]`; the ten blocks cover the 100000 rows (row `r` lies in block
  `r / 10000`), and the array after the run is `hOf` of the two arrays as the region found them.
-/
import proofs.«428046_j7275674600336_1_alg».proof.Proof.KI.MatmulRegion
import proofs.«428046_j7275674600336_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.MatmulValue

open Cert.KernelIdeal Cert.KernelIdeal.Gen Cert.KernelIdeal.Matmul
open Idealize.ShloMosaic Idealize.ShloMosaic.TcCoe Idealize.SL.Sem
open Idealize.ShloMosaic.Pipeline (Dat)
open Idealize.ShloMosaic.ValueIdx
open scoped BigOperators

/-! ## The product's dimension numbers, axis by axis -/

theorem lhs_axis0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_axis1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_axis0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_axis1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-! ## The payload at an index -/

/-- The body's payload of two loaded blocks, at block index (p, q): the sum over k of left[p,k] · right[k,q]. -/
theorem pay_apply (x0 : FVec Ideal S10000x128 .f32) (x1 : FVec Ideal S128x64 .f32) (p : Fin 10000) (q : Fin 64) :
    k0_pay1 (F := Ideal) x0 x1 (ix2 p q) = ∑ k : Fin 128, x0 (ix2 p k) * x1 (ix2 k q) := by
  unfold k0_pay1
  show FloatOps.matmul dot_S10000x128_S128x64_S10000x64_1_0_0_1_n_n none (truncf .bf16 x0 bitsLt_bf16_f32) (truncf .bf16 x1 bitsLt_bf16_f32) (constant S10000x64 .f32 0x00000000#32) (ix2 p q) = _
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]
  rfl

/-! ## The printed index maps over the grid -/

/-- Decided over the ten points: the left matrix's and the result's row blocks move with the point, their column
    block and both block indices of the right matrix stay 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## The staged blocks, read in their arrays -/

section Blocks

variable {F : FTy → Type} [FloatOps F]
variable (V : (c : Dev nD) → (b : Ref sig .tc) → Buf (Elt F) ((c : Thread nD τ).loc b))

/-- The left block at point `t`, at (p, k), is the left array at row `t · 10000 + p`, column k. -/
theorem left_block (c : Dev nD) (t : Fin cfg0.N) (p : Fin 10000) (k : Fin 128) (n : Fin 100000) (hn : n.val = t.val * 10000 + p.val) :
    (iblk0 V c 0 t : FVec F S10000x128 .f32) (ix2 p k) = (V c main_arg0 : S100000x128.Idx → F .f32) (ix2 n k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 10000 + 1 * p.val = n.val; rw [e0, hn]; omega
  | ⟨1, _⟩ => show win0_0.index t (1 : Fin 2) * 128 + 1 * k.val = k.val; rw [e1]; omega

/-- The right block at every point is the whole right array. -/
theorem right_block (c : Dev nD) (t : Fin cfg0.N) (k : Fin 128) (q : Fin 64) :
    (iblk0 V c 1 t : FVec F S128x64 .f32) (ix2 k q) = (V c main_arg1 : S128x64.Idx → F .f32) (ix2 k q) := by
  obtain ⟨-, -, e2, e3, -⟩ := idx_facts t
  unfold iblk0
  rw [View.read_apply]
  show V c main_arg1 _ = V c main_arg1 _
  refine congrArg (V c main_arg1) (funext fun a => Fin.ext ?_)
  match a with
  | ⟨0, _⟩ => show win0_1.index t (0 : Fin 2) * 128 + 1 * k.val = k.val; rw [e2]; omega
  | ⟨1, _⟩ => show win0_1.index t (1 : Fin 2) * 64 + 1 * q.val = q.val; rw [e3]; omega

end Blocks

variable (V : (c : Dev nD) → (b : Ref sig .tc) → Buf (Elt Ideal) ((c : Thread nD τ).loc b))

/-- The payload of the two staged blocks at point `t`, at block index (p, q), is the product of the whole arrays at row
    `t · 10000 + p`, column q. -/
theorem block_value (c : Dev nD) (t : Fin cfg0.N) (p : Fin 10000) (q : Fin 64) (n : Fin 100000) (hn : n.val = t.val * 10000 + p.val) :
    k0_pay1 (F := Ideal) (iblk0 V c 0 t) (iblk0 V c 1 t) (ix2 p q) = Cert.Spec.hOf (V c main_arg0) (V c main_arg1) (ix2 n q) := by
  refine (pay_apply (iblk0 V c 0 t) (iblk0 V c 1 t) p q).trans ?_
  rw [Cert.Spec.hOf_ix2]
  refine Finset.sum_congr rfl fun k _ => ?_
  rw [left_block V c t p k n hn, right_block V c t k q]

/-! ## From the blocks to the array -/

theorem hz : (![0, 0] : Fin 2 → Nat) = fun _ => 0 := funext fun a => by fin_cases a <;> rfl

/-- WHAT POINT `t` WRITES BACK is block `t` of the product of the two arrays as the region finds them. -/
theorem flushed_eq (c : Dev nD) (t : Fin cfg0.N) :
    (dat0 (F := Ideal) V c).flushed 2 t = ((cfg0.win 2).blk t).view.read (Elt Ideal) (Cert.Spec.hOf (V c main_arg0) (V c main_arg1)) := by
  show (cfg0.win 2).cut (grid0.coords t) ((dat0 V c).after 2 t) = _
  rw [after0_2]
  unfold outBlock
  rw [View.canon_unit_zero hz]
  simp only [View.ld_unit_zero (S := S10000x128) hz, View.ld_unit_zero (S := S128x64) hz]
  obtain ⟨-, -, -, -, e4, e5⟩ := idx_facts t
  have hN : cfg0.N = 10 := N_0
  funext j
  have hj0 : (j 0).val < 10000 := (j 0).isLt
  have hj1 : (j 1).val < 64 := (j 1).isLt
  have hn : t.val * 10000 + (j 0).val < 100000 := by have := t.isLt; omega
  have hx : (cfg0.win 2).xinj (grid0.coords t) j = (ix2 (⟨(j 0).val, hj0⟩ : Fin 10000) (⟨(j 1).val, hj1⟩ : Fin 64) : S10000x64.Idx) :=
    funext fun a => match a with | ⟨0, _⟩ => rfl | ⟨1, _⟩ => rfl
  have he : ((cfg0.win 2).blk t).view.emb j = (ix2 (⟨t.val * 10000 + (j 0).val, hn⟩ : Fin 100000) (⟨(j 1).val, hj1⟩ : Fin 64) : S100000x64.Idx) :=
    funext fun a => Fin.ext (by
      match a with
      | ⟨0, _⟩ => show win0_2.index t (0 : Fin 2) * 10000 + 1 * (j 0).val = t.val * 10000 + (j 0).val; rw [e4]; omega
      | ⟨1, _⟩ => show win0_2.index t (1 : Fin 2) * 64 + 1 * (j 1).val = (j 1).val; rw [e5]; omega)
  show k0_pay1 (F := Ideal) (iblk0 V c 0 t) (iblk0 V c 1 t) ((cfg0.win 2).xinj (grid0.coords t) j)
    = Cert.Spec.hOf (V c main_arg0) (V c main_arg1) (((cfg0.win 2).blk t).view.emb j)
  rw [hx, he]
  exact block_value V c t _ _ _ rfl

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- Every index of the result array is in some point's block: row r in that of point `r / 10000`. -/
theorem cover (i : S100000x64.Idx) : ∃ t : Fin cfg0.N, (cfg0.win 2).flush t = true ∧ i ∈ ((cfg0.win 2).blk t).view.set := by
  have hN : cfg0.N = 10 := N_0
  have hi0 : (i 0).val < 100000 := (i 0).isLt
  have hi1 : (i 1).val < 64 := (i 1).isLt
  obtain ⟨t, ht⟩ : ∃ t : Fin cfg0.N, t.val = (i 0).val / 10000 := ⟨⟨(i 0).val / 10000, by rw [hN]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; rw [e4, ht]; omega
  | ⟨1, _⟩ => show win0_2.index t (1 : Fin 2) * 64 ≤ (i 1).val ∧ (i 1).val < win0_2.index t (1 : Fin 2) * 64 + 64; rw [e5]; omega

/-- THE RESULT ARRAY after the first region: the product of the two argument arrays as the region finds them. -/
theorem h_final (c : Dev nD) :
    ((dat0 (F := Ideal) V c).arrAt 2 cfg0.N : S100000x64.Idx → EReal) = Cert.Spec.hOf (V c main_arg0) (V c main_arg1) :=
  (dat0 V c).arrAt_eq_of_cover 2 (Cert.Spec.hOf (V c main_arg0) (V c main_arg1)) (fun t _ => flushed_eq V c t) cover

end Cert.KernelIdeal.MatmulValue

end
-- ==== Proof.KI.HostValues.lean ====
/-
  What the host operations around the two kernel regions hold, read off the valuations between @main's items.

  Between the first region and the second the host gathers rows of the first region's result `h` at the edges' source
  nodes, scales each gathered row by its edge's normalisation weight and scatter-adds the rows at the edges' target
  nodes. The source and target lists are the two rows of the edge array `ei`, each followed by the self loops
  `0 … 99999`; the weight of an edge is `dinv[src] · dinv[dst]`, where `dinv` is the inverse square root of the
  in-degree (counted over the target list, at least 1), and 0 where the degree is not positive. All of it is ONE function
  `kAgg h ei`, named here and never opened: both programs apply the same operations.
  The second region also reads the one-hot table of the segment ids (`oneHotOf`: entry (n, g) is 1 when row n's id is
  the word of g, else 0) and the two bias vectors as one-row matrices.
-/
import proofs.«428046_j7275674600336_1_alg».proof.Proof.Gen.KernelIdeal.Regions
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostValues

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]

/-! ## The message-passing stage as one function -/

/-- The edges' source nodes followed by the self loops: row 0 of the edge array, then `0 … 99999`. -/
def srcList (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edges' target nodes followed by the self loops: row 1 of the edge array, then `0 … 99999`. -/
def dstList (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The in-degrees: a one added at every entry of the target list. -/
def degOf (ei : IVec S2x1600000 32) : FVec F S100000 .f32 :=
  Host.scatterAdd scatter_S100000_S1700000x1_S1700000_n_0_0_1 (broadcastInDim S100000 ![] bcast_S_S100000 (constant (F := F) S_ .f32 0x00000000#32)) (broadcastInDim S1700000x1 ![0] bcast_S1700000_S1700000x1_0 (dstList ei)) (broadcastInDim S1700000 ![] bcast_S_S1700000 (constant (F := F) S_ .f32 0x3F800000#32))

/-- Where the degree is positive. -/
def degPos (ei : IVec S2x1600000 32) : IVec S100000 1 :=
  cmpf (F := F) .ogt (degOf ei) (broadcastInDim S100000 ![] bcast_S_S100000 (constant (F := F) S_ .f32 0x00000000#32))

/-- The inverse square root of the degree, at least 1. -/
def degRsqrt (ei : IVec S2x1600000 32) : FVec F S100000 .f32 :=
  Host.rsqrt (maximumf (degOf ei) (broadcastInDim S100000 ![] bcast_S_S100000 (constant (F := F) S_ .f32 0x3F800000#32)))

/-- `dinv`: the inverse square root of the degree where it is positive, 0 elsewhere. -/
def dinvOf (ei : IVec S2x1600000 32) : FVec F S100000 .f32 :=
  select (degPos (F := F) ei) (degRsqrt ei) (broadcastInDim S100000 ![] bcast_S_S100000 (id (constant (F := F) S_ .f32 0x00000000#32)))

/-- An index list with its negative entries wrapped by the number of nodes, as a column. -/
def wrapCol (x : IVec S1700000 32) : IVec S1700000x1 32 :=
  broadcastInDim S1700000x1 ![0] bcast_S1700000_S1700000x1_0 (select (cmpi .slt x (broadcastInDim S1700000 ![] bcast_S_S1700000 (constantI S_ 32 0#32))) (addi x (broadcastInDim S1700000 ![] bcast_S_S1700000 (constantI S_ 32 100000#32))) x)

/-- The edges' weights: `dinv` at the source times `dinv` at the target. -/
def edgeNorm (ei : IVec S2x1600000 32) : FVec F S1700000 .f32 :=
  mulf (Host.gather gather_S100000_S1700000x1_S1700000_n_0_n_n_0_1_1 (dinvOf ei) (wrapCol (srcList ei))) (Host.gather gather_S100000_S1700000x1_S1700000_n_0_n_n_0_1_1 (dinvOf ei) (wrapCol (dstList ei)))

/-- THE MESSAGE-PASSING STAGE: the rows of `h` at the edges' sources, each scaled by its edge's weight, added up at the
    edges' targets. -/
def kAgg (h : FVec F S100000x64 .f32) (ei : IVec S2x1600000 32) : FVec F S100000x64 .f32 :=
  Host.scatterAdd scatter_S100000x64_S1700000x1_S1700000x64_1_0_0_1 (broadcastInDim S100000x64 ![] bcast_S_S100000x64 (constant (F := F) S_ .f32 0x00000000#32)) (broadcastInDim S1700000x1 ![0] bcast_S1700000_S1700000x1_0 (dstList ei)) (mulf (broadcastInDim S1700000x64 ![0, 1] bcast_S1700000x1_S1700000x64_0_1 (broadcastInDim S1700000x1 ![0] bcast_S1700000_S1700000x1_0 (edgeNorm ei))) (Host.gather gather_S100000x64_S1700000x1_S1700000x64_1_0_n_n_0_1_164 h (wrapCol (srcList ei))))

/-- The one-hot table of the segment ids: entry (n, g) compares row n's id with the word of g. -/
def oneHotOf (batch : IVec S100000 32) : FVec F S100000x64 .bf16 :=
  uitofp (F := F) .bf16 (cmpi .eq (broadcastInDim S100000x64 ![0, 1] bcast_S100000x1_S100000x64_0_1 (broadcastInDim S100000x1 ![0] bcast_S100000_S100000x1_0 batch)) (broadcastInDim S100000x64 ![0, 1] bcast_S1x64_S100000x64_0_1 (iotaInDim S1x64 32 1)))

/-- A 64-vector as a one-row matrix. -/
def row64 (b : FVec F S64 .f32) : FVec F S1x64 .f32 := shapeCast S1x64 b shapeCasts_S64_S1x64
/-- A 32-vector as a one-row matrix. -/
def row32 (b : FVec F S32 .f32) : FVec F S1x32 .f32 := shapeCast S1x32 b shapeCasts_S32_S1x32

/-! ## Each host stretch, from any contents -/

variable (W : Valuation τ sig (Elt F))

theorem s0_v3 : (StableHlo.after hostOps0 W main_v3 : IVec S1700000 32) = srcList (W main_arg5) := by
  after_results <;> rfl

theorem s0_v6 : (StableHlo.after hostOps0 W main_v6 : IVec S1700000 32) = dstList (W main_arg5) := by
  after_results <;> rfl
theorem s0_v12 : (StableHlo.after hostOps0 W main_v12 : IVec S100000 1) = degPos (F := F) (W main_arg5) := by
  after_results <;> rfl
theorem s0_v15 : (StableHlo.after hostOps0 W main_v15 : FVec F S100000 .f32) = degRsqrt (W main_arg5) := by
  after_results <;> rfl
theorem s0_cst3 : (StableHlo.after hostOps0 W main_cst_3 : FVec F S_ .f32) = constant (F := F) S_ .f32 0x00000000#32 := by
  after_results <;> rfl

theorem s01_v16 : (StableHlo.after hostOps0_1 W main_v16 : FVec F S100000 .f32)
    = select (W main_v12 : IVec S100000 1) (W main_v15 : FVec F S100000 .f32) (broadcastInDim S100000 ![] bcast_S_S100000 (id (W main_cst_3 : FVec F S_ .f32))) := by
  after_results <;> rfl

theorem s02_v31 : (StableHlo.after hostOps0_2 W main_v31 : FVec F S1700000 .f32)
    = mulf (Host.gather gather_S100000_S1700000x1_S1700000_n_0_n_n_0_1_1 (W main_v16 : FVec F S100000 .f32) (wrapCol (W main_v3)))
        (Host.gather gather_S100000_S1700000x1_S1700000_n_0_n_n_0_1_1 (W main_v16 : FVec F S100000 .f32) (wrapCol (W main_v6))) := by
  after_results_simp <;> rfl

theorem s1_v45 : (StableHlo.after hostOps1 W main_v45 : FVec F S100000x64 .f32)
    = Host.scatterAdd scatter_S100000x64_S1700000x1_S1700000x64_1_0_0_1 (broadcastInDim S100000x64 ![] bcast_S_S100000x64 (constant (F := F) S_ .f32 0x00000000#32))
        (broadcastInDim S1700000x1 ![0] bcast_S1700000_S1700000x1_0 (W main_v6 : IVec S1700000 32))
        (mulf (broadcastInDim S1700000x64 ![0, 1] bcast_S1700000x1_S1700000x64_0_1 (broadcastInDim S1700000x1 ![0] bcast_S1700000_S1700000x1_0 (W main_v31 : FVec F S1700000 .f32)))
          (Host.gather gather_S100000x64_S1700000x1_S1700000x64_1_0_n_n_0_1_164 (W main_v32 : FVec F S100000x64 .f32) (wrapCol (W main_v3)))) := by
  after_results_simp <;> rfl

theorem s11_v46 : (StableHlo.after hostOps1_1 W main_v46 : FVec F S100000x64 .bf16) = oneHotOf (W main_arg6) := by
  after_results <;> rfl

theorem s12_v47 : (StableHlo.after hostOps1_2 W main_v47 : FVec F S1x64 .f32) = row64 (W main_arg2) := by
  after_results <;> rfl
theorem s12_v48 : (StableHlo.after hostOps1_2 W main_v48 : FVec F S1x32 .f32) = row32 (W main_arg4) := by
  after_results <;> rfl

/-! ## The valuations between @main's items -/

section Between

variable (m : (ℓ : Loc nD τ sig) → Buf (Elt F) ℓ) (outs : Outs (F := F)) (c : Dev nD)

/-! After the first host stretch: the two index lists and the degree's two reads. -/

theorem v1_v3 : (V1 m c main_v3 : IVec S1700000 32) = srcList (m ((c : Thread nD τ).loc main_arg5)) := s0_v3 (V0 m c)
theorem v1_v6 : (V1 m c main_v6 : IVec S1700000 32) = dstList (m ((c : Thread nD τ).loc main_arg5)) := s0_v6 (V0 m c)
theorem v1_v12 : (V1 m c main_v12 : IVec S100000 1) = degPos (F := F) (m ((c : Thread nD τ).loc main_arg5)) := s0_v12 (V0 m c)
theorem v1_v15 : (V1 m c main_v15 : FVec F S100000 .f32) = degRsqrt (m ((c : Thread nD τ).loc main_arg5)) := s0_v15 (V0 m c)
theorem v1_cst3 : (V1 m c main_cst_3 : FVec F S_ .f32) = constant (F := F) S_ .f32 0x00000000#32 := s0_cst3 (V0 m c)

/-! After the select: `dinv`; the lists are untouched. -/

theorem v2_v16 : (V2 m c main_v16 : FVec F S100000 .f32) = dinvOf (m ((c : Thread nD τ).loc main_arg5)) := by
  refine (s01_v16 (V1 m c)).trans ?_
  rw [v1_v12, v1_v15, v1_cst3]; rfl
theorem v2_v3 : (V2 m c main_v3 : IVec S1700000 32) = srcList (m ((c : Thread nD τ).loc main_arg5)) := (V2_of m c main_v3 (by decide)).trans (v1_v3 m c)
theorem v2_v6 : (V2 m c main_v6 : IVec S1700000 32) = dstList (m ((c : Thread nD τ).loc main_arg5)) := (V2_of m c main_v6 (by decide)).trans (v1_v6 m c)

/-! As the first region is entered: the edges' weights; the lists are untouched, and so are the two matrices. -/

theorem v3_v31 : (V3 m c main_v31 : FVec F S1700000 .f32) = edgeNorm (m ((c : Thread nD τ).loc main_arg5)) := by
  refine (s02_v31 (V2 m c)).trans ?_
  rw [v2_v16, v2_v3, v2_v6]; rfl
theorem v3_v3 : (V3 m c main_v3 : IVec S1700000 32) = srcList (m ((c : Thread nD τ).loc main_arg5)) := (V3_of m c main_v3 (by decide)).trans (v2_v3 m c)
theorem v3_v6 : (V3 m c main_v6 : IVec S1700000 32) = dstList (m ((c : Thread nD τ).loc main_arg5)) := (V3_of m c main_v6 (by decide)).trans (v2_v6 m c)

/-- The left matrix as the first region finds it is the launch's. -/
theorem v3_arg0 : V3 m c main_arg0 = m ((c : Thread nD τ).loc main_arg0) :=
  (V3_of m c main_arg0 (by decide)).trans <| (V2_of m c main_arg0 (by decide)).trans <| (V1_of m c main_arg0 (by decide)).trans rfl
/-- The right matrix as the first region finds it is the launch's. -/
theorem v3_arg1 : V3 m c main_arg1 = m ((c : Thread nD τ).loc main_arg1) :=
  (V3_of m c main_arg1 (by decide)).trans <| (V2_of m c main_arg1 (by decide)).trans <| (V1_of m c main_arg1 (by decide)).trans rfl

/-! After the first region: its result array at what the region left, everything else as before. -/

theorem v4_v32 : (V4 m outs c main_v32 : FVec F S100000x64 .f32) = outs 4 main_v32 c := Function.update_self _ _ _
theorem v4_v3 : (V4 m outs c main_v3 : IVec S1700000 32) = srcList (m ((c : Thread nD τ).loc main_arg5)) := (V4_of m outs c main_v3 (by decide)).trans (v3_v3 m c)
theorem v4_v6 : (V4 m outs c main_v6 : IVec S1700000 32) = dstList (m ((c : Thread nD τ).loc main_arg5)) := (V4_of m outs c main_v6 (by decide)).trans (v3_v6 m c)
theorem v4_v31 : (V4 m outs c main_v31 : FVec F S1700000 .f32) = edgeNorm (m ((c : Thread nD τ).loc main_arg5)) := (V4_of m outs c main_v31 (by decide)).trans (v3_v31 m c)

/-- An argument no item writes, as the second region finds it. -/
theorem v7_arg (r : Ref sig .tc) (h7 : r ∉ hostOps1_2_W) (h6 : r ∉ hostOps1_1_W) (h5 : r ∉ hostOps1_W) (h4 : r ∉ ([main_v32] : List (Ref sig .tc)))
    (h3 : r ∉ hostOps0_2_W) (h2 : r ∉ hostOps0_1_W) (h1 : r ∉ hostOps0_W) : V7 m outs c r = m ((c : Thread nD τ).loc r) :=
  (V7_of m outs c r h7).trans <| (V6_of m outs c r h6).trans <| (V5_of m outs c r h5).trans <| (V4_of m outs c r h4).trans <|
    (V3_of m c r h3).trans <| (V2_of m c r h2).trans <| (V1_of m c r h1).trans rfl

/-! As the second region is entered. -/

/-- The message-passing stage's result: `kAgg` of what the first region left and the edge array. -/
theorem v45_eq : (V7 m outs c main_v45 : FVec F S100000x64 .f32) = kAgg (outs 4 main_v32 c) (m ((c : Thread nD τ).loc main_arg5)) := by
  refine (V7_of m outs c main_v45 (by decide)).trans ((V6_of m outs c main_v45 (by decide)).trans ?_)
  refine (s1_v45 (V4 m outs c)).trans ?_
  rw [v4_v6, v4_v31, v4_v32, v4_v3]; rfl

/-- The one-hot table of the segment ids. -/
theorem v46_eq : (V7 m outs c main_v46 : FVec F S100000x64 .bf16) = oneHotOf (m ((c : Thread nD τ).loc main_arg6)) := by
  refine (V7_of m outs c main_v46 (by decide)).trans ((s11_v46 (V5 m outs c)).trans ?_)
  rw [show V5 m outs c main_arg6 = m ((c : Thread nD τ).loc main_arg6) from
    (V5_of m outs c main_arg6 (by decide)).trans <| (V4_of m outs c main_arg6 (by decide)).trans <|
      (V3_of m c main_arg6 (by decide)).trans <| (V2_of m c main_arg6 (by decide)).trans <| (V1_of m c main_arg6 (by decide)).trans rfl]

/-- The first bias as a one-row matrix. -/
theorem v47_eq : (V7 m outs c main_v47 : FVec F S1x64 .f32) = row64 (m ((c : Thread nD τ).loc main_arg2)) := by
  refine (s12_v47 (V6 m outs c)).trans ?_
  rw [show V6 m outs c main_arg2 = m ((c : Thread nD τ).loc main_arg2) from
    (V6_of m outs c main_arg2 (by decide)).trans <| (V5_of m outs c main_arg2 (by decide)).trans <| (V4_of m outs c main_arg2 (by decide)).trans <|
      (V3_of m c main_arg2 (by decide)).trans <| (V2_of m c main_arg2 (by decide)).trans <| (V1_of m c main_arg2 (by decide)).trans rfl]

/-- The second bias as a one-row matrix. -/
theorem v48_eq : (V7 m outs c main_v48 : FVec F S1x32 .f32) = row32 (m ((c : Thread nD τ).loc main_arg4)) := by
  refine (s12_v48 (V6 m outs c)).trans ?_
  rw [show V6 m outs c main_arg4 = m ((c : Thread nD τ).loc main_arg4) from
    (V6_of m outs c main_arg4 (by decide)).trans <| (V5_of m outs c main_arg4 (by decide)).trans <| (V4_of m outs c main_arg4 (by decide)).trans <|
      (V3_of m c main_arg4 (by decide)).trans <| (V2_of m c main_arg4 (by decide)).trans <| (V1_of m c main_arg4 (by decide)).trans rfl]

/-- The second weight matrix as the second region finds it is the launch's. -/
theorem v7_arg3 : V7 m outs c main_arg3 = m ((c : Thread nD τ).loc main_arg3) :=
  v7_arg m outs c main_arg3 (by decide) (by decide) (by decide) (by decide) (by decide) (by decide) (by decide)

end Between

/-! ## Index by index -/

/-- A vector as a one-row matrix, at (u, f): the vector at f. -/
theorem row64_apply (b : FVec F S64 .f32) (u : Fin 1) (f : Fin 64) : row64 b (ix2 u f) = b (ix1 f) := by
  unfold row64; exact shapeCast_a_1a_apply b shapeCasts_S64_S1x64 u f
theorem row32_apply (b : FVec F S32 .f32) (u : Fin 1) (f : Fin 32) : row32 b (ix2 u f) = b (ix1 f) := by
  unfold row32; exact shapeCast_a_1a_apply b shapeCasts_S32_S1x32 u f

/-- The one-hot table at (n, g): 1 when row n's id is the word of g, else 0. -/
theorem oneHot_apply (batch : IVec S100000 32) (n : Fin 100000) (g : Fin 64) :
    oneHotOf (F := Ideal) batch (ix2 n g) = if batch (ix1 n) = BitVec.ofNat 32 g then (1 : EReal) else 0 := by
  unfold oneHotOf
  have hb : broadcastInDim S100000x64 ![0, 1] bcast_S100000x1_S100000x64_0_1 (broadcastInDim S100000x1 ![0] bcast_S100000_S100000x1_0 batch) (ix2 n g) = batch (ix1 n) := by
    rw [broadcastInDim_apply ![0, 1] bcast_S100000x1_S100000x64_0_1 _ (ix2 n g) (ix2 n (0 : Fin 1)) (fun a => match a with
      | ⟨0, _⟩ => by show n.val = if (100000 : Nat) = 1 then 0 else n.val; rw [if_neg (by decide)]
      | ⟨1, _⟩ => by show (0 : Nat) = if (1 : Nat) = 1 then 0 else g.val; rw [if_pos rfl])]
    exact broadcastInDim_apply ![0] bcast_S100000_S100000x1_0 batch (ix2 n (0 : Fin 1)) (ix1 n) (fun a => match a with
      | ⟨0, _⟩ => by show n.val = if (100000 : Nat) = 1 then 0 else n.val; rw [if_neg (by decide)])
  have hi : broadcastInDim S100000x64 ![0, 1] bcast_S1x64_S100000x64_0_1 (iotaInDim S1x64 32 1) (ix2 n g) = BitVec.ofNat 32 g := by
    rw [broadcastInDim_apply ![0, 1] bcast_S1x64_S100000x64_0_1 _ (ix2 n g) (ix2 (0 : Fin 1) g) (fun a => match a with
      | ⟨0, _⟩ => by show (0 : Nat) = if (1 : Nat) = 1 then 0 else n.val; rw [if_pos rfl]
      | ⟨1, _⟩ => by show g.val = if (64 : Nat) = 1 then 0 else g.val; rw [if_neg (by decide)])]
    rfl
  show FloatOps.uitofp (F := Ideal) .bf16 (IntOp.cmpi .eq (broadcastInDim S100000x64 ![0, 1] bcast_S100000x1_S100000x64_0_1 (broadcastInDim S100000x1 ![0] bcast_S100000_S100000x1_0 batch) (ix2 n g)) (broadcastInDim S100000x64 ![0, 1] bcast_S1x64_S100000x64_0_1 (iotaInDim S1x64 32 1) (ix2 n g))) = _
  rw [hb, hi]
  by_cases h : batch (ix1 n) = BitVec.ofNat 32 g
  · rw [if_pos h, h]
    show (((IntOp.cmpi .eq (BitVec.ofNat 32 ↑g) (BitVec.ofNat 32 ↑g)).toNat : ℝ) : EReal) = 1
    rw [show IntOp.cmpi .eq (BitVec.ofNat 32 (g : ℕ)) (BitVec.ofNat 32 (g : ℕ)) = 1#1 from by simp [IntOp.cmpi]]
    simp
  · rw [if_neg h]
    show (((IntOp.cmpi .eq (batch (ix1 n)) (BitVec.ofNat 32 ↑g)).toNat : ℝ) : EReal) = 0
    have hne : (batch (ix1 n) == BitVec.ofNat 32 (g : ℕ)) = false := beq_eq_false_iff_ne.mpr h
    rw [show IntOp.cmpi .eq (batch (ix1 n)) (BitVec.ofNat 32 (g : ℕ)) = 0#1 from by
      show BitVec.ofBool (batch (ix1 n) == BitVec.ofNat 32 (g : ℕ)) = 0#1
      rw [hne]; rfl]
    simp

end Cert.KernelIdeal.HostValues

end
-- ==== Proof.KI.PoolPayload.lean ====
/-
  The arithmetic of the pooling kernel's body, read one entry at a time at the ideal values (a float is an extended
  real, a change of format is the identity).

  Five pure values are stored by the body. Two are the zero matrices the first grid point resets the carried sums
  (64 × 64) and counts (64 × 1) to. Two are the updates every grid point makes: with a block of 10000 rows of
  features a (64 columns), the bias row b, and the block's one-hot rows o (64 columns), the sums gain, at (g, f), the
  sum over the block's rows r of o(r, g) · act(a(r, f) + b(f)), where act is the leaky rectifier (x if x > 0, else the
  small slope times x); the counts gain, at g, the sum over the rows of o(r, g) · 1. Both are matrix products that
  contract the ROW axis of both operands into a zero accumulator, so each entry is a plain sum over the 10000 rows.
  The fifth is the result the last grid point stores: at (g, k), tanh of the sum over f of (S(g, f) / max(C(g), 1)) ·
  W(f, k), plus the bias b(k): a product contracting the columns of the left operand with the rows of the right one.

  No law of arithmetic is used beyond 0 + x = x for the zero accumulator: the sums are left as they come.
-/
import proofs.«428046_j7275674600336_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PoolPayload

open Cert.KernelIdeal Cert.KernelIdeal.Gen
open Idealize.ShloMosaic Idealize.ShloMosaic.ValueIdx
open scoped BigOperators

/-- The leaky rectifier as the body computes it: a select on the comparison x > 0 between x and slope · x, the slope
    the f32 word nearest 0.01. -/
def act (x : EReal) : EReal :=
  Scalar.select (Ideal.cmp .ogt x (Ideal.ofBits .f32 0x00000000#32)) x (Ideal.ofBits .f32 0x3C23D70A#32 * x)

/-! ## A column broadcast over many columns -/

/-- An [a, 1] column broadcast to [a, b] reads, at (p, c), the column's entry at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product that contracts the rows of two 10000 × 64 operands -/

theorem lhs_rows64_0 (i : S64x64.Idx) (q : dot_S10000x64_S10000x64_S64x64_0_0_1_1_n_n.contr.Idx) :
    (dot_S10000x64_S10000x64_S64x64_0_0_1_1_n_n.lhsIdx i q 0).val = (q ⟨0, by decide⟩).val :=
  dot_S10000x64_S10000x64_S64x64_0_0_1_1_n_n.lhsIdx_val_of_single rfl i q
theorem lhs_rows64_1 (i : S64x64.Idx) (q : dot_S10000x64_S10000x64_S64x64_0_0_1_1_n_n.contr.Idx) :
    (dot_S10000x64_S10000x64_S64x64_0_0_1_1_n_n.lhsIdx i q 1).val = (i 0).val := by
  unfold DotDims.lhsIdx
  rw [dif_neg (show ¬(1 : Fin S10000x64.rank) ∈ dot_S10000x64_S10000x64_S64x64_0_0_1_1_n_n.lhsBatch by decide), dif_pos (show (1 : Fin S10000x64.rank) ∈ dot_S10000x64_S10000x64_S64x64_0_0_1_1_n_n.lhsNonContracting by decide)]
  rfl
theorem rhs_rows64_0 (i : S64x64.Idx) (q : dot_S10000x64_S10000x64_S64x64_0_0_1_1_n_n.contr.Idx) :
    (dot_S10000x64_S10000x64_S64x64_0_0_1_1_n_n.rhsIdx i q 0).val = (q ⟨0, by decide⟩).val :=
  dot_S10000x64_S10000x64_S64x64_0_0_1_1_n_n.rhsIdx_val_of_single rfl i q
theorem rhs_rows64_1 (i : S64x64.Idx) (q : dot_S10000x64_S10000x64_S64x64_0_0_1_1_n_n.contr.Idx) :
    (dot_S10000x64_S10000x64_S64x64_0_0_1_1_n_n.rhsIdx i q 1).val = (i 1).val := by
  unfold DotDims.rhsIdx
  rw [dif_neg (show ¬(1 : Fin S10000x64.rank) ∈ dot_S10000x64_S10000x64_S64x64_0_0_1_1_n_n.rhsBatch by decide), dif_pos (show (1 : Fin S10000x64.rank) ∈ dot_S10000x64_S10000x64_S64x64_0_0_1_1_n_n.rhsNonContracting by decide)]
  rfl

/-- Entry (g, f) of the product contracting the rows: the sum over the rows k of l(k, g) · r(k, f). -/
theorem rows64_apply (l r : FVec Ideal S10000x64 .bf16) (g f : Fin 64) :
    matmul dot_S10000x64_S10000x64_S64x64_0_0_1_1_n_n none l r (constant S64x64 .f32 0x00000000#32) (ix2 g f)
      = ∑ k : Fin 10000, l (ix2 k g) * r (ix2 k f) := by
  simp only [matmul]
  rw [Ideal.matmul_constant_zero_apply, ← Equiv.sum_comp (contrEquiv1 dot_S10000x64_S10000x64_S64x64_0_0_1_1_n_n 10000 rfl rfl).symm]
  refine Finset.sum_congr rfl fun k _ => ?_
  have hk := contrEquiv1_symm_val dot_S10000x64_S10000x64_S64x64_0_0_1_1_n_n 10000 rfl rfl k
  have el : dot_S10000x64_S10000x64_S64x64_0_0_1_1_n_n.lhsIdx (ix2 g f) ((contrEquiv1 dot_S10000x64_S10000x64_S64x64_0_0_1_1_n_n 10000 rfl rfl).symm k) = ix2 k g := funext fun a => Fin.ext (by
    match a with
    | ⟨0, _⟩ => exact (lhs_rows64_0 _ _).trans hk
    | ⟨1, _⟩ => exact lhs_rows64_1 _ _)
  have er : dot_S10000x64_S10000x64_S64x64_0_0_1_1_n_n.rhsIdx (ix2 g f) ((contrEquiv1 dot_S10000x64_S10000x64_S64x64_0_0_1_1_n_n 10000 rfl rfl).symm k) = ix2 k f := funext fun a => Fin.ext (by
    match a with
    | ⟨0, _⟩ => exact (rhs_rows64_0 _ _).trans hk
    | ⟨1, _⟩ => exact rhs_rows64_1 _ _)
  rw [el, er]

/-! ## The product that contracts the rows of a 10000 × 64 operand and a 10000 × 1 column -/

theorem lhs_rows1_0 (i : S64x1.Idx) (q : dot_S10000x64_S10000x1_S64x1_0_0_1_1_n_n.contr.Idx) :
    (dot_S10000x64_S10000x1_S64x1_0_0_1_1_n_n.lhsIdx i q 0).val = (q ⟨0, by decide⟩).val :=
  dot_S10000x64_S10000x1_S64x1_0_0_1_1_n_n.lhsIdx_val_of_single rfl i q
theorem lhs_rows1_1 (i : S64x1.Idx) (q : dot_S10000x64_S10000x1_S64x1_0_0_1_1_n_n.contr.Idx) :
    (dot_S10000x64_S10000x1_S64x1_0_0_1_1_n_n.lhsIdx i q 1).val = (i 0).val := by
  unfold DotDims.lhsIdx
  rw [dif_neg (show ¬(1 : Fin S10000x64.rank) ∈ dot_S10000x64_S10000x1_S64x1_0_0_1_1_n_n.lhsBatch by decide), dif_pos (show (1 : Fin S10000x64.rank) ∈ dot_S10000x64_S10000x1_S64x1_0_0_1_1_n_n.lhsNonContracting by decide)]
  rfl
theorem rhs_rows1_0 (i : S64x1.Idx) (q : dot_S10000x64_S10000x1_S64x1_0_0_1_1_n_n.contr.Idx) :
    (dot_S10000x64_S10000x1_S64x1_0_0_1_1_n_n.rhsIdx i q 0).val = (q ⟨0, by decide⟩).val :=
  dot_S10000x64_S10000x1_S64x1_0_0_1_1_n_n.rhsIdx_val_of_single rfl i q
theorem rhs_rows1_1 (i : S64x1.Idx) (q : dot_S10000x64_S10000x1_S64x1_0_0_1_1_n_n.contr.Idx) :
    (dot_S10000x64_S10000x1_S64x1_0_0_1_1_n_n.rhsIdx i q 1).val = (i 1).val := by
  unfold DotDims.rhsIdx
  rw [dif_neg (show ¬(1 : Fin S10000x1.rank) ∈ dot_S10000x64_S10000x1_S64x1_0_0_1_1_n_n.rhsBatch by decide), dif_pos (show (1 : Fin S10000x1.rank) ∈ dot_S10000x64_S10000x1_S64x1_0_0_1_1_n_n.rhsNonContracting by decide)]
  rfl

/-- Entry (g, 0) of the product contracting the rows with a column: the sum over the rows k of l(k, g) · r(k, 0). -/
theorem rows1_apply (l : FVec Ideal S10000x64 .bf16) (r : FVec Ideal S10000x1 .bf16) (g : Fin 64) :
    matmul dot_S10000x64_S10000x1_S64x1_0_0_1_1_n_n none l r (constant S64x1 .f32 0x00000000#32) (ix2 g (0 : Fin 1))
      = ∑ k : Fin 10000, l (ix2 k g) * r (ix2 k (0 : Fin 1)) := by
  simp only [matmul]
  rw [Ideal.matmul_constant_zero_apply, ← Equiv.sum_comp (contrEquiv1 dot_S10000x64_S10000x1_S64x1_0_0_1_1_n_n 10000 rfl rfl).symm]
  refine Finset.sum_congr rfl fun k _ => ?_
  have hk := contrEquiv1_symm_val dot_S10000x64_S10000x1_S64x1_0_0_1_1_n_n 10000 rfl rfl k
  have el : dot_S10000x64_S10000x1_S64x1_0_0_1_1_n_n.lhsIdx (ix2 g (0 : Fin 1)) ((contrEquiv1 dot_S10000x64_S10000x1_S64x1_0_0_1_1_n_n 10000 rfl rfl).symm k) = ix2 k g := funext fun a => Fin.ext (by
    match a with
    | ⟨0, _⟩ => exact (lhs_rows1_0 _ _).trans hk
    | ⟨1, _⟩ => exact lhs_rows1_1 _ _)
  have er : dot_S10000x64_S10000x1_S64x1_0_0_1_1_n_n.rhsIdx (ix2 g (0 : Fin 1)) ((contrEquiv1 dot_S10000x64_S10000x1_S64x1_0_0_1_1_n_n 10000 rfl rfl).symm k) = ix2 k (0 : Fin 1) := funext fun a => Fin.ext (by
    match a with
    | ⟨0, _⟩ => exact (rhs_rows1_0 _ _).trans hk
    | ⟨1, _⟩ => exact rhs_rows1_1 _ _)
  rw [el, er]

/-! ## The product of a 64 × 64 operand with a 64 × 32 operand -/

theorem lhs_cols_0 (i : S64x32.Idx) (q : dot_S64x64_S64x32_S64x32_1_0_0_1_n_n.contr.Idx) :
    (dot_S64x64_S64x32_S64x32_1_0_0_1_n_n.lhsIdx i q 0).val = (i 0).val := by
  unfold DotDims.lhsIdx
  rw [dif_neg (show ¬(0 : Fin S64x64.rank) ∈ dot_S64x64_S64x32_S64x32_1_0_0_1_n_n.lhsBatch by decide), dif_pos (show (0 : Fin S64x64.rank) ∈ dot_S64x64_S64x32_S64x32_1_0_0_1_n_n.lhsNonContracting by decide)]
  rfl
theorem lhs_cols_1 (i : S64x32.Idx) (q : dot_S64x64_S64x32_S64x32_1_0_0_1_n_n.contr.Idx) :
    (dot_S64x64_S64x32_S64x32_1_0_0_1_n_n.lhsIdx i q 1).val = (q ⟨0, by decide⟩).val :=
  dot_S64x64_S64x32_S64x32_1_0_0_1_n_n.lhsIdx_val_of_single rfl i q
theorem rhs_cols_0 (i : S64x32.Idx) (q : dot_S64x64_S64x32_S64x32_1_0_0_1_n_n.contr.Idx) :
    (dot_S64x64_S64x32_S64x32_1_0_0_1_n_n.rhsIdx i q 0).val = (q ⟨0, by decide⟩).val :=
  dot_S64x64_S64x32_S64x32_1_0_0_1_n_n.rhsIdx_val_of_single rfl i q
theorem rhs_cols_1 (i : S64x32.Idx) (q : dot_S64x64_S64x32_S64x32_1_0_0_1_n_n.contr.Idx) :
    (dot_S64x64_S64x32_S64x32_1_0_0_1_n_n.rhsIdx i q 1).val = (i 1).val := by
  unfold DotDims.rhsIdx
  rw [dif_neg (show ¬(1 : Fin S64x32.rank) ∈ dot_S64x64_S64x32_S64x32_1_0_0_1_n_n.rhsBatch by decide), dif_pos (show (1 : Fin S64x32.rank) ∈ dot_S64x64_S64x32_S64x32_1_0_0_1_n_n.rhsNonContracting by decide)]
  rfl

/-- Entry (g, k) of the ordinary product: the sum over f of l(g, f) · r(f, k). -/
theorem cols_apply (l : FVec Ideal S64x64 .bf16) (r : FVec Ideal S64x32 .bf16) (g : Fin 64) (k : Fin 32) :
    matmul dot_S64x64_S64x32_S64x32_1_0_0_1_n_n none l r (constant S64x32 .f32 0x00000000#32) (ix2 g k)
      = ∑ f : Fin 64, l (ix2 g f) * r (ix2 f k) := by
  simp only [matmul]
  rw [Ideal.matmul_constant_zero_apply, ← Equiv.sum_comp (contrEquiv1 dot_S64x64_S64x32_S64x32_1_0_0_1_n_n 64 rfl rfl).symm]
  refine Finset.sum_congr rfl fun f _ => ?_
  have hk := contrEquiv1_symm_val dot_S64x64_S64x32_S64x32_1_0_0_1_n_n 64 rfl rfl f
  have el : dot_S64x64_S64x32_S64x32_1_0_0_1_n_n.lhsIdx (ix2 g k) ((contrEquiv1 dot_S64x64_S64x32_S64x32_1_0_0_1_n_n 64 rfl rfl).symm f) = ix2 g f := funext fun a => Fin.ext (by
    match a with
    | ⟨0, _⟩ => exact lhs_cols_0 _ _
    | ⟨1, _⟩ => exact (lhs_cols_1 _ _).trans hk)
  have er : dot_S64x64_S64x32_S64x32_1_0_0_1_n_n.rhsIdx (ix2 g k) ((contrEquiv1 dot_S64x64_S64x32_S64x32_1_0_0_1_n_n 64 rfl rfl).symm f) = ix2 f k := funext fun a => Fin.ext (by
    match a with
    | ⟨0, _⟩ => exact (rhs_cols_0 _ _).trans hk
    | ⟨1, _⟩ => exact rhs_cols_1 _ _)
  rw [el, er]

/-! ## Two words -/

/-- The bf16 word of 1.0 is the extended real 1. -/
theorem ofBits_one_bf16 : Ideal.ofBits .bf16 0x3F80#16 = 1 := by
  simp [Ideal.ofBits, Ideal.ieee, -EReal.coe_mul]; norm_num

/-- The f32 word of 1.0 is the extended real 1. -/
theorem ofBits_one_f32 : Ideal.ofBits .f32 0x3F800000#32 = 1 := by
  simp [Ideal.ofBits, Ideal.ieee, -EReal.coe_mul]; norm_num

/-! ## The five stored values at an entry -/

/-- The reset of the sums is zero everywhere. -/
theorem pay2_apply (g f : Fin 64) : (k1_pay2 (F := Ideal)) (ix2 g f) = 0 := by
  unfold k1_pay2
  refine (congrFun (shapeCast_self _ _) (ix2 g f)).trans ?_
  exact Ideal.ofBits_zero_f32

/-- The reset of the counts is zero everywhere. -/
theorem pay3_apply (g : Fin 64) : (k1_pay3 (F := Ideal)) (ix2 g (0 : Fin 1)) = 0 := by
  unfold k1_pay3
  refine (congrFun (shapeCast_self _ _) (ix2 g (0 : Fin 1))).trans ?_
  exact Ideal.ofBits_zero_f32

/-- The sums' update at (g, f): the old entry plus the sum over the block's rows of one-hot(r, g) · act(a(r, f) + b(f)). -/
theorem pay5_apply (a : Vec Ideal S10000x64 .f32) (b : Vec Ideal S1x64 .f32) (o : Vec Ideal S10000x64 .bf16)
    (s : Vec Ideal S64x64 .f32) (g f : Fin 64) :
    k1_pay5 a b o s (ix2 g f)
      = s (ix2 g f) + ∑ r : Fin 10000, o (ix2 r g) * act (a (ix2 r f) + b (ix2 (0 : Fin 1) f)) := by
  unfold k1_pay5 k1_pay4
  refine (congrFun (shapeCast_self _ _) (ix2 g f)).trans ?_
  refine (addf_apply _ _ _).trans ?_
  refine congrArg (s (ix2 g f) + ·) ?_
  refine (rows64_apply _ _ g f).trans ?_
  refine Finset.sum_congr rfl fun r _ => ?_
  refine congrArg₂ (· * ·) (congrFun (shapeCast_self o _) (ix2 r g)) ?_
  have hx : (addf (F := Ideal) (φ := .f32) (shapeCast S10000x64 a shapeCasts_S10000x64_S10000x64)
        (broadcastTo S10000x64 (shapeCast S1x64 b shapeCasts_S1x64_S1x64) broadcasts_S1x64_S10000x64)) (ix2 r f)
      = a (ix2 r f) + b (ix2 (0 : Fin 1) f) := by
    refine (addf_apply _ _ _).trans ?_
    refine congrArg₂ (· + ·) (congrFun (shapeCast_self a _) (ix2 r f)) ?_
    refine (broadcastTo_1b_ab_apply _ _ r f).trans ?_
    exact congrFun (shapeCast_self b _) (ix2 (0 : Fin 1) f)
  exact congrArg act hx

/-- The counts' update at g: the old entry plus the sum over the block's rows of one-hot(r, g) · 1. -/
theorem pay6_apply (o : Vec Ideal S10000x64 .bf16) (s : Vec Ideal S64x1 .f32) (g : Fin 64) :
    k1_pay6 o s (ix2 g (0 : Fin 1)) = s (ix2 g (0 : Fin 1)) + ∑ r : Fin 10000, o (ix2 r g) * 1 := by
  unfold k1_pay6 k1_pay4
  refine (congrFun (shapeCast_self _ _) (ix2 g (0 : Fin 1))).trans ?_
  refine (addf_apply _ _ _).trans ?_
  refine congrArg (s (ix2 g (0 : Fin 1)) + ·) ?_
  refine (rows1_apply _ _ g).trans ?_
  refine Finset.sum_congr rfl fun r _ => ?_
  exact congrArg₂ (· * ·) (congrFun (shapeCast_self o _) (ix2 r g)) ofBits_one_bf16

/-- The stored result at (g, k): tanh of the sum over f of (S(g, f) / max(C(g), 1)) · W(f, k), plus b(k). -/
theorem pay1_apply (S : Vec Ideal S64x64 .f32) (C : Vec Ideal S64x1 .f32) (W : Vec Ideal S64x32 .f32)
    (b : Vec Ideal S1x32 .f32) (g : Fin 64) (k : Fin 32) :
    k1_pay1 S C W b (ix2 g k)
      = Ideal.tanh ((∑ f : Fin 64, Ideal.div (S (ix2 g f)) (max (C (ix2 g (0 : Fin 1))) 1) * W (ix2 f k))
          + b (ix2 (0 : Fin 1) k)) := by
  unfold k1_pay1
  refine congrArg Ideal.tanh ?_
  refine (addf_apply _ _ _).trans ?_
  refine congrArg₂ (· + ·) ?_ ?_
  · refine (cols_apply _ _ g k).trans ?_
    refine Finset.sum_congr rfl fun f _ => ?_
    refine congrArg₂ (· * ·) ?_ rfl
    refine (divf_apply _ _ _).trans ?_
    refine congrArg (Ideal.div (S (ix2 g f))) ?_
    refine (broadcastTo_a1_ab_apply _ _ g f).trans ?_
    exact congrArg (max (C (ix2 g (0 : Fin 1)))) ofBits_one_f32
  · refine (broadcastTo_1b_ab_apply _ _ g k).trans ?_
    exact congrFun (shapeCast_self b _) (ix2 (0 : Fin 1) k)

end Cert.KernelIdeal.PoolPayload

end
-- ==== Proof.KI.PoolFold.lean ====
/-
  The two carried scratches of the pooling kernel after any number of grid points, read one entry at a time at the
  ideal values.

  The first point resets the sums (64 × 64) and the counts (64 × 1) to zero and then adds its block's contribution;
  every later point adds its block's contribution to what the point before left. So after the points 0 … n the sums
  hold, at (g, f), the double sum over those points t and over the 10000 rows r of a block of
  one-hot_t(r, g) · act(a_t(r, f) + b_t(f)), and the counts hold, at g, the double sum of one-hot_t(r, g) · 1.
  This is an induction on n with the last point split off the sum; it uses 0 + x = x once and nothing else.
  It is stated for ANY family of per-point blocks and ANY sequence of scratch pairs obeying the two recursion
  equations, so it speaks of no window and no schedule.

  Then two facts about sums used to read the result against the specification: the double sum over (block, row in
  block) of a function of the row number 10000 · t + r is the single sum over all 100000 rows; and a 0-or-1 factor
  in front of a term is the choice between the term and 0 (0 · x = 0 and 1 · x = x hold for every extended real).
-/
import proofs.«428046_j7275674600336_1_alg».proof.Proof.KI.PoolPayload
import Mathlib.Algebra.BigOperators.Fin
import Mathlib.Logic.Equiv.Fin.Basic

noncomputable section

namespace Cert.KernelIdeal.PoolFold

open Cert.KernelIdeal Cert.KernelIdeal.Gen Cert.KernelIdeal.PoolPayload
open Idealize.ShloMosaic Idealize.ShloMosaic.ValueIdx
open scoped BigOperators

section Fold

variable {N : ℕ}
  (aB : (n : ℕ) → n < N → Vec Ideal S10000x64 .f32)
  (bB : (n : ℕ) → n < N → Vec Ideal S1x64 .f32)
  (oB : (n : ℕ) → n < N → Vec Ideal S10000x64 .bf16)
  (sc : (n : ℕ) → n < N → Vec Ideal S64x64 .f32 × Vec Ideal S64x1 .f32)

/-- The sums after the points 0 … n, at (g, f): every point's, every row's contribution. -/
theorem sums_after
    (h0 : ∀ h : 0 < N, sc 0 h = (k1_pay5 (aB 0 h) (bB 0 h) (oB 0 h) (k1_pay2 (F := Ideal)), k1_pay6 (oB 0 h) (k1_pay3 (F := Ideal))))
    (hs : ∀ (n : ℕ) (h : n + 1 < N), sc (n + 1) h
        = (k1_pay5 (aB (n + 1) h) (bB (n + 1) h) (oB (n + 1) h) (sc n (Nat.lt_of_succ_lt h)).1,
           k1_pay6 (oB (n + 1) h) (sc n (Nat.lt_of_succ_lt h)).2))
    (g f : Fin 64) :
    ∀ (n : ℕ) (h : n < N), (sc n h).1 (ix2 g f)
      = ∑ t : Fin (n + 1), ∑ r : Fin 10000,
          oB t.val (Nat.lt_of_le_of_lt (Nat.le_of_lt_succ t.isLt) h) (ix2 r g)
            * act (aB t.val (Nat.lt_of_le_of_lt (Nat.le_of_lt_succ t.isLt) h) (ix2 r f)
                + bB t.val (Nat.lt_of_le_of_lt (Nat.le_of_lt_succ t.isLt) h) (ix2 (0 : Fin 1) f))
  | 0, h => by
    rw [h0 h]
    show k1_pay5 (aB 0 h) (bB 0 h) (oB 0 h) (k1_pay2 (F := Ideal)) (ix2 g f) = _
    rw [pay5_apply, pay2_apply, zero_add, Fin.sum_univ_one]
    rfl
  | n + 1, h => by
    rw [hs n h]
    show k1_pay5 (aB (n + 1) h) (bB (n + 1) h) (oB (n + 1) h) (sc n (Nat.lt_of_succ_lt h)).1 (ix2 g f) = _
    rw [pay5_apply, Fin.sum_univ_castSucc (n := n + 1), sums_after h0 hs g f n (Nat.lt_of_succ_lt h)]
    rfl

/-- The counts after the points 0 … n, at g: every point's, every row's one-hot entry (times one). -/
theorem counts_after
    (h0 : ∀ h : 0 < N, sc 0 h = (k1_pay5 (aB 0 h) (bB 0 h) (oB 0 h) (k1_pay2 (F := Ideal)), k1_pay6 (oB 0 h) (k1_pay3 (F := Ideal))))
    (hs : ∀ (n : ℕ) (h : n + 1 < N), sc (n + 1) h
        = (k1_pay5 (aB (n + 1) h) (bB (n + 1) h) (oB (n + 1) h) (sc n (Nat.lt_of_succ_lt h)).1,
           k1_pay6 (oB (n + 1) h) (sc n (Nat.lt_of_succ_lt h)).2))
    (g : Fin 64) :
    ∀ (n : ℕ) (h : n < N), (sc n h).2 (ix2 g (0 : Fin 1))
      = ∑ t : Fin (n + 1), ∑ r : Fin 10000,
          oB t.val (Nat.lt_of_le_of_lt (Nat.le_of_lt_succ t.isLt) h) (ix2 r g) * 1
  | 0, h => by
    rw [h0 h]
    show k1_pay6 (oB 0 h) (k1_pay3 (F := Ideal)) (ix2 g (0 : Fin 1)) = _
    rw [pay6_apply, pay3_apply, zero_add, Fin.sum_univ_one]
    rfl
  | n + 1, h => by
    rw [hs n h]
    show k1_pay6 (oB (n + 1) h) (sc n (Nat.lt_of_succ_lt h)).2 (ix2 g (0 : Fin 1)) = _
    rw [pay6_apply, Fin.sum_univ_castSucc (n := n + 1), counts_after h0 hs g n (Nat.lt_of_succ_lt h)]
    rfl

end Fold

/-! ## Two facts about sums -/

/-- Ten blocks of 10000 rows are the 100000 rows: the double sum over (block t, row r of the block) of a function of
    the row number 10000 · t + r is the sum over all rows. -/
theorem sum_blocks {M : Type*} [AddCommMonoid M] (G : Fin 100000 → M) :
    ∑ t : Fin 10, ∑ r : Fin 10000,
        G ⟨10000 * t.val + r.val, by have := t.isLt; have := r.isLt; omega⟩
      = ∑ n : Fin 100000, G n := by
  rw [← Equiv.sum_comp (finProdFinEquiv (m := 10) (n := 10000)) (G : Fin (10 * 10000) → M), Fintype.sum_prod_type]
  refine Finset.sum_congr rfl fun t _ => Finset.sum_congr rfl fun r _ => congrArg G (Fin.ext ?_)
  show 10000 * t.val + r.val = r.val + 10000 * t.val
  omega

/-- A 0-or-1 factor chooses between the term and zero. -/
theorem ite_one_zero_mul (p : Prop) [Decidable p] (x : EReal) :
    (if p then (1 : EReal) else 0) * x = if p then x else 0 := by
  split
  · exact one_mul x
  · exact zero_mul x

end Cert.KernelIdeal.PoolFold

end
-- ==== Proof.KI.PoolValue.lean ====
/-
  The value of the pooling region: what it leaves in its 64 × 32 result array, as the specification's pooling
  function of the arrays it reads, at the ideal values.
-/
import proofs.«428046_j7275674600336_1_alg».proof.Proof.KI.PoolRegion
import proofs.«428046_j7275674600336_1_alg».proof.Proof.KI.PoolFold
import proofs.«428046_j7275674600336_1_alg».proof.Proof.Spec
import Idealize.ShloMosaic.Lib.Pipeline.Value

set_option maxRecDepth 16384

noncomputable section

namespace Cert.KernelIdeal.PoolValue

open Cert.KernelIdeal Cert.KernelIdeal.Gen Cert.KernelIdeal.Pool Cert.KernelIdeal.PoolPayload Cert.KernelIdeal.PoolFold
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! ## The arrays and the blocks, at their literal types -/

abbrev aggArr (c : Dev nD) : Vec Ideal S100000x64 .f32 := V c main_v45
abbrev ohArr (c : Dev nD) : Vec Ideal S100000x64 .bf16 := V c main_v46
abbrev b1Arr (c : Dev nD) : Vec Ideal S1x64 .f32 := V c main_v47
abbrev w2Arr (c : Dev nD) : Vec Ideal S64x32 .f32 := V c main_arg3
abbrev b2Arr (c : Dev nD) : Vec Ideal S1x32 .f32 := V c main_v48

abbrev aggBlk (c : Dev nD) (t : Fin cfg1.N) : Vec Ideal S10000x64 .f32 := iblk1 V c 0 t
abbrev b1Blk (c : Dev nD) (t : Fin cfg1.N) : Vec Ideal S1x64 .f32 := iblk1 V c 1 t
abbrev ohBlk (c : Dev nD) (t : Fin cfg1.N) : Vec Ideal S10000x64 .bf16 := iblk1 V c 2 t
abbrev w2Blk (c : Dev nD) (t : Fin cfg1.N) : Vec Ideal S64x32 .f32 := iblk1 V c 3 t
abbrev b2Blk (c : Dev nD) (t : Fin cfg1.N) : Vec Ideal S1x32 .f32 := iblk1 V c 4 t

/-! ## The index maps, decided over the ten grid points -/

theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

theorem lt_rows (t : Fin cfg1.N) (r : Fin 10000) : 10000 * t.val + r.val < 100000 := by
  have h1 := t.isLt; have h2 : cfg1.N = 10 := N_1; have h3 := r.isLt; omega

/-! ## Each block read where it lies in its array -/

theorem aggBlk_apply (c : Dev nD) (t : Fin cfg1.N) (r : Fin 10000) (f : Fin 64) :
    aggBlk V c t (ix2 r f) = aggArr V c (ix2 ⟨10000 * t.val + r.val, lt_rows t r⟩ f) := by
  obtain ⟨e00, e01, -⟩ := idx_facts t
  show V c main_v45 (((cfg1.win 0).blk t).view.emb (ix2 r f)) = V c main_v45 (ix2 ⟨10000 * t.val + r.val, lt_rows t r⟩ f)
  refine congrArg (V c main_v45) (funext fun a => Fin.ext ?_)
  match a with
  | ⟨0, _⟩ => show win1_0.index t (0 : Fin 2) * 10000 + 1 * r.val = 10000 * t.val + r.val; omega
  | ⟨1, _⟩ => show win1_0.index t (1 : Fin 2) * 64 + 1 * f.val = f.val; omega

theorem ohBlk_apply (c : Dev nD) (t : Fin cfg1.N) (r : Fin 10000) (g : Fin 64) :
    ohBlk V c t (ix2 r g) = ohArr V c (ix2 ⟨10000 * t.val + r.val, lt_rows t r⟩ g) := by
  obtain ⟨-, -, -, -, e20, e21, -⟩ := idx_facts t
  show V c main_v46 (((cfg1.win 2).blk t).view.emb (ix2 r g)) = V c main_v46 (ix2 ⟨10000 * t.val + r.val, lt_rows t r⟩ g)
  refine congrArg (V c main_v46) (funext fun a => Fin.ext ?_)
  match a with
  | ⟨0, _⟩ => show win1_2.index t (0 : Fin 2) * 10000 + 1 * r.val = 10000 * t.val + r.val; omega
  | ⟨1, _⟩ => show win1_2.index t (1 : Fin 2) * 64 + 1 * g.val = g.val; omega

theorem b1Blk_apply (c : Dev nD) (t : Fin cfg1.N) (f : Fin 64) :
    b1Blk V c t (ix2 (0 : Fin 1) f) = b1Arr V c (ix2 (0 : Fin 1) f) := by
  obtain ⟨-, -, e10, e11, -⟩ := idx_facts t
  show V c main_v47 (((cfg1.win 1).blk t).view.emb (ix2 (0 : Fin 1) f)) = V c main_v47 (ix2 (0 : Fin 1) f)
  refine congrArg (V c main_v47) (funext fun a => Fin.ext ?_)
  match a with
  | ⟨0, _⟩ => show win1_1.index t (0 : Fin 2) * 1 + 1 * 0 = 0; omega
  | ⟨1, _⟩ => show win1_1.index t (1 : Fin 2) * 64 + 1 * f.val = f.val; omega

theorem w2Blk_apply (c : Dev nD) (t : Fin cfg1.N) (f : Fin 64) (k : Fin 32) :
    w2Blk V c t (ix2 f k) = w2Arr V c (ix2 f k) := by
  obtain ⟨-, -, -, -, -, -, e30, e31, -⟩ := idx_facts t
  show V c main_arg3 (((cfg1.win 3).blk t).view.emb (ix2 f k)) = V c main_arg3 (ix2 f k)
  refine congrArg (V c main_arg3) (funext fun a => Fin.ext ?_)
  match a with
  | ⟨0, _⟩ => show win1_3.index t (0 : Fin 2) * 64 + 1 * f.val = f.val; omega
  | ⟨1, _⟩ => show win1_3.index t (1 : Fin 2) * 32 + 1 * k.val = k.val; omega

theorem b2Blk_apply (c : Dev nD) (t : Fin cfg1.N) (k : Fin 32) :
    b2Blk V c t (ix2 (0 : Fin 1) k) = b2Arr V c (ix2 (0 : Fin 1) k) := by
  obtain ⟨-, -, -, -, -, -, -, -, e40, e41, -⟩ := idx_facts t
  show V c main_v48 (((cfg1.win 4).blk t).view.emb (ix2 (0 : Fin 1) k)) = V c main_v48 (ix2 (0 : Fin 1) k)
  refine congrArg (V c main_v48) (funext fun a => Fin.ext ?_)
  match a with
  | ⟨0, _⟩ => show win1_4.index t (0 : Fin 2) * 1 + 1 * 0 = 0; omega
  | ⟨1, _⟩ => show win1_4.index t (1 : Fin 2) * 32 + 1 * k.val = k.val; omega

/-! ## The result array: one block, the whole array, written back once -/

/-- An index of the result array lies in the output window's block at any point: the block is the whole array. -/
theorem mem_blk5 (t : Fin cfg1.N) (i : S64x32.Idx) : i ∈ ((cfg1.win 5).blk t).view.set := by
  obtain ⟨-, -, -, -, -, -, -, -, -, -, e50, e51⟩ := idx_facts t
  show i ∈ ((View.whole main_v49).slice (win1_5.rect t)).set
  rw [View.set_slice_whole, Rect.mem_set_unit]
  intro a
  match a with
  | ⟨0, _⟩ =>
    show win1_5.index t (0 : Fin 2) * 64 ≤ (i 0).val ∧ (i 0).val < win1_5.index t (0 : Fin 2) * 64 + 64
    have := idx2_lt0 i; omega
  | ⟨1, _⟩ =>
    show win1_5.index t (1 : Fin 2) * 32 ≤ (i 1).val ∧ (i 1).val < win1_5.index t (1 : Fin 2) * 32 + 32
    have := idx2_lt1 i; omega

/-- What a point writes back through the output window is the stored result itself. -/
theorem flushed5_eq (c : Dev nD) (t : Fin cfg1.N) :
    (dat1 (F := Ideal) V c).flushed 5 t = ((cfg1.win 5).blk t).view.read (Elt Ideal) (out1 (F := Ideal) V c) := by
  obtain ⟨-, -, -, -, -, -, -, -, -, -, e50, e51⟩ := idx_facts t
  show (cfg1.win 5).cut (grid1.coords t) ((dat1 (F := Ideal) V c).after 5 t) = _
  rw [after1_5]
  funext y
  show out1 (F := Ideal) V c ((cfg1.win 5).xinj (grid1.coords t) y) = out1 (F := Ideal) V c (((cfg1.win 5).blk t).view.emb y)
  refine congrArg (out1 (F := Ideal) V c) (funext fun a => Fin.ext ?_)
  match a with
  | ⟨0, _⟩ => show (y 0).val = win1_5.index t (0 : Fin 2) * 64 + 1 * (y 0).val; omega
  | ⟨1, _⟩ => show (y 1).val = win1_5.index t (1 : Fin 2) * 32 + 1 * (y 1).val; omega

/-- The result array after the region is the stored result. -/
theorem arr5_eq (c : Dev nD) : (dat1 (F := Ideal) V c).arrAt 5 cfg1.N = out1 (F := Ideal) V c :=
  (dat1 (F := Ideal) V c).arrAt_eq_of_cover 5 (out1 (F := Ideal) V c) (fun t _ => flushed5_eq V c t)
    (fun i => ⟨t1_9, (flush1_5 t1_9).mpr rfl, mem_blk5 t1_9 i⟩)

/-! ## The two scratches after the last point, as sums over all 100000 rows -/

theorem nine_lt : 9 < cfg1.N := by have : cfg1.N = 10 := N_1; omega

/-- The carried sums after the last point, at (g, f): over every row n, one-hot(n, g) · act(agg(n, f) + b1(f)). -/
theorem sums_rows (c : Dev nD) (g f : Fin 64) :
    (scAt1 (F := Ideal) V c 9 nine_lt).1 (ix2 g f)
      = ∑ n : Fin 100000, ohArr V c (ix2 n g) * act (aggArr V c (ix2 n f) + b1Arr V c (ix2 (0 : Fin 1) f)) := by
  refine (sums_after (N := cfg1.N) (fun n h => aggBlk V c ⟨n, h⟩) (fun n h => b1Blk V c ⟨n, h⟩)
    (fun n h => ohBlk V c ⟨n, h⟩) (scAt1 (F := Ideal) V c) (fun h => scAt1_zero V c h) (fun n h => scAt1_succ V c n h)
    g f 9 nine_lt).trans ?_
  refine Eq.trans ?_ (sum_blocks fun n => ohArr V c (ix2 n g) * act (aggArr V c (ix2 n f) + b1Arr V c (ix2 (0 : Fin 1) f)))
  refine Finset.sum_congr rfl fun t _ => Finset.sum_congr rfl fun r _ => ?_
  exact congrArg₂ (· * ·) (ohBlk_apply V c _ r g)
    (congrArg act (congrArg₂ (· + ·) (aggBlk_apply V c _ r f) (b1Blk_apply V c _ f)))

/-- The carried counts after the last point, at g: over every row n, one-hot(n, g) · 1. -/
theorem counts_rows (c : Dev nD) (g : Fin 64) :
    (scAt1 (F := Ideal) V c 9 nine_lt).2 (ix2 g (0 : Fin 1)) = ∑ n : Fin 100000, ohArr V c (ix2 n g) * 1 := by
  refine (counts_after (N := cfg1.N) (fun n h => aggBlk V c ⟨n, h⟩) (fun n h => b1Blk V c ⟨n, h⟩)
    (fun n h => ohBlk V c ⟨n, h⟩) (scAt1 (F := Ideal) V c) (fun h => scAt1_zero V c h) (fun n h => scAt1_succ V c n h)
    g 9 nine_lt).trans ?_
  refine Eq.trans ?_ (sum_blocks fun n => ohArr V c (ix2 n g) * 1)
  refine Finset.sum_congr rfl fun t _ => Finset.sum_congr rfl fun r _ => ?_
  exact congrArg (· * 1) (ohBlk_apply V c _ r g)

/-! ## Against the specification -/

/-- The body's rectifier is the specification's. -/
theorem act_eq_leaky : act = Cert.Spec.leaky := rfl

section Spec

variable (c : Dev nD) (b1 : S64.Idx → EReal) (b2 : S32.Idx → EReal) (batch : S100000.Idx → BitVec 32)
  (hoh : ∀ (n : Fin 100000) (g : Fin 64),
    (V c main_v46 : S100000x64.Idx → EReal) (ix2 n g) = if batch (ix1 n) = BitVec.ofNat 32 g then (1 : EReal) else 0)
  (hb1 : ∀ f : Fin 64, (V c main_v47 : S1x64.Idx → EReal) (ix2 0 f) = b1 (ix1 f))
  (hb2 : ∀ k : Fin 32, (V c main_v48 : S1x32.Idx → EReal) (ix2 0 k) = b2 (ix1 k))

include hoh hb1 in
/-- With a 0-or-1 one-hot matrix the carried sums are the specification's segment sums. -/
theorem sums_spec (g f : Fin 64) :
    (scAt1 (F := Ideal) V c 9 nine_lt).1 (ix2 g f) = Cert.Spec.sumsOf (V c main_v45) b1 batch g f := by
  refine (sums_rows V c g f).trans ?_
  unfold Cert.Spec.sumsOf
  refine Finset.sum_congr rfl fun n _ => ?_
  have h1 : ohArr V c (ix2 n g) = if batch (ix1 n) = BitVec.ofNat 32 g then (1 : EReal) else 0 := hoh n g
  have h2 : b1Arr V c (ix2 (0 : Fin 1) f) = b1 (ix1 f) := hb1 f
  exact (congrArg₂ (· * ·) h1 (congrArg act (congrArg (aggArr V c (ix2 n f) + ·) h2))).trans
    (ite_one_zero_mul _ _)

include hoh in
/-- And the carried counts are the specification's segment sizes. -/
theorem counts_spec (g : Fin 64) :
    (scAt1 (F := Ideal) V c 9 nine_lt).2 (ix2 g (0 : Fin 1)) = Cert.Spec.cntOf batch g := by
  refine (counts_rows V c g).trans ?_
  unfold Cert.Spec.cntOf
  refine Finset.sum_congr rfl fun n _ => ?_
  have h1 : ohArr V c (ix2 n g) = if batch (ix1 n) = BitVec.ofNat 32 g then (1 : EReal) else 0 := hoh n g
  exact (mul_one _).trans h1

include hoh hb1 hb2 in
/-- THE REGION'S VALUE: the result array after the region is the specification's pooled layer of the aggregated
    features, the first bias, the segment ids, the second weight matrix and the second bias. -/
theorem pool_final :
    ((dat1 (F := Ideal) V c).arrAt 5 cfg1.N : S64x32.Idx → EReal)
      = Cert.Spec.poolOf (V c main_v45) b1 batch (V c main_arg3) b2 := by
  refine (arr5_eq V c).trans ?_
  funext i
  obtain ⟨g, k, rfl⟩ : ∃ (g : Fin 64) (k : Fin 32), i = ix2 g k := ⟨i 0, i 1, eq_ix2 i⟩
  refine Eq.trans ?_ (Cert.Spec.poolOf_ix2 (V c main_v45) b1 batch (V c main_arg3) b2 g k).symm
  refine (congrFun (out1_eq V c) (ix2 g k)).trans ?_
  refine (pay1_apply (scAt1 (F := Ideal) V c 9 nine_lt).1 (scAt1 (F := Ideal) V c 9 nine_lt).2 (w2Blk V c t1_9) (b2Blk V c t1_9) g k).trans ?_
  refine congrArg Ideal.tanh (congrArg₂ (· + ·) (Finset.sum_congr rfl fun f _ => ?_) ?_)
  · exact congrArg₂ (· * ·)
      (congrArg₂ Ideal.div (sums_spec V c b1 batch hoh hb1 g f) (congrArg (max · 1) (counts_spec V c batch hoh g)))
      (w2Blk_apply V c t1_9 f k)
  · have h3 : b2Arr V c (ix2 (0 : Fin 1) k) = b2 (ix1 k) := hb2 k
    exact (b2Blk_apply V c t1_9 k).trans h3

end Spec

end Cert.KernelIdeal.PoolValue

end
-- ==== Proof.KI.ResultValue.lean ====
/-
  The program's result as the specification's function of the argument arrays, at the ideal instance.
  The pooling region's result array is the pooling function of its five input arrays as the region finds them. Those
  are: the aggregated features, which the host stretch before it computes from the first region's result and the edge
  index by one fixed chain of operations (never opened here: `kAgg`); the first bias as a row; the one-hot table of
  the segment ids, whose entry at row `n`, column `g` is one exactly when the 32-bit word `batch[n]` is the word of `g`;
  the second weight matrix, untouched since the launch; the second bias as a row. The first region's result is the
  matrix product of the first two argument arrays, which no host stretch before it writes. So the result is
  `poolOf (kAgg (hOf x W1) edge_index) b1 batch W2 b2`.
-/
import proofs.«428046_j7275674600336_1_alg».proof.Proof.KI.Whole
import proofs.«428046_j7275674600336_1_alg».proof.Proof.KI.MatmulValue
import proofs.«428046_j7275674600336_1_alg».proof.Proof.KI.HostValues
import proofs.«428046_j7275674600336_1_alg».proof.Proof.KI.PoolValue
import proofs.«428046_j7275674600336_1_alg».proof.Proof.Spec

noncomputable section

namespace Cert.KernelIdeal.ResultValue

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The first region's result array is the matrix product of the first two argument arrays. -/
theorem hOut_eq (c : Dev nD) :
    (Run.hOut m c : S100000x64.Idx → EReal) = Cert.Spec.hOf (m ((c : Thread nD τ).loc main_arg0)) (m ((c : Thread nD τ).loc main_arg1)) := by
  unfold Run.hOut
  refine (MatmulValue.h_final (Run.VA m) c).trans ?_
  show Cert.Spec.hOf (V3 m c main_arg0) (V3 m c main_arg1) = _
  rw [HostValues.v3_arg0, HostValues.v3_arg1]

/-- The aggregated features the pooling region finds: the fixed host chain applied to that product and the edge
    index. -/
theorem agg_eq (c : Dev nD) :
    (Run.VB m c main_v45 : S100000x64.Idx → EReal)
      = HostValues.kAgg (F := Ideal) (Cert.Spec.hOf (m ((c : Thread nD τ).loc main_arg0)) (m ((c : Thread nD τ).loc main_arg1))) (m ((c : Thread nD τ).loc main_arg5)) := by
  refine (HostValues.v45_eq m (Run.outsA m) c).trans ?_
  rw [Run.outsA_4, hOut_eq]

/-- The program's result is the pooling function of the chain's output, the biases, the segment ids and the second
    weight matrix. -/
theorem result_eq (c : Dev nD) :
    (Whole.result m c : S64x32.Idx → EReal)
      = Cert.Spec.poolOf (HostValues.kAgg (F := Ideal) (Cert.Spec.hOf (m ((c : Thread nD τ).loc main_arg0)) (m ((c : Thread nD τ).loc main_arg1))) (m ((c : Thread nD τ).loc main_arg5)))
          (m ((c : Thread nD τ).loc main_arg2)) (m ((c : Thread nD τ).loc main_arg6)) (m ((c : Thread nD τ).loc main_arg3)) (m ((c : Thread nD τ).loc main_arg4)) := by
  have hpool := PoolValue.pool_final (Run.VB m) c (m ((c : Thread nD τ).loc main_arg2)) (m ((c : Thread nD τ).loc main_arg4)) (m ((c : Thread nD τ).loc main_arg6))
    (fun n g => (congrFun (HostValues.v46_eq m (Run.outsA m) c) (ix2 n g)).trans (HostValues.oneHot_apply _ n g))
    (fun f => (congrFun (HostValues.v47_eq m (Run.outsA m) c) (ix2 0 f)).trans (HostValues.row64_apply _ 0 f))
    (fun k => (congrFun (HostValues.v48_eq m (Run.outsA m) c) (ix2 0 k)).trans (HostValues.row32_apply _ 0 k))
  refine (show (Whole.result m c : S64x32.Idx → EReal) = ((Pool.dat1 (F := Ideal) (Run.VB m) c).arrAt 5 cfg1.N : S64x32.Idx → EReal) from rfl).trans ?_
  refine hpool.trans ?_
  rw [agg_eq, show Run.VB m c main_arg3 = (m ((c : Thread nD τ).loc main_arg3)) from HostValues.v7_arg3 m (Run.outsA m) c]

end Cert.KernelIdeal.ResultValue

end
-- ==== Proof.RefTerm.lean ====
/-
  The reference's result as two stages. `refAgg h ei` is the message-passing stage: the degree-normalised gather,
  scale and scatter-add of the rows of `h` along the edges `ei` (with a self loop per node), exactly the host operations
  the reference applies, as one term that is never opened. `refTail agg b1 batch W2 b2` is everything after it: the bias,
  the leaky rectifier, the two scatter-adds by segment id (sums and counts), the division by `max count 1`, the product
  with `W2`, the bias `b2` and `tanh`. The run's composed term is `refTail (refAgg (x · W1) edges) …`, and `x · W1`
  at the ideal instance is the specification's `hOf`.
-/
import proofs.«428046_j7275674600336_1_alg».proof.Proof.ReferenceRead
import proofs.«428046_j7275674600336_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The message-passing stage, from `h` and the edge list to the aggregated rows: one opaque term. -/
def refAgg {F : FTy → Type} [FloatOps F] (h : FVec F S100000x64 .f32) (ei : IVec S2x1600000 32) : FVec F S100000x64 .f32 :=
  (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0)) (mulf (broadcastInDim S1700000x64 ![0, 1] bcast_S1700000x1_S1700000x64_0_1 (broadcastInDim S1700000x1 ![0] bcast_S1700000_S1700000x1_0 (mulf (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (maximumf (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0)))) (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (maximumf (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0))))))) (Host.gather gather_S100000x64_S1700000x1_S1700000x64_1_0_n_n_0_1_164 h (broadcastInDim S1700000x1 ![0] bcast_S1700000_S1700000x1_0 (select (cmpi .slt (concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0))))))

/-- Everything after the message-passing stage. -/
def refTail {F : FTy → Type} [FloatOps F] (agg : FVec F S100000x64 .f32) (b1 : FVec F S64 .f32) (batch : IVec S100000 32)
    (W2 : FVec F S64x32 .f32) (b2 : FVec F S32 .f32) : FVec F S64x32 .f32 :=
  Host.tanh (addf (Host.dotGeneral dot_S64x64_S64x32_S64x32_1_0_0_1_n_n none (Host.divf (Host.scatterAdd scatter_S64x64_S100000x1_S100000x64_1_0_0_1 (broadcastInDim S64x64 ![] bcast_S_S64x64 (constant S_ .f32 0x00000000#32)) (broadcastInDim S100000x1 ![0] bcast_S100000_S100000x1_0 batch) (select (cmpf (F := F) .ogt (addf agg (broadcastInDim S100000x64 ![0, 1] bcast_S1x64_S100000x64_0_1 (broadcastInDim S1x64 ![1] bcast_S64_S1x64_1 b1))) (broadcastInDim S100000x64 ![] bcast_S_S100000x64 (constant S_ .f32 0x00000000#32))) (addf agg (broadcastInDim S100000x64 ![0, 1] bcast_S1x64_S100000x64_0_1 (broadcastInDim S1x64 ![1] bcast_S64_S1x64_1 b1))) (mulf (broadcastInDim S100000x64 ![] bcast_S_S100000x64 (constant S_ .f32 0x3C23D70A#32)) (addf agg (broadcastInDim S100000x64 ![0, 1] bcast_S1x64_S100000x64_0_1 (broadcastInDim S1x64 ![1] bcast_S64_S1x64_1 b1)))))) (broadcastInDim S64x64 ![0, 1] bcast_S64x1_S64x64_0_1 (broadcastInDim S64x1 ![0] bcast_S64_S64x1_0 (maximumf (Host.scatterAdd scatter_S64_S100000x1_S100000_n_0_0_1 (broadcastInDim S64 ![] bcast_S_S64 (constant S_ .f32 0x00000000#32)) (broadcastInDim S100000x1 ![0] bcast_S100000_S100000x1_0 batch) (broadcastInDim S100000 ![] bcast_S_S100000 (constant S_ .f32 0x3F800000#32))) (broadcastInDim S64 ![] bcast_S_S64 (constant S_ .f32 0x3F800000#32)))))) W2) (broadcastInDim S64x32 ![0, 1] bcast_S1x32_S64x32_0_1 (broadcastInDim S1x32 ![1] bcast_S32_S1x32_1 b2)))

/-- The run's composed term is the two stages applied to `x · W1`, for every float instance. -/
theorem res_decomp_gen {F : FTy → Type} [FloatOps F] (m : (ℓ : Loc nD τ sig) → Buf (Elt F) ℓ) (c : Dev nD) :
    Cert.ReferenceIdeal.ValueP.res_main_v70 (F := F) m c
      = refTail (refAgg (Host.dotGeneral dot_S100000x128_S128x64_S100000x64_1_0_0_1_n_n none (m ((c.tc : Thread nD τ).loc main_arg0)) (m ((c.tc : Thread nD τ).loc main_arg1))) (m ((c.tc : Thread nD τ).loc main_arg5)))
          (m ((c.tc : Thread nD τ).loc main_arg2)) (m ((c.tc : Thread nD τ).loc main_arg6)) (m ((c.tc : Thread nD τ).loc main_arg3)) (m ((c.tc : Thread nD τ).loc main_arg4)) := by
  unfold Cert.ReferenceIdeal.ValueP.res_main_v70 refTail refAgg
  rfl

/-- The same at the ideal instance. -/
theorem res_decomp (m : (ℓ : Loc nD τ sig) → Buf (Elt Ideal) ℓ) (c : Dev nD) :
    Cert.ReferenceIdeal.ValueP.res_main_v70 (F := Ideal) m c
      = refTail (F := Ideal) (refAgg (F := Ideal) (Host.dotGeneral (F := Ideal) (φ₁ := .f32) (φ₂ := .f32) dot_S100000x128_S128x64_S100000x64_1_0_0_1_n_n none (m ((c.tc : Thread nD τ).loc main_arg0)) (m ((c.tc : Thread nD τ).loc main_arg1))) (m ((c.tc : Thread nD τ).loc main_arg5)))
          (m ((c.tc : Thread nD τ).loc main_arg2)) (m ((c.tc : Thread nD τ).loc main_arg6)) (m ((c.tc : Thread nD τ).loc main_arg3)) (m ((c.tc : Thread nD τ).loc main_arg4)) :=
  res_decomp_gen m c

/-- `x · W1` on the host at the ideal instance is the specification's `hOf`: the contraction's one axis is re-indexed
    by its coordinate. -/
theorem dot_eq_hOf (x : FVec Ideal S100000x128 .f32) (w : FVec Ideal S128x64 .f32) :
    Host.dotGeneral (F := Ideal) dot_S100000x128_S128x64_S100000x64_1_0_0_1_n_n none x w = Cert.Spec.hOf x w := by
  funext i
  refine (Cert.ReferenceIdeal.ReadP.val_main_v32_apply x w i).trans ?_
  unfold Cert.Spec.hOf
  refine Finset.sum_congr rfl fun k _ => ?_
  have el : Cert.ReferenceIdeal.ReadP.lidx_main_v32 i k = ValueIdx.ix2 (i 0) k :=
    funext fun a => by match a with | ⟨0, _⟩ => rfl | ⟨1, _⟩ => rfl
  have er : Cert.ReferenceIdeal.ReadP.ridx_main_v32 i k = ValueIdx.ix2 k (i 1) :=
    funext fun a => by match a with | ⟨0, _⟩ => rfl | ⟨1, _⟩ => rfl
  rw [el, er]
  rfl

end Cert.ReferenceIdeal.RefValue

end
-- ==== Proof.RefScatter.lean ====
/-
  The reference's two scatter-adds by segment id, read at an index.

  A scatter-add at the ideal instance is, at each operand element, that element plus the sum of the updates that land on
  it. An update lands on operand index `i` exactly when, on every operand axis, its window's start (the index word,
  read signed and not clamped) plus its window coordinate is `i`'s coordinate; an update that leaves the operand lands
  nowhere. For the two scatters here the index vector is the segment id of the update's row, so the update of row `n`
  (and feature `f`) lands on segment `g` (and feature `f`) exactly when the id of row `n` is the word of `g`:
  the sum over the landing updates is the sum over the rows of `if the row is in the segment then the update else 0`.
-/
import proofs.«428046_j7275674600336_1_alg».proof.Proof.ReferenceRead
import proofs.«428046_j7275674600336_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! ## Where an update lands -/

/-- An update lands on operand index `i` exactly when, on every operand axis, its start plus its window coordinate is
    `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      intro a
      have ha := congrFun (Option.some.inj h) a
      have hba := hb a
      rw [← ha]
      show _ = (((d.start j idx a + (d.window j a : Int)).toNat : Nat) : Int)
      omega
    · cases h
  · intro h
    have hb : ∀ a, 0 ≤ d.start j idx a + (d.window j a : Int) ∧ d.start j idx a + (d.window j a : Int) < s.size a := fun a => by
      rw [h a]; exact ⟨by omega, by exact_mod_cast (i a).isLt⟩
    rw [dif_pos hb]
    refine congrArg some (funext fun a => Fin.ext ?_)
    show (d.start j idx a + (d.window j a : Int)).toNat = (i a).val
    rw [h a]; omega

/-- A 32-bit word read signed is a segment number `g < 64` exactly when it is the word of `g`. -/
theorem toInt_eq_seg (b : BitVec 32) (g : Fin 64) : b.toInt = (g.val : Int) ↔ b = BitVec.ofNat 32 g.val := by
  have hg : ∀ g : Fin 64, (BitVec.ofNat 32 g.val).toInt = (g.val : Int) := by decide
  rw [← hg g]
  exact BitVec.toInt_inj

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- The segment ids as the scatter's index vectors: the row's id. -/
theorem ids_apply (batch : IVec S100000 32) (n : Fin 100000) :
    broadcastInDim S100000x1 ![0] bcast_S100000_S100000x1_0 batch (ix2 n 0) = batch (ix1 n) :=
  broadcastInDim_apply _ bcast_S100000_S100000x1_0 batch (ix2 n 0) (ix1 n) (fun a => match a with
    | ⟨0, _⟩ => by show n.val = if (100000 : Nat) = 1 then 0 else n.val; rw [if_neg (by decide)])

/-! ## The scatter of the [100000,64] rows into [64,64] -/

theorem start2_0 (j : S100000x64.Idx) (idx : IVec S100000x1 32) :
    scatter_S64x64_S100000x1_S100000x64_1_0_0_1.start j idx 0 = (idx (ix2 (j 0) 0)).toInt := by
  unfold ScatterDims.start
  rw [dif_pos (show (0 : Fin S64x64.rank) ∈ scatter_S64x64_S100000x1_S100000x64_1_0_0_1.scatterDimsToOperandDims by decide)]
  refine congrArg (fun v => (idx v).toInt) (funext fun b => ?_)
  match b with
  | ⟨0, _⟩ => rfl
  | ⟨1, _⟩ => rfl

theorem start2_1 (j : S100000x64.Idx) (idx : IVec S100000x1 32) :
    scatter_S64x64_S100000x1_S100000x64_1_0_0_1.start j idx 1 = 0 := by
  unfold ScatterDims.start
  rw [dif_neg (show ¬(1 : Fin S64x64.rank) ∈ scatter_S64x64_S100000x1_S100000x64_1_0_0_1.scatterDimsToOperandDims by decide)]

theorem window2_0 (j : S100000x64.Idx) : scatter_S64x64_S100000x1_S100000x64_1_0_0_1.window j 0 = 0 := by
  unfold ScatterDims.window
  rw [dif_neg (show ¬(0 : Fin S64x64.rank) ∈ scatter_S64x64_S100000x1_S100000x64_1_0_0_1.sKept by decide)]

theorem window2_1 (j : S100000x64.Idx) : scatter_S64x64_S100000x1_S100000x64_1_0_0_1.window j 1 = (j 1).val := by
  unfold ScatterDims.window
  rw [dif_pos (show (1 : Fin S64x64.rank) ∈ scatter_S64x64_S100000x1_S100000x64_1_0_0_1.sKept by decide)]
  rfl

/-- Row `n`'s update of feature `f'` lands on (g, f) exactly when the row's index word, read signed, is `g` and
    `f' = f`. -/
theorem lands2 (idx : IVec S100000x1 32) (n : Fin 100000) (f' g f : Fin 64) :
    scatter_S64x64_S100000x1_S100000x64_1_0_0_1.resultIdx? (ix2 n f') idx = some (ix2 g f) ↔ (idx (ix2 n 0)).toInt = (g.val : Int) ∧ f' = f := by
  rw [resultIdx?_eq_some_iff]
  constructor
  · intro h
    have h0 := h 0
    have h1 := h 1
    rw [start2_0, window2_0] at h0
    rw [start2_1, window2_1] at h1
    refine ⟨?_, Fin.ext ?_⟩
    · have h0' : (idx (ix2 n 0)).toInt + ((0 : Nat) : Int) = (g.val : Int) := h0
      omega
    · have h1' : (0 : Int) + ((f'.val : Nat) : Int) = (f.val : Int) := h1
      omega
  · rintro ⟨h0, rfl⟩ a
    match a with
    | ⟨0, _⟩ =>
      show scatter_S64x64_S100000x1_S100000x64_1_0_0_1.start (ix2 n f') idx 0 + ((scatter_S64x64_S100000x1_S100000x64_1_0_0_1.window (ix2 n f') 0 : Nat) : Int) = (g.val : Int)
      rw [start2_0, window2_0]
      show (idx (ix2 n 0)).toInt + ((0 : Nat) : Int) = (g.val : Int)
      omega
    | ⟨1, _⟩ =>
      show scatter_S64x64_S100000x1_S100000x64_1_0_0_1.start (ix2 n f') idx 1 + ((scatter_S64x64_S100000x1_S100000x64_1_0_0_1.window (ix2 n f') 1 : Nat) : Int) = (f'.val : Int)
      rw [start2_1, window2_1]
      show (0 : Int) + ((f'.val : Nat) : Int) = (f'.val : Int)
      omega

/-- The scatter-add of the rows by segment id, read at (g, f): the operand there plus the sum over the rows of the
    segment of the row's update at `f`. -/
theorem scatter2_apply (x : FVec Ideal S64x64 .f32) (batch : IVec S100000 32) (upd : FVec Ideal S100000x64 .f32) (g f : Fin 64) :
    Host.scatterAdd (F := Ideal) scatter_S64x64_S100000x1_S100000x64_1_0_0_1 x (broadcastInDim S100000x1 ![0] bcast_S100000_S100000x1_0 batch) upd (ix2 g f)
      = x (ix2 g f) + ∑ n : Fin 100000, if Cert.Spec.inSeg batch n g then upd (ix2 n f) else 0 := by
  show x (ix2 g f) + ∑ j ∈ Finset.univ.filter (fun j => scatter_S64x64_S100000x1_S100000x64_1_0_0_1.resultIdx? j (broadcastInDim S100000x1 ![0] bcast_S100000_S100000x1_0 batch) = some (ix2 g f)), upd j = _
  refine congrArg (x (ix2 g f) + ·) ?_
  rw [Finset.sum_filter, sum_idx2]
  refine Finset.sum_congr rfl fun n _ => ?_
  have key : ∀ f' : Fin 64, scatter_S64x64_S100000x1_S100000x64_1_0_0_1.resultIdx? (ix2 n f') (broadcastInDim S100000x1 ![0] bcast_S100000_S100000x1_0 batch) = some (ix2 g f)
      ↔ (Cert.Spec.inSeg batch n g ∧ f' = f) := fun f' => by
    rw [lands2, ids_apply, toInt_eq_seg]; rfl
  refine (Finset.sum_congr rfl fun f' _ => if_congr (key f') rfl rfl).trans ?_
  by_cases h : Cert.Spec.inSeg batch n g
  · simp [h]
  · simp [h]

/-! ## The scatter of the [100000] ones into [64] -/

theorem start1_0 (j : S100000.Idx) (idx : IVec S100000x1 32) :
    scatter_S64_S100000x1_S100000_n_0_0_1.start j idx 0 = (idx (ix2 (j 0) 0)).toInt := by
  unfold ScatterDims.start
  rw [dif_pos (show (0 : Fin S64.rank) ∈ scatter_S64_S100000x1_S100000_n_0_0_1.scatterDimsToOperandDims by decide)]
  refine congrArg (fun v => (idx v).toInt) (funext fun b => ?_)
  match b with
  | ⟨0, _⟩ => rfl
  | ⟨1, _⟩ => rfl

theorem window1_0 (j : S100000.Idx) : scatter_S64_S100000x1_S100000_n_0_0_1.window j 0 = 0 := by
  unfold ScatterDims.window
  rw [dif_neg (show ¬(0 : Fin S64.rank) ∈ scatter_S64_S100000x1_S100000_n_0_0_1.sKept by decide)]

/-- Row `n`'s update lands on segment `g` exactly when the row's index word, read signed, is `g`. -/
theorem lands1 (idx : IVec S100000x1 32) (n : Fin 100000) (g : Fin 64) :
    scatter_S64_S100000x1_S100000_n_0_0_1.resultIdx? (ix1 n) idx = some (ix1 g) ↔ (idx (ix2 n 0)).toInt = (g.val : Int) := by
  rw [resultIdx?_eq_some_iff]
  constructor
  · intro h
    have h0 := h 0
    rw [start1_0, window1_0] at h0
    have h0' : (idx (ix2 n 0)).toInt + ((0 : Nat) : Int) = (g.val : Int) := h0
    omega
  · intro h0 a
    match a with
    | ⟨0, _⟩ =>
      show scatter_S64_S100000x1_S100000_n_0_0_1.start (ix1 n) idx 0 + ((scatter_S64_S100000x1_S100000_n_0_0_1.window (ix1 n) 0 : Nat) : Int) = (g.val : Int)
      rw [start1_0, window1_0]
      show (idx (ix2 n 0)).toInt + ((0 : Nat) : Int) = (g.val : Int)
      omega

/-- The scatter-add of one value per row by segment id, read at `g`: the operand there plus the sum over the rows of
    the segment of the row's update. -/
theorem scatter1_apply (x : FVec Ideal S64 .f32) (batch : IVec S100000 32) (upd : FVec Ideal S100000 .f32) (g : Fin 64) :
    Host.scatterAdd (F := Ideal) scatter_S64_S100000x1_S100000_n_0_0_1 x (broadcastInDim S100000x1 ![0] bcast_S100000_S100000x1_0 batch) upd (ix1 g)
      = x (ix1 g) + ∑ n : Fin 100000, if Cert.Spec.inSeg batch n g then upd (ix1 n) else 0 := by
  show x (ix1 g) + ∑ j ∈ Finset.univ.filter (fun j => scatter_S64_S100000x1_S100000_n_0_0_1.resultIdx? j (broadcastInDim S100000x1 ![0] bcast_S100000_S100000x1_0 batch) = some (ix1 g)), upd j = _
  refine congrArg (x (ix1 g) + ·) ?_
  rw [Finset.sum_filter, sum_idx1]
  refine Finset.sum_congr rfl fun n _ => ?_
  refine if_congr ?_ rfl rfl
  rw [lands1, ids_apply, toInt_eq_seg]; rfl

end Cert.ReferenceIdeal.RefValue

end
-- ==== Proof.RefValue.lean ====
/-
  The reference's stages after the message passing, read index by index at the ideal instance, are the specification:
  the rectified rows `leaky (agg[n,f] + b1[f])`; their sums and the row counts by segment (the two scatter-adds into
  zeros, read by `scatter2_apply` and `scatter1_apply`); the quotient by `max count 1`; the product with `W2` (the
  contraction's one axis re-indexed by its coordinate); the bias `b2`; `tanh`.
-/
import proofs.«428046_j7275674600336_1_alg».proof.Proof.RefTerm
import proofs.«428046_j7275674600336_1_alg».proof.Proof.RefScatter

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! ## The stages by name -/

section Stages
variable {F : FTy → Type} [FloatOps F]

/-- The aggregated rows plus the bias `b1` along the features. -/
def preT (agg : FVec F S100000x64 .f32) (b1 : FVec F S64 .f32) : FVec F S100000x64 .f32 :=
  addf agg (broadcastInDim S100000x64 ![0, 1] bcast_S1x64_S100000x64_0_1 (broadcastInDim S1x64 ![1] bcast_S64_S1x64_1 b1))

/-- The rectified rows. -/
def actT (agg : FVec F S100000x64 .f32) (b1 : FVec F S64 .f32) : FVec F S100000x64 .f32 :=
  select (cmpf (F := F) .ogt (preT agg b1) (broadcastInDim S100000x64 ![] bcast_S_S100000x64 (constant S_ .f32 0x00000000#32))) (preT agg b1) (mulf (broadcastInDim S100000x64 ![] bcast_S_S100000x64 (constant S_ .f32 0x3C23D70A#32)) (preT agg b1))

/-- The rectified rows summed by segment. -/
def sumsT (agg : FVec F S100000x64 .f32) (b1 : FVec F S64 .f32) (batch : IVec S100000 32) : FVec F S64x64 .f32 :=
  Host.scatterAdd scatter_S64x64_S100000x1_S100000x64_1_0_0_1 (broadcastInDim S64x64 ![] bcast_S_S64x64 (constant S_ .f32 0x00000000#32)) (broadcastInDim S100000x1 ![0] bcast_S100000_S100000x1_0 batch) (actT agg b1)

/-- The rows counted by segment. -/
def cntT (batch : IVec S100000 32) : FVec F S64 .f32 :=
  Host.scatterAdd scatter_S64_S100000x1_S100000_n_0_0_1 (broadcastInDim S64 ![] bcast_S_S64 (constant S_ .f32 0x00000000#32)) (broadcastInDim S100000x1 ![0] bcast_S100000_S100000x1_0 batch) (broadcastInDim S100000 ![] bcast_S_S100000 (constant S_ .f32 0x3F800000#32))

/-- The tail is these stages composed. -/
theorem refTail_stages (agg : FVec F S100000x64 .f32) (b1 : FVec F S64 .f32) (batch : IVec S100000 32)
    (W2 : FVec F S64x32 .f32) (b2 : FVec F S32 .f32) :
    refTail agg b1 batch W2 b2
      = Host.tanh (addf (Host.dotGeneral dot_S64x64_S64x32_S64x32_1_0_0_1_n_n none (Host.divf (sumsT agg b1 batch) (broadcastInDim S64x64 ![0, 1] bcast_S64x1_S64x64_0_1 (broadcastInDim S64x1 ![0] bcast_S64_S64x1_0 (maximumf (cntT batch) (broadcastInDim S64 ![] bcast_S_S64 (constant S_ .f32 0x3F800000#32)))))) W2) (broadcastInDim S64x32 ![0, 1] bcast_S1x32_S64x32_0_1 (broadcastInDim S1x32 ![1] bcast_S32_S1x32_1 b2))) := rfl

end Stages

/-! ## Each stage at an index -/

/-- The bias `b1`, broadcast along the rows, read at (n, f). -/
theorem bias1_apply {α : Type} (b1 : S64.Idx → α) (n : Fin 100000) (f : Fin 64) :
    broadcastInDim S100000x64 ![0, 1] bcast_S1x64_S100000x64_0_1 (broadcastInDim S1x64 ![1] bcast_S64_S1x64_1 b1) (ix2 n f) = b1 (ix1 f) := by
  rw [broadcastInDim_apply _ bcast_S1x64_S100000x64_0_1 _ (ix2 n f) (ix2 (0 : Fin 1) f) (fun a => match a with
    | ⟨0, _⟩ => by show 0 = if (1 : Nat) = 1 then 0 else n.val; rw [if_pos rfl]
    | ⟨1, _⟩ => by show f.val = if (64 : Nat) = 1 then 0 else f.val; rw [if_neg (by decide)])]
  exact broadcastInDim_apply _ bcast_S64_S1x64_1 b1 (ix2 (0 : Fin 1) f) (ix1 f) (fun a => match a with
    | ⟨0, _⟩ => by show f.val = if (64 : Nat) = 1 then 0 else f.val; rw [if_neg (by decide)])

/-- The bias `b2`, broadcast along the segments, read at (g, k). -/
theorem bias2_apply {α : Type} (b2 : S32.Idx → α) (g : Fin 64) (k : Fin 32) :
    broadcastInDim S64x32 ![0, 1] bcast_S1x32_S64x32_0_1 (broadcastInDim S1x32 ![1] bcast_S32_S1x32_1 b2) (ix2 g k) = b2 (ix1 k) := by
  rw [broadcastInDim_apply _ bcast_S1x32_S64x32_0_1 _ (ix2 g k) (ix2 (0 : Fin 1) k) (fun a => match a with
    | ⟨0, _⟩ => by show 0 = if (1 : Nat) = 1 then 0 else g.val; rw [if_pos rfl]
    | ⟨1, _⟩ => by show k.val = if (32 : Nat) = 1 then 0 else k.val; rw [if_neg (by decide)])]
  exact broadcastInDim_apply _ bcast_S32_S1x32_1 b2 (ix2 (0 : Fin 1) k) (ix1 k) (fun a => match a with
    | ⟨0, _⟩ => by show k.val = if (32 : Nat) = 1 then 0 else k.val; rw [if_neg (by decide)])

/-- A per-segment value, broadcast along the features, read at (g, f). -/
theorem col_apply {α : Type} (v : S64.Idx → α) (g f : Fin 64) :
    broadcastInDim S64x64 ![0, 1] bcast_S64x1_S64x64_0_1 (broadcastInDim S64x1 ![0] bcast_S64_S64x1_0 v) (ix2 g f) = v (ix1 g) := by
  rw [broadcastInDim_apply _ bcast_S64x1_S64x64_0_1 _ (ix2 g f) (ix2 g (0 : Fin 1)) (fun a => match a with
    | ⟨0, _⟩ => by show g.val = if (64 : Nat) = 1 then 0 else g.val; rw [if_neg (by decide)]
    | ⟨1, _⟩ => by show 0 = if (1 : Nat) = 1 then 0 else f.val; rw [if_pos rfl])]
  exact broadcastInDim_apply _ bcast_S64_S64x1_0 v (ix2 g (0 : Fin 1)) (ix1 g) (fun a => match a with
    | ⟨0, _⟩ => by show g.val = if (64 : Nat) = 1 then 0 else g.val; rw [if_neg (by decide)])

/-- The rectified rows at (n, f). -/
theorem actT_apply (agg : FVec Ideal S100000x64 .f32) (b1 : FVec Ideal S64 .f32) (n : Fin 100000) (f : Fin 64) :
    actT (F := Ideal) agg b1 (ix2 n f) = Cert.Spec.leaky (agg (ix2 n f) + b1 (ix1 f)) := by
  have hpre : preT (F := Ideal) agg b1 (ix2 n f) = agg (ix2 n f) + b1 (ix1 f) := by
    unfold preT
    rw [addf_apply, bias1_apply]
  rw [← hpre, ← Cert.Spec.leaky_ops]
  rfl

/-- The sums by segment at (g, f). -/
theorem sumsT_apply (agg : FVec Ideal S100000x64 .f32) (b1 : FVec Ideal S64 .f32) (batch : IVec S100000 32) (g f : Fin 64) :
    sumsT (F := Ideal) agg b1 batch (ix2 g f) = Cert.Spec.sumsOf agg b1 batch g f := by
  unfold sumsT Cert.Spec.sumsOf
  rw [scatter2_apply]
  have hz : broadcastInDim S64x64 ![] bcast_S_S64x64 (constant (F := Ideal) S_ .f32 0x00000000#32) (ix2 g f) = 0 :=
    Ideal.ofBits_zero_f32
  rw [hz, zero_add]
  refine Finset.sum_congr rfl fun n _ => ?_
  rw [actT_apply]

/-- The counts by segment at `g`. -/
theorem cntT_apply (batch : IVec S100000 32) (g : Fin 64) :
    cntT (F := Ideal) batch (ix1 g) = Cert.Spec.cntOf batch g := by
  unfold cntT Cert.Spec.cntOf
  rw [scatter1_apply]
  have hz : broadcastInDim S64 ![] bcast_S_S64 (constant (F := Ideal) S_ .f32 0x00000000#32) (ix1 g) = 0 :=
    Ideal.ofBits_zero_f32
  rw [hz, zero_add]
  refine Finset.sum_congr rfl fun n _ => ?_
  have h1 : broadcastInDim S100000 ![] bcast_S_S100000 (constant (F := Ideal) S_ .f32 0x3F800000#32) (ix1 n) = 1 :=
    Cert.Spec.ofBits_one_f32
  rw [h1]

/-- The product with `W2` at (g, k): the sum over the features. -/
theorem dot2_apply (y : FVec Ideal S64x64 .f32) (w : FVec Ideal S64x32 .f32) (g : Fin 64) (k : Fin 32) :
    Host.dotGeneral (F := Ideal) dot_S64x64_S64x32_S64x32_1_0_0_1_n_n none y w (ix2 g k) = ∑ f : Fin 64, y (ix2 g f) * w (ix2 f k) := by
  simp only [Host.dotGeneral]
  rw [Ideal.dotGeneral_apply, ← Equiv.sum_comp (ValueIdx.contrEquiv1 dot_S64x64_S64x32_S64x32_1_0_0_1_n_n 64 rfl rfl).symm]
  refine Finset.sum_congr rfl fun f _ => ?_
  have hk := ValueIdx.contrEquiv1_symm_val dot_S64x64_S64x32_S64x32_1_0_0_1_n_n 64 rfl rfl f
  have el : dot_S64x64_S64x32_S64x32_1_0_0_1_n_n.lhsIdx (ix2 g k) ((ValueIdx.contrEquiv1 dot_S64x64_S64x32_S64x32_1_0_0_1_n_n 64 rfl rfl).symm f) = ix2 g f := funext fun a => Fin.ext (by
    match a with
    | ⟨0, _⟩ => exact Cert.ReferenceIdeal.ReadP.lhs_main_v66_0 _ _
    | ⟨1, _⟩ => exact (Cert.ReferenceIdeal.ReadP.lhs_main_v66_1 _ _).trans hk)
  have er : dot_S64x64_S64x32_S64x32_1_0_0_1_n_n.rhsIdx (ix2 g k) ((ValueIdx.contrEquiv1 dot_S64x64_S64x32_S64x32_1_0_0_1_n_n 64 rfl rfl).symm f) = ix2 f k := funext fun a => Fin.ext (by
    match a with
    | ⟨0, _⟩ => exact (Cert.ReferenceIdeal.ReadP.rhs_main_v66_0 _ _).trans hk
    | ⟨1, _⟩ => exact Cert.ReferenceIdeal.ReadP.rhs_main_v66_1 _ _)
  rw [el, er]

/-! ## The tail is the specification -/

/-- `tanh` on the host at an index is the ideal instance's `tanh` of the element. -/
theorem tanh_apply {s : Shape} {φ : FTy} (x : FVec Ideal s φ) (i : s.Idx) : Host.tanh x i = Ideal.tanh (x i) := rfl

/-- The host's quotient at an index is the ideal instance's division of the elements. -/
theorem hostDivf_apply {s : Shape} {φ : FTy} (a b : FVec Ideal s φ) (i : s.Idx) : Host.divf a b i = Ideal.div (a i) (b i) := rfl

/-- The splat of the word of `1.0` over the segments reads `1`. -/
theorem one64_apply (g : Fin 64) :
    broadcastInDim S64 ![] bcast_S_S64 (constant (F := Ideal) S_ .f32 0x3F800000#32) (ix1 g) = 1 :=
  Cert.Spec.ofBits_one_f32

theorem refTail_eq_pool (agg : FVec Ideal S100000x64 .f32) (b1 : FVec Ideal S64 .f32) (batch : IVec S100000 32)
    (W2 : FVec Ideal S64x32 .f32) (b2 : FVec Ideal S32 .f32) :
    refTail (F := Ideal) agg b1 batch W2 b2 = Cert.Spec.poolOf agg b1 batch W2 b2 := by
  funext i
  obtain ⟨g, k, rfl⟩ : ∃ (g : Fin 64) (k : Fin 32), i = ix2 g k := ⟨i 0, i 1, eq_ix2 i⟩
  rw [Cert.Spec.poolOf_ix2, refTail_stages, tanh_apply, addf_apply, dot2_apply, bias2_apply]
  refine congrArg (fun s => Ideal.tanh (s + b2 (ix1 k))) (Finset.sum_congr rfl fun f _ => ?_)
  rw [hostDivf_apply, sumsT_apply, col_apply, maximumf_apply, cntT_apply, one64_apply]

/-- The reference's result is the specification at `hOf x W1` carried through the message-passing stage. -/
theorem res_eq_pool (m : (ℓ : Loc nD τ sig) → Buf (Elt Ideal) ℓ) (c : Dev nD) :
    Cert.ReferenceIdeal.ValueP.res_main_v70 (F := Ideal) m c
      = Cert.Spec.poolOf
          (refAgg (F := Ideal) (Cert.Spec.hOf (m ((c.tc : Thread nD τ).loc main_arg0)) (m ((c.tc : Thread nD τ).loc main_arg1))) (m ((c.tc : Thread nD τ).loc main_arg5)))
          (m ((c.tc : Thread nD τ).loc main_arg2)) (m ((c.tc : Thread nD τ).loc main_arg6)) (m ((c.tc : Thread nD τ).loc main_arg3)) (m ((c.tc : Thread nD τ).loc main_arg4)) :=
  (res_decomp m c).trans
    ((congrArg (fun h => refTail (F := Ideal) (refAgg (F := Ideal) h (m ((c.tc : Thread nD τ).loc main_arg5)))
        (m ((c.tc : Thread nD τ).loc main_arg2)) (m ((c.tc : Thread nD τ).loc main_arg6)) (m ((c.tc : Thread nD τ).loc main_arg3)) (m ((c.tc : Thread nD τ).loc main_arg4)))
      (dot_eq_hOf (m ((c.tc : Thread nD τ).loc main_arg0)) (m ((c.tc : Thread nD τ).loc main_arg1)))).trans
      (refTail_eq_pool _ _ _ _ _))

end Cert.ReferenceIdeal.RefValue

end
-- ==== Proof.Bridge.lean ====
/-
  The message-passing stage is one function in both programs: the kernel program's host operations between its two
  regions and the reference's are the same operations on the same literal shapes and dimension numbers, so the two
  composed terms are the same term, for every float instance.
-/
import proofs.«428046_j7275674600336_1_alg».proof.Proof.RefTerm
import proofs.«428046_j7275674600336_1_alg».proof.Proof.KI.HostValues

noncomputable section

namespace Cert.Bridge

open Idealize.ShloMosaic

/-- The kernel program's message-passing stage is the reference's, at the same `h` and edge list. -/
theorem chain_eq {F : FTy → Type} [FloatOps F] (h : FVec F Cert.ReferenceIdeal.S100000x64 .f32)
    (ei : IVec Cert.ReferenceIdeal.S2x1600000 32) :
    Cert.KernelIdeal.HostValues.kAgg h ei = Cert.ReferenceIdeal.RefValue.refAgg h ei := rfl

end Cert.Bridge

end
-- ==== Proof.lean ====
/-
  A graph encoder against its jnp reference, over the extended reals.

  Both programs compute, from node features x (100000 × 128), weights W1 (128 × 64), W2 (64 × 32), biases b1, b2, an
  edge index and per-node segment ids `batch`:  h = x · W1;  agg = the degree-normalised gather / scale / scatter-add
  of h's rows along the edges (with self loops);  act = leaky(agg + b1), leaky a = a where a > 0 and 0.01·a elsewhere;
  for each of 64 segments g, sums[g] = the sum of act's rows n with batch[n] = g and cnt[g] their number;
  out = tanh((sums / max(cnt, 1)) · W2 + b2).

  The kernel program computes h in a first kernel region (ten row blocks of 10000, the product of each block with the
  whole W1 accumulated into zero), agg by the same host operations as the reference, and everything after agg in a
  second kernel region over ten row blocks: it keeps running sums and counts in two scratch buffers, adding at each
  point the product of the block's one-hot table (entry (n, g) is one exactly when the word batch[n] is the word of
  g) with the block's activations, resp. with a column of ones, and at the last point divides, multiplies by W2,
  adds b2 and takes tanh. The reference gets sums and cnt by scatter-adds into zeros indexed by batch, which drop a
  row whose id is outside 0 … 63 — exactly the rows whose one-hot row is all zero. So the two agree for every value of
  batch: a sum over the rows of a segment is the sum over all rows of (one-hot entry) · (value), since 0 · a = 0 and
  1 · a = a for every extended real and finite sums regroup freely. No finiteness is used: the precondition is never
  opened.

  The frames (each program terminates on every weakly fair execution, faults nowhere and leaves its arguments as
  launched): the kernel programs' from their run segment by segment — host stretches and the two kernel regions, each
  region from its own body obligation —, the same text at the word level and at the ideal instance; the reference's
  from its run. The ideal pass rewrote nothing, so the idealization claim is trivial. The value claim: the kernel
  program's run names its result, the pooling region's array after its one write-back (`Whole.result`), which is the
  specification's pooling function of the arguments (`ResultValue.result_eq`); the reference's run ends at its
  composed term, which is the same function (`RefValue.res_eq_pool`), the two programs' shared host chain being one
  function (`Bridge.chain_eq`).
-/
import proofs.«428046_j7275674600336_1_alg».proof.Defs
import proofs.«428046_j7275674600336_1_alg».proof.Proof.Gen.Kernel
import proofs.«428046_j7275674600336_1_alg».proof.Proof.Gen.KernelIdeal
import proofs.«428046_j7275674600336_1_alg».proof.Proof.Gen.ReferenceIdeal
import proofs.«428046_j7275674600336_1_alg».proof.Proof.Gen.Pre_finite_inputs
import proofs.«428046_j7275674600336_1_alg».proof.Proof.K.Whole
import proofs.«428046_j7275674600336_1_alg».proof.Proof.KI.Whole
import proofs.«428046_j7275674600336_1_alg».proof.Proof.KI.ResultValue
import proofs.«428046_j7275674600336_1_alg».proof.Proof.RefValue
import proofs.«428046_j7275674600336_1_alg».proof.Proof.Bridge

noncomputable section

namespace Cert.Proof

open Idealize.ShloMosaic Idealize.SL.Sem

namespace Claims

/-- The word-level program runs and leaves its arguments as launched. -/
theorem frame_kernel : Cert.frame_Kernel := fun m ρ _ => Cert.Kernel.Whole.frame m ρ

/-- So does the idealized program. -/
theorem frame_kernelIdeal : Cert.frame_KernelIdeal := fun m ρ _ => Cert.KernelIdeal.Whole.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both idealized programs run and end with the same result: the kernel
    program's at the pooling region's result array, the reference's at its composed term, both the specification's
    pooling function of the arguments. -/
theorem algebraic : Cert.algebraic_KernelIdeal_ReferenceIdeal := by
  intro m ρ m' ρ' _ hagree
  refine ⟨fun c => Cert.KernelIdeal.Whole.result m c, Cert.KernelIdeal.Whole.run_out m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6⟩ := hagree c
  refine (Cert.ReferenceIdeal.RefValue.res_eq_pool m' c).trans ?_
  rw [h0, h1, h2, h3, h4, h5, h6, ← Cert.Bridge.chain_eq]
  exact (Cert.KernelIdeal.ResultValue.result_eq m c).symm

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
